-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x128000 : Shape := ⟨2, ![1, 128000]⟩
abbrev S200x128000 : Shape := ⟨2, ![200, 128000]⟩
abbrev S256x128000 : Shape := ⟨2, ![256, 128000]⟩
abbrev S128000x256 : Shape := ⟨2, ![128000, 256]⟩
abbrev S200x256 : Shape := ⟨2, ![200, 256]⟩
abbrev S_ : Shape := ⟨0, ![]⟩

class Facts : Prop where
  bcast_S_S1x128000 : S_.BroadcastsInDim S1x128000 (![] : Fin 0 → Fin S1x128000.rank)
  reducesTo_S1x128000_S_d0_1 : S1x128000.ReducesTo [0, 1] S_
  h_S_ : 0 < S_.numel
  bcast_S_S200x128000 : S_.BroadcastsInDim S200x128000 (![] : Fin 0 → Fin S200x128000.rank)
  reducesTo_S200x128000_S_d0_1 : S200x128000.ReducesTo [0, 1] S_
  bcast_S_S256x128000 : S_.BroadcastsInDim S256x128000 (![] : Fin 0 → Fin S256x128000.rank)
  reducesTo_S256x128000_S_d0_1 : S256x128000.ReducesTo [0, 1] S_
  bcast_S_S128000x256 : S_.BroadcastsInDim S128000x256 (![] : Fin 0 → Fin S128000x256.rank)
  reducesTo_S128000x256_S_d0_1 : S128000x256.ReducesTo [0, 1] S_
  bcast_S_S200x256 : S_.BroadcastsInDim S200x256 (![] : Fin 0 → Fin S200x256.rank)
  reducesTo_S200x256_S_d0_1 : S200x256.ReducesTo [0, 1] S_

variable [Facts]

def fn_part2 {F : FTy → Type} [FloatOps F] (main_arg7 : FVec F S200x256 .f32) (main_v33 : IVec S_ 1) : IVec S_ 1 :=
  let main_v34 : FVec F S200x256 .f32 := Host.absf main_arg7
  let main_cst_12 : FVec F S_ .f32 := constant S_ .f32 0x7F800000#32
  let main_v35 : FVec F S200x256 .f32 := broadcastInDim S200x256 ![] bcast_S_S200x256 main_cst_12
  let main_v36 : IVec S200x256 1 := cmpf .olt main_v34 main_v35
  let main_c_13 : IVec S_ 1 := constantI S_ 1 1#1
  let main_v37 : IVec S_ 1 := (fun x v => Host.reduce IntOp.andi x v reducesTo_S200x256_S_d0_1 h_S_) main_v36 main_c_13
  let main_v38 : IVec S_ 1 := andi main_v33 main_v37
  main_v38

def fn_part1 {F : FTy → Type} [FloatOps F] (main_arg4 : FVec F S256x128000 .f32) (main_arg5 : FVec F S128000x256 .f32) (main_arg6 : FVec F S200x256 .f32) (main_arg7 : FVec F S200x256 .f32) (main_v13 : IVec S_ 1) (main_v16 : IVec S256x128000 1) : IVec S_ 1 :=
  let main_c_5 : IVec S_ 1 := constantI S_ 1 1#1
  let main_v17 : IVec S_ 1 := (fun x v => Host.reduce IntOp.andi x v reducesTo_S256x128000_S_d0_1 h_S_) main_v16 main_c_5
  let main_v18 : IVec S_ 1 := andi main_v13 main_v17
  let main_v19 : FVec F S256x128000 .f32 := Host.absf main_arg4
  let main_cst_6 : FVec F S_ .f32 := constant S_ .f32 0x7F800000#32
  let main_v20 : FVec F S256x128000 .f32 := broadcastInDim S256x128000 ![] bcast_S_S256x128000 main_cst_6
  let main_v21 : IVec S256x128000 1 := cmpf .olt main_v19 main_v20
  let main_c_7 : IVec S_ 1 := constantI S_ 1 1#1
  let main_v22 : IVec S_ 1 := (fun x v => Host.reduce IntOp.andi x v reducesTo_S256x128000_S_d0_1 h_S_) main_v21 main_c_7
  let main_v23 : IVec S_ 1 := andi main_v18 main_v22
  let main_v24 : FVec F S128000x256 .f32 := Host.absf main_arg5
  let main_cst_8 : FVec F S_ .f32 := constant S_ .f32 0x7F800000#32
  let main_v25 : FVec F S128000x256 .f32 := broadcastInDim S128000x256 ![] bcast_S_S128000x256 main_cst_8
  let main_v26 : IVec S128000x256 1 := cmpf .olt main_v24 main_v25
  let main_c_9 : IVec S_ 1 := constantI S_ 1 1#1
  let main_v27 : IVec S_ 1 := (fun x v => Host.reduce IntOp.andi x v reducesTo_S128000x256_S_d0_1 h_S_) main_v26 main_c_9
  let main_v28 : IVec S_ 1 := andi main_v23 main_v27
  let main_v29 : FVec F S200x256 .f32 := Host.absf main_arg6
  let main_cst_10 : FVec F S_ .f32 := constant S_ .f32 0x7F800000#32
  let main_v30 : FVec F S200x256 .f32 := broadcastInDim S200x256 ![] bcast_S_S200x256 main_cst_10
  let main_v31 : IVec S200x256 1 := cmpf .olt main_v29 main_v30
  let main_c_11 : IVec S_ 1 := constantI S_ 1 1#1
  let main_v32 : IVec S_ 1 := (fun x v => Host.reduce IntOp.andi x v reducesTo_S200x256_S_d0_1 h_S_) main_v31 main_c_11
  let main_v33 : IVec S_ 1 := andi main_v28 main_v32
  fn_part2 (F := F) main_arg7 main_v33

def fn {F : FTy → Type} [FloatOps F] (main_arg0 : FVec F S1x128000 .f32) (main_arg1 : FVec F S200x128000 .f32) (main_arg2 : FVec F S256x128000 .f32) (main_arg3 : FVec F S256x128000 .f32) (main_arg4 : FVec F S256x128000 .f32) (main_arg5 : FVec F S128000x256 .f32) (main_arg6 : FVec F S200x256 .f32) (main_arg7 : FVec F S200x256 .f32) : IVec S_ 1 :=
  let main_v0 : FVec F S1x128000 .f32 := Host.absf main_arg0
  let main_cst : FVec F S_ .f32 := constant S_ .f32 0x7F800000#32
  let main_v1 : FVec F S1x128000 .f32 := broadcastInDim S1x128000 ![] bcast_S_S1x128000 main_cst
  let main_v2 : IVec S1x128000 1 := cmpf .olt main_v0 main_v1
  let main_c : IVec S_ 1 := constantI S_ 1 1#1
  let main_v3 : IVec S_ 1 := (fun x v => Host.reduce IntOp.andi x v reducesTo_S1x128000_S_d0_1 h_S_) main_v2 main_c
  let main_v4 : FVec F S200x128000 .f32 := Host.absf main_arg1
  let main_cst_0 : FVec F S_ .f32 := constant S_ .f32 0x7F800000#32
  let main_v5 : FVec F S200x128000 .f32 := broadcastInDim S200x128000 ![] bcast_S_S200x128000 main_cst_0
  let main_v6 : IVec S200x128000 1 := cmpf .olt main_v4 main_v5
  let main_c_1 : IVec S_ 1 := constantI S_ 1 1#1
  let main_v7 : IVec S_ 1 := (fun x v => Host.reduce IntOp.andi x v reducesTo_S200x128000_S_d0_1 h_S_) main_v6 main_c_1
  let main_v8 : IVec S_ 1 := andi main_v3 main_v7
  let main_v9 : FVec F S256x128000 .f32 := Host.absf main_arg2
  let main_cst_2 : FVec F S_ .f32 := constant S_ .f32 0x7F800000#32
  let main_v10 : FVec F S256x128000 .f32 := broadcastInDim S256x128000 ![] bcast_S_S256x128000 main_cst_2
  let main_v11 : IVec S256x128000 1 := cmpf .olt main_v9 main_v10
  let main_c_3 : IVec S_ 1 := constantI S_ 1 1#1
  let main_v12 : IVec S_ 1 := (fun x v => Host.reduce IntOp.andi x v reducesTo_S256x128000_S_d0_1 h_S_) main_v11 main_c_3
  let main_v13 : IVec S_ 1 := andi main_v8 main_v12
  let main_v14 : FVec F S256x128000 .f32 := Host.absf main_arg3
  let main_cst_4 : FVec F S_ .f32 := constant S_ .f32 0x7F800000#32
  let main_v15 : FVec F S256x128000 .f32 := broadcastInDim S256x128000 ![] bcast_S_S256x128000 main_cst_4
  let main_v16 : IVec S256x128000 1 := cmpf .olt main_v14 main_v15
  fn_part1 (F := F) main_arg4 main_arg5 main_arg6 main_arg7 main_v13 main_v16
-- ==== Kernel.lean ====
abbrev S1x128000 : Shape := ⟨2, ![1, 128000]⟩
abbrev S200x128000 : Shape := ⟨2, ![200, 128000]⟩
abbrev S256x128000 : Shape := ⟨2, ![256, 128000]⟩
abbrev S128000x256 : Shape := ⟨2, ![128000, 256]⟩
abbrev S200x256 : Shape := ⟨2, ![200, 256]⟩
abbrev S1x256 : Shape := ⟨2, ![1, 256]⟩
abbrev S1x3200 : Shape := ⟨2, ![1, 3200]⟩
abbrev S200x3200 : Shape := ⟨2, ![200, 3200]⟩
abbrev S256x3200 : Shape := ⟨2, ![256, 3200]⟩
abbrev S1x200 : Shape := ⟨2, ![1, 200]⟩
abbrev S1 : Shape := ⟨1, ![1]⟩
abbrev S1x1 : Shape := ⟨2, ![1, 1]⟩
abbrev S12800x256 : Shape := ⟨2, ![12800, 256]⟩
abbrev S1x12800 : Shape := ⟨2, ![1, 12800]⟩

abbrev nBuf : Space → Nat
  | .hbm => 10
  | .vmem => 21
  | .smem => 0
  | _ => 0

abbrev bufTy : (tb : Table) → Fin (tcTables nBuf tb) → BufTy
  | .hbm, ⟨0, _⟩ => ⟨S1x128000, .f32⟩
  | .hbm, ⟨1, _⟩ => ⟨S200x128000, .f32⟩
  | .hbm, ⟨2, _⟩ => ⟨S256x128000, .f32⟩
  | .hbm, ⟨3, _⟩ => ⟨S256x128000, .f32⟩
  | .hbm, ⟨4, _⟩ => ⟨S256x128000, .f32⟩
  | .hbm, ⟨5, _⟩ => ⟨S128000x256, .f32⟩
  | .hbm, ⟨6, _⟩ => ⟨S200x256, .f32⟩
  | .hbm, ⟨7, _⟩ => ⟨S200x256, .f32⟩
  | .hbm, ⟨8, _⟩ => ⟨S1x256, .f32⟩
  | .hbm, ⟨9, _⟩ => ⟨S1x128000, .f32⟩
  | .local _ .vmem, ⟨0, _⟩ => ⟨S1x3200, .f32⟩
  | .local _ .vmem, ⟨1, _⟩ => ⟨S1x3200, .f32⟩
  | .local _ .vmem, ⟨2, _⟩ => ⟨S200x3200, .f32⟩
  | .local _ .vmem, ⟨3, _⟩ => ⟨S200x3200, .f32⟩
  | .local _ .vmem, ⟨4, _⟩ => ⟨S256x3200, .f32⟩
  | .local _ .vmem, ⟨5, _⟩ => ⟨S256x3200, .f32⟩
  | .local _ .vmem, ⟨6, _⟩ => ⟨S256x3200, .f32⟩
  | .local _ .vmem, ⟨7, _⟩ => ⟨S256x3200, .f32⟩
  | .local _ .vmem, ⟨8, _⟩ => ⟨S256x3200, .f32⟩
  | .local _ .vmem, ⟨9, _⟩ => ⟨S256x3200, .f32⟩
  | .local _ .vmem, ⟨10, _⟩ => ⟨S200x256, .f32⟩
  | .local _ .vmem, ⟨11, _⟩ => ⟨S200x256, .f32⟩
  | .local _ .vmem, ⟨12, _⟩ => ⟨S1x256, .f32⟩
  | .local _ .vmem, ⟨13, _⟩ => ⟨S200x256, .f32⟩
  | .local _ .vmem, ⟨14, _⟩ => ⟨S200x256, .f32⟩
  | .local _ .vmem, ⟨15, _⟩ => ⟨S1x256, .f32⟩
  | .local _ .vmem, ⟨16, _⟩ => ⟨S1x256, .f32⟩
  | .local _ .vmem, ⟨17, _⟩ => ⟨S12800x256, .f32⟩
  | .local _ .vmem, ⟨18, _⟩ => ⟨S12800x256, .f32⟩
  | .local _ .vmem, ⟨19, _⟩ => ⟨S1x12800, .f32⟩
  | .local _ .vmem, ⟨20, _⟩ => ⟨S1x12800, .f32⟩
  | _, _ => ⟨S1x128000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![40], ![false]⟩

def k0_cond2 (i : grid0.Coords) : BitVec 1 :=
  let arg0 : BitVec 32 := BitVec.ofNat 32 (i 0).val
  let c39_i32 : BitVec 32 := 39#32
  let v31 : BitVec 1 := Scalar.cmpi .eq arg0 c39_i32
  let v32 : BitVec 32 := Scalar.extui v31
  let c0_i32_24 : BitVec 32 := 0#32
  let v33 : BitVec 1 := Scalar.cmpi .ne v32 c0_i32_24
  v33

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x3200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3200 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S200x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S12800x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x12800 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S200x256_S200x256_0_0 : ∀ a, (![0, 0] : Fin 2 → Nat) a + S200x256.size a ≤ S200x256.size a
  h_S200x256 : 0 < S200x256.numel
  shapeCasts_S200x256_S200x256 : S200x256.ShapeCasts S200x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S200x3200_S200x3200_0_0 : ∀ a, (![0, 0] : Fin 2 → Nat) a + S200x3200.size a ≤ S200x3200.size a
  h_S200x3200 : 0 < S200x3200.numel
  bitsLt_bf16_f32 : FTy.bits .bf16 < FTy.bits .f32
  inb_S1x3200_S1x3200_0_0 : ∀ a, (![0, 0] : Fin 2 → Nat) a + S1x3200.size a ≤ S1x3200.size a
  h_S1x3200 : 0 < S1x3200.numel
  inb_S256x3200_S256x3200_0_0 : ∀ a, (![0, 0] : Fin 2 → Nat) a + S256x3200.size a ≤ S256x3200.size a
  h_S256x3200 : 0 < S256x3200.numel
  reduces_S1x200_S1 : S1x200.Reduces [1] S1
  shapeCasts_S1_S1x1 : S1.ShapeCasts S1x1
  broadcasts_S1x1_S1x200 : S1x1.Broadcasts S1x200
  inb_S12800x256_S12800x256_0_0 : ∀ a, (![0, 0] : Fin 2 → Nat) a + S12800x256.size a ≤ S12800x256.size a
  h_S12800x256 : 0 < S12800x256.numel
  inb_S1x12800_S1x12800_0_0 : ∀ a, (![0, 0] : Fin 2 → Nat) a + S1x12800.size a ≤ S1x12800.size a
  h_S1x12800 : 0 < S1x12800.numel
  dot_S200x3200_S256x3200_S200x256_1_1_0_0_n_n_wf : DotDims.WF S200x3200 S256x3200 S200x256 [1] [1] [0] [0] [] []
  dot_S1x3200_S256x3200_S1x256_1_1_0_0_n_n_wf : DotDims.WF S1x3200 S256x3200 S1x256 [1] [1] [0] [0] [] []
  dot_S1x256_S200x256_S1x200_1_1_0_0_n_n_wf : DotDims.WF S1x256 S200x256 S1x200 [1] [1] [0] [0] [] []
  dot_S1x200_S200x256_S1x256_1_0_0_1_n_n_wf : DotDims.WF S1x200 S200x256 S1x256 [1] [0] [0] [1] [] []
  dot_S1x256_S12800x256_S1x12800_1_1_0_0_n_n_wf : DotDims.WF S1x256 S12800x256 S1x12800 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3200.size a ≤ S1x128000.size a
  hwx0_0 : ∀ i : grid0.Coords, EltTy.bits .f32 = 32 ∨ (Rect.block (s := S1x128000) S1x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x3200.size a ≤ S200x128000.size a
  hwx0_1 : ∀ i : grid0.Coords, EltTy.bits .f32 = 32 ∨ (Rect.block (s := S200x128000) S200x3200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3200.size a ≤ S256x128000.size a
  hwx0_2 : ∀ i : grid0.Coords, EltTy.bits .f32 = 32 ∨ (Rect.block (s := S256x128000) S256x3200.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x3200.size a ≤ S256x128000.size a
  hwx0_3 : ∀ i : grid0.Coords, EltTy.bits .f32 = 32 ∨ (Rect.block (s := S256x128000) S256x3200.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x3200.size a ≤ S256x128000.size a
  hwx0_4 : ∀ i : grid0.Coords, EltTy.bits .f32 = 32 ∨ (Rect.block (s := S256x128000) S256x3200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S200x256.size a ≤ S200x256.size a
  hwx0_5 : ∀ i : grid0.Coords, EltTy.bits .f32 = 32 ∨ (Rect.block (s := S200x256) S200x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x256.size a ≤ S200x256.size a
  hwx0_6 : ∀ i : grid0.Coords, EltTy.bits .f32 = 32 ∨ (Rect.block (s := S200x256) S200x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x256.size a ≤ S1x256.size a
  hwx1_0 : ∀ i : grid1.Coords, EltTy.bits .f32 = 32 ∨ (Rect.block (s := S1x256) S1x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x256.size a ≤ S128000x256.size a
  hwx1_1 : ∀ i : grid1.Coords, EltTy.bits .f32 = 32 ∨ (Rect.block (s := S128000x256) S12800x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x12800.size a ≤ S1x128000.size a
  hwx1_2 : ∀ i : grid1.Coords, EltTy.bits .f32 = 32 ∨ (Rect.block (s := S1x128000) S1x12800.size (cc1_transform_2 i) (hinb1_2 i)).WholeWords (EltTy.packing .f32)

variable [Facts₀]

def dot_S200x3200_S256x3200_S200x256_1_1_0_0_n_n : DotDims S200x3200 S256x3200 S200x256 where
  lhsContracting := [1]
  rhsContracting := [1]
  lhsNonContracting := [0]
  rhsNonContracting := [0]
  lhsBatch := []
  rhsBatch := []
  wf := dot_S200x3200_S256x3200_S200x256_1_1_0_0_n_n_wf
def dot_S1x3200_S256x3200_S1x256_1_1_0_0_n_n : DotDims S1x3200 S256x3200 S1x256 where
  lhsContracting := [1]
  rhsContracting := [1]
  lhsNonContracting := [0]
  rhsNonContracting := [0]
  lhsBatch := []
  rhsBatch := []
  wf := dot_S1x3200_S256x3200_S1x256_1_1_0_0_n_n_wf
def dot_S1x256_S200x256_S1x200_1_1_0_0_n_n : DotDims S1x256 S200x256 S1x200 where
  lhsContracting := [1]
  rhsContracting := [1]
  lhsNonContracting := [0]
  rhsNonContracting := [0]
  lhsBatch := []
  rhsBatch := []
  wf := dot_S1x256_S200x256_S1x200_1_1_0_0_n_n_wf
def dot_S1x200_S200x256_S1x256_1_0_0_1_n_n : DotDims S1x200 S200x256 S1x256 where
  lhsContracting := [1]
  rhsContracting := [0]
  lhsNonContracting := [0]
  rhsNonContracting := [1]
  lhsBatch := []
  rhsBatch := []
  wf := dot_S1x200_S200x256_S1x256_1_0_0_1_n_n_wf
def dot_S1x256_S12800x256_S1x12800_1_1_0_0_n_n : DotDims S1x256 S12800x256 S1x12800 where
  lhsContracting := [1]
  rhsContracting := [1]
  lhsNonContracting := [0]
  rhsNonContracting := [0]
  lhsBatch := []
  rhsBatch := []
  wf := dot_S1x256_S12800x256_S1x12800_1_1_0_0_n_n_wf

abbrev win0_0 : Pipeline.Window sig grid0 :=
  Pipeline.Window.ofSpec (Memref.whole main_arg0) S1x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x3200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x3200.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x3200.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x3200.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S200x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S200x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x256.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v0) S1x256.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S12800x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x12800.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1x128000 : Shape := ⟨2, ![1, 128000]⟩
abbrev S200x128000 : Shape := ⟨2, ![200, 128000]⟩
abbrev S256x128000 : Shape := ⟨2, ![256, 128000]⟩
abbrev S128000x256 : Shape := ⟨2, ![128000, 256]⟩
abbrev S200x256 : Shape := ⟨2, ![200, 256]⟩
abbrev S1x256 : Shape := ⟨2, ![1, 256]⟩
abbrev S256x200 : Shape := ⟨2, ![256, 200]⟩
abbrev S1x200 : Shape := ⟨2, ![1, 200]⟩
abbrev S_ : Shape := ⟨0, ![]⟩
abbrev S1 : Shape := ⟨1, ![1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S1x128000, .f32⟩
  | .hbm, ⟨1, _⟩ => ⟨S200x128000, .f32⟩
  | .hbm, ⟨2, _⟩ => ⟨S256x128000, .f32⟩
  | .hbm, ⟨3, _⟩ => ⟨S256x128000, .f32⟩
  | .hbm, ⟨4, _⟩ => ⟨S256x128000, .f32⟩
  | .hbm, ⟨5, _⟩ => ⟨S128000x256, .f32⟩
  | .hbm, ⟨6, _⟩ => ⟨S200x256, .f32⟩
  | .hbm, ⟨7, _⟩ => ⟨S200x256, .f32⟩
  | .hbm, ⟨8, _⟩ => ⟨S128000x256, .f32⟩
  | .hbm, ⟨9, _⟩ => ⟨S1x256, .f32⟩
  | .hbm, ⟨10, _⟩ => ⟨S128000x256, .f32⟩
  | .hbm, ⟨11, _⟩ => ⟨S200x256, .f32⟩
  | .hbm, ⟨12, _⟩ => ⟨S200x256, .f32⟩
  | .hbm, ⟨13, _⟩ => ⟨S128000x256, .f32⟩
  | .hbm, ⟨14, _⟩ => ⟨S200x256, .f32⟩
  | .hbm, ⟨15, _⟩ => ⟨S200x256, .f32⟩
  | .hbm, ⟨16, _⟩ => ⟨S256x200, .f32⟩
  | .hbm, ⟨17, _⟩ => ⟨S1x200, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S1, .f32⟩
  | .hbm, ⟨23, _⟩ => ⟨S1x1, .f32⟩
  | .hbm, ⟨24, _⟩ => ⟨S1x200, .f32⟩
  | .hbm, ⟨25, _⟩ => ⟨S1x200, .f32⟩
  | .hbm, ⟨26, _⟩ => ⟨S1x200, .f32⟩
  | .hbm, ⟨27, _⟩ => ⟨S_, .f32⟩
  | .hbm, ⟨28, _⟩ => ⟨S1, .f32⟩
  | .hbm, ⟨29, _⟩ => ⟨S1x1, .f32⟩
  | .hbm, ⟨30, _⟩ => ⟨S1x200, .f32⟩
  | .hbm, ⟨31, _⟩ => ⟨S1x200, .f32⟩
  | .hbm, ⟨32, _⟩ => ⟨S1x256, .f32⟩
  | .hbm, ⟨33, _⟩ => ⟨S1x256, .f32⟩
  | .hbm, ⟨34, _⟩ => ⟨S256x200, .f32⟩
  | .hbm, ⟨35, _⟩ => ⟨S1x200, .f32⟩
  | .hbm, ⟨36, _⟩ => ⟨S_, .f32⟩
  | .hbm, ⟨37, _⟩ => ⟨S1, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1x1, .f32⟩
  | .hbm, ⟨42, _⟩ => ⟨S1x200, .f32⟩
  | .hbm, ⟨43, _⟩ => ⟨S1x200, .f32⟩
  | .hbm, ⟨44, _⟩ => ⟨S1x200, .f32⟩
  | .hbm, ⟨45, _⟩ => ⟨S_, .f32⟩
  | .hbm, ⟨46, _⟩ => ⟨S1, .f32⟩
  | .hbm, ⟨47, _⟩ => ⟨S1x1, .f32⟩
  | .hbm, ⟨48, _⟩ => ⟨S1x200, .f32⟩
  | .hbm, ⟨49, _⟩ => ⟨S1x200, .f32⟩
  | .hbm, ⟨50, _⟩ => ⟨S1x256, .f32⟩
  | .hbm, ⟨51, _⟩ => ⟨S1x256, .f32⟩
  | .hbm, ⟨52, _⟩ => ⟨S256x200, .f32⟩
  | .hbm, ⟨53, _⟩ => ⟨S1x200, .f32⟩
  | .hbm, ⟨54, _⟩ => ⟨S_, .f32⟩
  | .hbm, ⟨55, _⟩ => ⟨S1, .f32⟩
  | .hbm, ⟨56, _⟩ => ⟨S_, .f32⟩
  | .hbm, ⟨57, _⟩ => ⟨S1, .f32⟩
  | .hbm, ⟨58, _⟩ => ⟨S1, .f32⟩
  | .hbm, ⟨59, _⟩ => ⟨S1x1, .f32⟩
  | .hbm, ⟨60, _⟩ => ⟨S1x200, .f32⟩
  | .hbm, ⟨61, _⟩ => ⟨S1x200, .f32⟩
  | .hbm, ⟨62, _⟩ => ⟨S1x200, .f32⟩
  | .hbm, ⟨63, _⟩ => ⟨S_, .f32⟩
  | .hbm, ⟨64, _⟩ => ⟨S1, .f32⟩
  | .hbm, ⟨65, _⟩ => ⟨S1x1, .f32⟩
  | .hbm, ⟨66, _⟩ => ⟨S1x200, .f32⟩
  | .hbm, ⟨67, _⟩ => ⟨S1x200, .f32⟩
  | .hbm, ⟨68, _⟩ => ⟨S1x256, .f32⟩
  | .hbm, ⟨69, _⟩ => ⟨S1x256, .f32⟩
  | .hbm, ⟨70, _⟩ => ⟨S256x128000, .f32⟩
  | .hbm, ⟨71, _⟩ => ⟨S1x128000, .f32⟩
  | _, _ => ⟨S1x128000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_4 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_cst_6 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  transposes_S256x128000_S128000x256_1_0 : S256x128000.Transposes [1, 0] S128000x256
  transposes_S200x256_S256x200_1_0 : S200x256.Transposes [1, 0] S256x200
  reducesTo_S1x200_S1_d1 : S1x200.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x200_0_1 : S1x1.BroadcastsInDim S1x200 (![0, 1] : Fin 2 → Fin S1x200.rank)
  transposes_S128000x256_S256x128000_1_0 : S128000x256.Transposes [1, 0] S256x128000
  dot_S1x128000_S128000x256_S1x256_1_0_0_1_n_n_wf : DotDims.WF S1x128000 S128000x256 S1x256 [1] [0] [0] [1] [] []
  dot_S200x128000_S128000x256_S200x256_1_0_0_1_n_n_wf : DotDims.WF S200x128000 S128000x256 S200x256 [1] [0] [0] [1] [] []
  dot_S1x256_S256x200_S1x200_1_0_0_1_n_n_wf : DotDims.WF S1x256 S256x200 S1x200 [1] [0] [0] [1] [] []
  dot_S1x200_S200x256_S1x256_1_0_0_1_n_n_wf : DotDims.WF S1x200 S200x256 S1x256 [1] [0] [0] [1] [] []
  dot_S1x256_S256x128000_S1x128000_1_0_0_1_n_n_wf : DotDims.WF S1x256 S256x128000 S1x128000 [1] [0] [0] [1] [] []

variable [Facts₀]

def dot_S1x128000_S128000x256_S1x256_1_0_0_1_n_n : DotDims S1x128000 S128000x256 S1x256 where
  lhsContracting := [1]
  rhsContracting := [0]
  lhsNonContracting := [0]
  rhsNonContracting := [1]
  lhsBatch := []
  rhsBatch := []
  wf := dot_S1x128000_S128000x256_S1x256_1_0_0_1_n_n_wf
def dot_S200x128000_S128000x256_S200x256_1_0_0_1_n_n : DotDims S200x128000 S128000x256 S200x256 where
  lhsContracting := [1]
  rhsContracting := [0]
  lhsNonContracting := [0]
  rhsNonContracting := [1]
  lhsBatch := []
  rhsBatch := []
  wf := dot_S200x128000_S128000x256_S200x256_1_0_0_1_n_n_wf
def dot_S1x256_S256x200_S1x200_1_0_0_1_n_n : DotDims S1x256 S256x200 S1x200 where
  lhsContracting := [1]
  rhsContracting := [0]
  lhsNonContracting := [0]
  rhsNonContracting := [1]
  lhsBatch := []
  rhsBatch := []
  wf := dot_S1x256_S256x200_S1x200_1_0_0_1_n_n_wf
def dot_S1x200_S200x256_S1x256_1_0_0_1_n_n : DotDims S1x200 S200x256 S1x256 where
  lhsContracting := [1]
  rhsContracting := [0]
  lhsNonContracting := [0]
  rhsNonContracting := [1]
  lhsBatch := []
  rhsBatch := []
  wf := dot_S1x200_S200x256_S1x256_1_0_0_1_n_n_wf
def dot_S1x256_S256x128000_S1x128000_1_0_0_1_n_n : DotDims S1x256 S256x128000 S1x128000 where
  lhsContracting := [1]
  rhsContracting := [0]
  lhsNonContracting := [0]
  rhsNonContracting := [1]
  lhsBatch := []
  rhsBatch := []
  wf := dot_S1x256_S256x128000_S1x128000_1_0_0_1_n_n_wf

class Facts : Prop extends Facts₀ where

variable [Facts]
-- ==== Proof.K.EncBase.lean ====
/-
  The first region (the encoder's accumulation over forty column tiles, with the three memory hops folded into its last
  point): what every later module on it is stated over. Which branch of the body a grid point takes, in closed form;
  where the one output window is idle; the staging and scratch memrefs by name; the class invariant with the three
  scratch buffers owned as memrefs; each input window's block of its array.
-/
import proofs.«115764_j28621662061019_1_alg».proof.Proof.Gen.Kernel.Launch
import proofs.«115764_j28621662061019_1_alg».proof.Proof.Gen.Kernel.Skeleton
import proofs.«115764_j28621662061019_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The reset branch: taken when the grid coordinate is 0. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The hop branch: taken when the grid coordinate is 39, the last tile. -/
abbrev cond2 (i : grid0.Coords) : Prop := k0_cond2 i = 1#1
theorem hcond2 : ∀ t : Fin cfg0.N, cond2 (grid0.coords t) ↔ t.val = 39 :=
  (by decide +kernel : ∀ t : Fin grid0.N, cond2 (grid0.coords t) ↔ t.val = 39)

/-! ## Where the windows are idle -/

theorem liveAt_in : ∀ (w : Fin 8), w.val < 7 → ∀ t : Fin cfg0.N, cfg0.idle w (grid0.coords t) = false := by decide +kernel
/-- Away from the last tile the result window is idle and not written back. -/
theorem idleAt7 : ∀ t : Fin cfg0.N, ¬cond2 (grid0.coords t) → cfg0.idle 7 (grid0.coords t) = true := by decide +kernel
theorem noFlush7 : ∀ t : Fin cfg0.N, ¬cond2 (grid0.coords t) → (cfg0.win 7).flush t = false := by decide +kernel
/-- At the last tile it is live. -/
theorem liveAt7 : ∀ t : Fin cfg0.N, cond2 (grid0.coords t) → cfg0.idle 7 (grid0.coords t) = false := by decide +kernel

/-! ## The memrefs the body is called with -/

abbrev ms0 (t : Fin cfg0.N) : Memref sig .tc .vmem S1x3200 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x3200 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x3200 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x3200 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x3200 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S200x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
/-- The three accumulators: whole scoped buffers of the kernel's own. -/
abbrev scA : Memref sig .tc .vmem S200x256 .f32 := Memref.whole cc0_scratch0
abbrev scC : Memref sig .tc .vmem S200x256 .f32 := Memref.whole cc0_scratch1
abbrev scQ : Memref sig .tc .vmem S1x256 .f32 := Memref.whole cc0_scratch2
/-- Views through which the accumulators' and the result buffer's contents are stated. -/
abbrev VA : View sig .tc .vmem S200x256 .f32 := scA.view
abbrev VC : View sig .tc .vmem S200x256 .f32 := scC.view
abbrev VQ : View sig .tc .vmem S1x256 .f32 := scQ.view
abbrev VO : View sig .tc .vmem S1x256 .f32 := (Memref.whole cc0_stg7_0 : Memref sig .tc .vmem S1x256 .f32).view

/-- The second region's staging buffers, each whole at some contents: scoped buffers the first region never touches. -/
def otherStg (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the three accumulators owned as memrefs at some contents. -/
theorem PhiA0_eq (c : Dev nD) :
    (Pipeline.ΦA spec0 c : sProp 𝕄)
      = iprop(iprop((∃ d, owns (c : Thread nD τ) scA fullShare d) ∗ (∃ d, owns (c : Thread nD τ) scC fullShare d) ∗ (∃ d, owns (c : Thread nD τ) scQ fullShare d) ∗ otherStg c) ∗ (∃ r, prngReg c r)) := by
  unfold Pipeline.ΦA; rw [scopedRest0_eq]; simp only [scA, scC, scQ, owns_whole, otherStg]; try rfl

/-! ## The windows' blocks, at the contents the region is entered with -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the array at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block of the array at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.Kernel.Enc

end
-- ==== Proof.K.EncRunA.lean ====
/-
  The encoder's body at the first tile: its run on whole memrefs, the accumulators' stores (the reset, then the first product) found as pieces.
-/
import proofs.«115764_j28621662061019_1_alg».proof.Proof.K.EncBase

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST tile (the reset branch taken, the hop branch not): on whole memrefs, the inputs at their blocks, the result buffer handed back untouched, the three accumulators at anything, the body runs to the continuation with each accumulator's stores written: the reset, then the tile's product added. -/
noncomputable def kernelRunA (c : Dev nD) (i : grid0.Coords) (arg1 : Memref sig .tc .vmem S1x3200 .f32) (harg1 : arg1.IsWhole) (arg2 : Memref sig .tc .vmem S200x3200 .f32) (harg2 : arg2.IsWhole) (arg3 : Memref sig .tc .vmem S256x3200 .f32) (harg3 : arg3.IsWhole) (arg4 : Memref sig .tc .vmem S256x3200 .f32) (harg4 : arg4.IsWhole) (arg5 : Memref sig .tc .vmem S256x3200 .f32) (harg5 : arg5.IsWhole) (arg6 : Memref sig .tc .vmem S200x256 .f32) (harg6 : arg6.IsWhole) (arg7 : Memref sig .tc .vmem S200x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S200x256 .f32) (harg10 : arg10.IsWhole) (arg11 : Memref sig .tc .vmem S1x256 .f32) (harg11 : arg11.IsWhole) (hc0 : cond0 i) (hc2 : ¬cond2 i)
    (x1 : Vec F S1x3200 .f32) (x2 : Vec F S200x3200 .f32) (x3 : Vec F S256x3200 .f32) (x4 : Vec F S256x3200 .f32) (x5 : Vec F S256x3200 .f32) (x6 : Vec F S200x256 .f32) (x7 : Vec F S200x256 .f32) :
    Σ' (LA : List (View.Piece (Elt F) S200x256 .f32)) (LC : List (View.Piece (Elt F) S200x256 .f32)), { LQ : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LC) ∗ (∃ f, arg11.view.loc (c : Thread nD τ) ↦[arg11.view.set]{fullShare} arg11.view.writes (Elt F) f LQ)) -∗ K ⟨⟩))
          ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11) K } := by
  refine ⟨?_, ?_, ?_, fun xi E K => ?run⟩
  case run =>
    simp only [cc0__encode_kernel_eq_skeleton]; unfold cc0__encode_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%da, %fa, -, HA⟩, ⟨%dc, %fc, -, HC⟩, ⟨%dq, %fq, -, HQ⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HA]; · iexists _; iexact HA
    isplitl [HC]; · iexists _; iexact HC
    iexists _; iexact HQ

end Cert.Kernel.Enc

end
-- ==== Proof.K.EncRunB.lean ====
/-
  The encoder's body at a middle tile: its run on whole memrefs, the accumulators' stores found as pieces.
-/
import proofs.«115764_j28621662061019_1_alg».proof.Proof.K.EncBase

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE tile (neither branch taken): on whole memrefs, the inputs at their blocks, the result buffer at anything and handed back untouched, the three accumulators at what the tile before left, the body runs to the continuation with each accumulator's stores written — the pieces the run finds are its witness. -/
noncomputable def kernelRunB (c : Dev nD) (i : grid0.Coords) (arg1 : Memref sig .tc .vmem S1x3200 .f32) (harg1 : arg1.IsWhole) (arg2 : Memref sig .tc .vmem S200x3200 .f32) (harg2 : arg2.IsWhole) (arg3 : Memref sig .tc .vmem S256x3200 .f32) (harg3 : arg3.IsWhole) (arg4 : Memref sig .tc .vmem S256x3200 .f32) (harg4 : arg4.IsWhole) (arg5 : Memref sig .tc .vmem S256x3200 .f32) (harg5 : arg5.IsWhole) (arg6 : Memref sig .tc .vmem S200x256 .f32) (harg6 : arg6.IsWhole) (arg7 : Memref sig .tc .vmem S200x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S200x256 .f32) (harg10 : arg10.IsWhole) (arg11 : Memref sig .tc .vmem S1x256 .f32) (harg11 : arg11.IsWhole) (hc0 : ¬cond0 i) (hc2 : ¬cond2 i)
    (x1 : Vec F S1x3200 .f32) (x2 : Vec F S200x3200 .f32) (x3 : Vec F S256x3200 .f32) (x4 : Vec F S256x3200 .f32) (x5 : Vec F S256x3200 .f32) (x6 : Vec F S200x256 .f32) (x7 : Vec F S200x256 .f32) (xa : Vec F S200x256 .f32) (xc : Vec F S200x256 .f32) (xq : Vec F S1x256 .f32) :
    Σ' (LA : List (View.Piece (Elt F) S200x256 .f32)) (LC : List (View.Piece (Elt F) S200x256 .f32)), { LQ : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xa ∗ owns (c : Thread nD τ) arg10 fullShare xc ∗ owns (c : Thread nD τ) arg11 fullShare xq
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LC) ∗ (∃ f, arg11.view.loc (c : Thread nD τ) ↦[arg11.view.set]{fullShare} arg11.view.writes (Elt F) f LQ)) -∗ K ⟨⟩))
          ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11) K } := by
  refine ⟨?_, ?_, ?_, fun xi E K => ?run⟩
  case run =>
    simp only [cc0__encode_kernel_eq_skeleton]; unfold cc0__encode_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fa, %hfa, HA⟩, ⟨%fc, %hfc, HC⟩, ⟨%fq, %hfq, HQ⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hfa; obtain rfl := harg10.eq_unread hfc; obtain rfl := harg11.eq_unread hfq
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HA]; · iexists _; iexact HA
    isplitl [HC]; · iexists _; iexact HC
    iexists _; iexact HQ

end Cert.Kernel.Enc

end
-- ==== Proof.K.EncRunC.lean ====
/-
  The encoder's body at the last tile: its run on whole memrefs — the last product added, then the three memory hops and the one store of the result — the stores found as pieces.
-/
import proofs.«115764_j28621662061019_1_alg».proof.Proof.K.EncBase

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST tile (the hop branch taken, the reset branch not): on whole memrefs, the inputs at their blocks, the result buffer at anything, the three accumulators at what the tile before left, the body runs to the continuation with the accumulators' stores and the result buffer's one store written. -/
noncomputable def kernelRunC (c : Dev nD) (i : grid0.Coords) (arg1 : Memref sig .tc .vmem S1x3200 .f32) (harg1 : arg1.IsWhole) (arg2 : Memref sig .tc .vmem S200x3200 .f32) (harg2 : arg2.IsWhole) (arg3 : Memref sig .tc .vmem S256x3200 .f32) (harg3 : arg3.IsWhole) (arg4 : Memref sig .tc .vmem S256x3200 .f32) (harg4 : arg4.IsWhole) (arg5 : Memref sig .tc .vmem S256x3200 .f32) (harg5 : arg5.IsWhole) (arg6 : Memref sig .tc .vmem S200x256 .f32) (harg6 : arg6.IsWhole) (arg7 : Memref sig .tc .vmem S200x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S200x256 .f32) (harg10 : arg10.IsWhole) (arg11 : Memref sig .tc .vmem S1x256 .f32) (harg11 : arg11.IsWhole) (hc0 : ¬cond0 i) (hc2 : cond2 i)
    (x1 : Vec F S1x3200 .f32) (x2 : Vec F S200x3200 .f32) (x3 : Vec F S256x3200 .f32) (x4 : Vec F S256x3200 .f32) (x5 : Vec F S256x3200 .f32) (x6 : Vec F S200x256 .f32) (x7 : Vec F S200x256 .f32) (xa : Vec F S200x256 .f32) (xc : Vec F S200x256 .f32) (xq : Vec F S1x256 .f32) :
    Σ' (LO : List (View.Piece (Elt F) S1x256 .f32)) (LA : List (View.Piece (Elt F) S200x256 .f32)) (LC : List (View.Piece (Elt F) S200x256 .f32)), { LQ : List (View.Piece (Elt F) S1x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xa ∗ owns (c : Thread nD τ) arg10 fullShare xc ∗ owns (c : Thread nD τ) arg11 fullShare xq
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LC) ∗ (∃ f, arg11.view.loc (c : Thread nD τ) ↦[arg11.view.set]{fullShare} arg11.view.writes (Elt F) f LQ)) -∗ K ⟨⟩))
          ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__encode_kernel_eq_skeleton]; unfold cc0__encode_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fa, %hfa, HA⟩, ⟨%fc, %hfc, HC⟩, ⟨%fq, %hfq, HQ⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfa; obtain rfl := harg10.eq_unread hfc; obtain rfl := harg11.eq_unread hfq
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [HA]; · iexists _; iexact HA
    isplitl [HC]; · iexists _; iexact HC
    iexists _; iexact HQ

end Cert.Kernel.Enc

end
-- ==== Proof.K.EncOuts.lean ====
/-
  What the encoder's region holds tile by tile. Per case of the body (first tile, a middle tile, the last tile): the run at
  a grid point on the memrefs the pipeline passes, what it leaves in each accumulator and, at the last tile, in the result
  buffer, read back through a view; that each piece list covers its buffer. Then the recursion over the forty tiles (each
  tile's accumulators over the tile before's), the region invariant that carries the three accumulators at those
  contents, and the pipeline's proof data built on it.
-/
import proofs.«115764_j28621662061019_1_alg».proof.Proof.K.EncRunA
import proofs.«115764_j28621662061019_1_alg».proof.Proof.K.EncRunB
import proofs.«115764_j28621662061019_1_alg».proof.Proof.K.EncRunC

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point -/

abbrev runA (c : Dev nD) (t : Fin cfg0.N) (hc0 : cond0 (grid0.coords t)) (hc2 : ¬cond2 (grid0.coords t)) :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scC (Memref.isWhole_whole _) scQ (Memref.isWhole_whole _) hc0 hc2 (iblk0 V c 0 t) (iblk0 V c 1 t) (iblk0 V c 2 t) (iblk0 V c 3 t) (iblk0 V c 4 t) (iblk0 V c 5 t) (iblk0 V c 6 t)
abbrev runB (c : Dev nD) (t : Fin cfg0.N) (hc0 : ¬cond0 (grid0.coords t)) (hc2 : ¬cond2 (grid0.coords t)) (xa : Vec F S200x256 .f32) (xc : Vec F S200x256 .f32) (xq : Vec F S1x256 .f32) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scC (Memref.isWhole_whole _) scQ (Memref.isWhole_whole _) hc0 hc2 (iblk0 V c 0 t) (iblk0 V c 1 t) (iblk0 V c 2 t) (iblk0 V c 3 t) (iblk0 V c 4 t) (iblk0 V c 5 t) (iblk0 V c 6 t) xa xc xq
abbrev runC (c : Dev nD) (t : Fin cfg0.N) (hc0 : ¬cond0 (grid0.coords t)) (hc2 : cond2 (grid0.coords t)) (xa : Vec F S200x256 .f32) (xc : Vec F S200x256 .f32) (xq : Vec F S1x256 .f32) :=
  kernelRunC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scC (Memref.isWhole_whole _) scQ (Memref.isWhole_whole _) hc0 hc2 (iblk0 V c 0 t) (iblk0 V c 1 t) (iblk0 V c 2 t) (iblk0 V c 3 t) (iblk0 V c 4 t) (iblk0 V c 5 t) (iblk0 V c 6 t) xa xc xq

/-! ## What each case leaves, read back -/

/-- The result buffer where the window is idle: a placeholder nothing consults (the buffer is neither written back nor
    read at the next point). -/
def outIdle : Vec F S1x256 .f32 := VO.read (Elt F) (VO.writes (Elt F) VO.junk [])

def aA (c : Dev nD) (t : Fin cfg0.N) (hc0 : cond0 (grid0.coords t)) (hc2 : ¬cond2 (grid0.coords t)) : Vec F S200x256 .f32 := VA.read (Elt F) (VA.writes (Elt F) VA.junk (runA V c t hc0 hc2).1)
def cA (c : Dev nD) (t : Fin cfg0.N) (hc0 : cond0 (grid0.coords t)) (hc2 : ¬cond2 (grid0.coords t)) : Vec F S200x256 .f32 := VC.read (Elt F) (VC.writes (Elt F) VC.junk (runA V c t hc0 hc2).2.1)
def qA (c : Dev nD) (t : Fin cfg0.N) (hc0 : cond0 (grid0.coords t)) (hc2 : ¬cond2 (grid0.coords t)) : Vec F S1x256 .f32 := VQ.read (Elt F) (VQ.writes (Elt F) VQ.junk (runA V c t hc0 hc2).2.2.1)
def aB (c : Dev nD) (t : Fin cfg0.N) (hc0 : ¬cond0 (grid0.coords t)) (hc2 : ¬cond2 (grid0.coords t)) (xa : Vec F S200x256 .f32) (xc : Vec F S200x256 .f32) (xq : Vec F S1x256 .f32) : Vec F S200x256 .f32 := VA.read (Elt F) (VA.writes (Elt F) VA.junk (runB V c t hc0 hc2 xa xc xq).1)
def cB (c : Dev nD) (t : Fin cfg0.N) (hc0 : ¬cond0 (grid0.coords t)) (hc2 : ¬cond2 (grid0.coords t)) (xa : Vec F S200x256 .f32) (xc : Vec F S200x256 .f32) (xq : Vec F S1x256 .f32) : Vec F S200x256 .f32 := VC.read (Elt F) (VC.writes (Elt F) VC.junk (runB V c t hc0 hc2 xa xc xq).2.1)
def qB (c : Dev nD) (t : Fin cfg0.N) (hc0 : ¬cond0 (grid0.coords t)) (hc2 : ¬cond2 (grid0.coords t)) (xa : Vec F S200x256 .f32) (xc : Vec F S200x256 .f32) (xq : Vec F S1x256 .f32) : Vec F S1x256 .f32 := VQ.read (Elt F) (VQ.writes (Elt F) VQ.junk (runB V c t hc0 hc2 xa xc xq).2.2.1)
def oC (c : Dev nD) (t : Fin cfg0.N) (hc0 : ¬cond0 (grid0.coords t)) (hc2 : cond2 (grid0.coords t)) (xa : Vec F S200x256 .f32) (xc : Vec F S200x256 .f32) (xq : Vec F S1x256 .f32) : Vec F S1x256 .f32 := VO.read (Elt F) (VO.writes (Elt F) VO.junk (runC V c t hc0 hc2 xa xc xq).1)
def aC (c : Dev nD) (t : Fin cfg0.N) (hc0 : ¬cond0 (grid0.coords t)) (hc2 : cond2 (grid0.coords t)) (xa : Vec F S200x256 .f32) (xc : Vec F S200x256 .f32) (xq : Vec F S1x256 .f32) : Vec F S200x256 .f32 := VA.read (Elt F) (VA.writes (Elt F) VA.junk (runC V c t hc0 hc2 xa xc xq).2.1)
def cC (c : Dev nD) (t : Fin cfg0.N) (hc0 : ¬cond0 (grid0.coords t)) (hc2 : cond2 (grid0.coords t)) (xa : Vec F S200x256 .f32) (xc : Vec F S200x256 .f32) (xq : Vec F S1x256 .f32) : Vec F S200x256 .f32 := VC.read (Elt F) (VC.writes (Elt F) VC.junk (runC V c t hc0 hc2 xa xc xq).2.2.1)
def qC (c : Dev nD) (t : Fin cfg0.N) (hc0 : ¬cond0 (grid0.coords t)) (hc2 : cond2 (grid0.coords t)) (xa : Vec F S200x256 .f32) (xc : Vec F S200x256 .f32) (xq : Vec F S1x256 .f32) : Vec F S1x256 .f32 := VQ.read (Elt F) (VQ.writes (Elt F) VQ.junk (runC V c t hc0 hc2 xa xc xq).2.2.2.1)

/-! ## Each piece list covers its buffer (every store is of the whole buffer) -/

theorem cov_aA (c : Dev nD) (t : Fin cfg0.N) (hc0 : cond0 (grid0.coords t)) (hc2 : ¬cond2 (grid0.coords t)) (y : S200x256.Idx) : ∃ pc ∈ (runA V c t hc0 hc2).1, y ∈ pc.1.set :=
  View.cover_of_tiledL (runA V c t hc0 hc2).1 S200x256.size (by sl_kernel_rfl) y
theorem cov_cA (c : Dev nD) (t : Fin cfg0.N) (hc0 : cond0 (grid0.coords t)) (hc2 : ¬cond2 (grid0.coords t)) (y : S200x256.Idx) : ∃ pc ∈ (runA V c t hc0 hc2).2.1, y ∈ pc.1.set :=
  View.cover_of_tiledL (runA V c t hc0 hc2).2.1 S200x256.size (by sl_kernel_rfl) y
theorem cov_qA (c : Dev nD) (t : Fin cfg0.N) (hc0 : cond0 (grid0.coords t)) (hc2 : ¬cond2 (grid0.coords t)) (y : S1x256.Idx) : ∃ pc ∈ (runA V c t hc0 hc2).2.2.1, y ∈ pc.1.set :=
  View.cover_of_tiledL (runA V c t hc0 hc2).2.2.1 S1x256.size (by sl_kernel_rfl) y
theorem cov_aB (c : Dev nD) (t : Fin cfg0.N) (hc0 : ¬cond0 (grid0.coords t)) (hc2 : ¬cond2 (grid0.coords t)) (xa : Vec F S200x256 .f32) (xc : Vec F S200x256 .f32) (xq : Vec F S1x256 .f32) (y : S200x256.Idx) : ∃ pc ∈ (runB V c t hc0 hc2 xa xc xq).1, y ∈ pc.1.set :=
  View.cover_of_tiledL (runB V c t hc0 hc2 xa xc xq).1 S200x256.size (by sl_kernel_rfl) y
theorem cov_cB (c : Dev nD) (t : Fin cfg0.N) (hc0 : ¬cond0 (grid0.coords t)) (hc2 : ¬cond2 (grid0.coords t)) (xa : Vec F S200x256 .f32) (xc : Vec F S200x256 .f32) (xq : Vec F S1x256 .f32) (y : S200x256.Idx) : ∃ pc ∈ (runB V c t hc0 hc2 xa xc xq).2.1, y ∈ pc.1.set :=
  View.cover_of_tiledL (runB V c t hc0 hc2 xa xc xq).2.1 S200x256.size (by sl_kernel_rfl) y
theorem cov_qB (c : Dev nD) (t : Fin cfg0.N) (hc0 : ¬cond0 (grid0.coords t)) (hc2 : ¬cond2 (grid0.coords t)) (xa : Vec F S200x256 .f32) (xc : Vec F S200x256 .f32) (xq : Vec F S1x256 .f32) (y : S1x256.Idx) : ∃ pc ∈ (runB V c t hc0 hc2 xa xc xq).2.2.1, y ∈ pc.1.set :=
  View.cover_of_tiledL (runB V c t hc0 hc2 xa xc xq).2.2.1 S1x256.size (by sl_kernel_rfl) y
theorem cov_oC (c : Dev nD) (t : Fin cfg0.N) (hc0 : ¬cond0 (grid0.coords t)) (hc2 : cond2 (grid0.coords t)) (xa : Vec F S200x256 .f32) (xc : Vec F S200x256 .f32) (xq : Vec F S1x256 .f32) (y : S1x256.Idx) : ∃ pc ∈ (runC V c t hc0 hc2 xa xc xq).1, y ∈ pc.1.set :=
  View.cover_of_tiledL (runC V c t hc0 hc2 xa xc xq).1 S1x256.size (by sl_kernel_rfl) y
theorem cov_aC (c : Dev nD) (t : Fin cfg0.N) (hc0 : ¬cond0 (grid0.coords t)) (hc2 : cond2 (grid0.coords t)) (xa : Vec F S200x256 .f32) (xc : Vec F S200x256 .f32) (xq : Vec F S1x256 .f32) (y : S200x256.Idx) : ∃ pc ∈ (runC V c t hc0 hc2 xa xc xq).2.1, y ∈ pc.1.set :=
  View.cover_of_tiledL (runC V c t hc0 hc2 xa xc xq).2.1 S200x256.size (by sl_kernel_rfl) y
theorem cov_cC (c : Dev nD) (t : Fin cfg0.N) (hc0 : ¬cond0 (grid0.coords t)) (hc2 : cond2 (grid0.coords t)) (xa : Vec F S200x256 .f32) (xc : Vec F S200x256 .f32) (xq : Vec F S1x256 .f32) (y : S200x256.Idx) : ∃ pc ∈ (runC V c t hc0 hc2 xa xc xq).2.2.1, y ∈ pc.1.set :=
  View.cover_of_tiledL (runC V c t hc0 hc2 xa xc xq).2.2.1 S200x256.size (by sl_kernel_rfl) y
theorem cov_qC (c : Dev nD) (t : Fin cfg0.N) (hc0 : ¬cond0 (grid0.coords t)) (hc2 : cond2 (grid0.coords t)) (xa : Vec F S200x256 .f32) (xc : Vec F S200x256 .f32) (xq : Vec F S1x256 .f32) (y : S1x256.Idx) : ∃ pc ∈ (runC V c t hc0 hc2 xa xc xq).2.2.2.1, y ∈ pc.1.set :=
  View.cover_of_tiledL (runC V c t hc0 hc2 xa xc xq).2.2.2.1 S1x256.size (by sl_kernel_rfl) y

/-! ## Tile by tile -/

theorem not_cond2_zero (hn : 0 < cfg0.N) : ¬cond2 (grid0.coords ⟨0, hn⟩) := fun h => by
  have := (hcond2 ⟨0, hn⟩).mp h; exact absurd (show (0 : ℕ) = 39 from this) (by decide)
theorem not_cond0_succ (n : ℕ) (hn : n + 1 < cfg0.N) : ¬cond0 (grid0.coords ⟨n + 1, hn⟩) := fun h =>
  absurd ((hcond0 ⟨n + 1, hn⟩).mp h) (Nat.succ_ne_zero n)

/-- What the result buffer and the three accumulators hold after the body at tile `n`: the first tile's run from anything;
    afterwards the tile's run over what the tile before left, the hops' store at the last tile only. -/
def outsAt0 (c : Dev nD) : (n : ℕ) → n < cfg0.N → Vec F S1x256 .f32 × Vec F S200x256 .f32 × Vec F S200x256 .f32 × Vec F S1x256 .f32
  | 0, hn => (outIdle, aA V c ⟨0, hn⟩ ((hcond0 ⟨0, hn⟩).mpr rfl) (not_cond2_zero hn), cA V c ⟨0, hn⟩ ((hcond0 ⟨0, hn⟩).mpr rfl) (not_cond2_zero hn), qA V c ⟨0, hn⟩ ((hcond0 ⟨0, hn⟩).mpr rfl) (not_cond2_zero hn))
  | n + 1, hn =>
    if h2 : n + 1 = 39 then
      (oC V c ⟨n + 1, hn⟩ (not_cond0_succ n hn) ((hcond2 ⟨n + 1, hn⟩).mpr h2) (outsAt0 c n (Nat.lt_of_succ_lt hn)).2.1 (outsAt0 c n (Nat.lt_of_succ_lt hn)).2.2.1 (outsAt0 c n (Nat.lt_of_succ_lt hn)).2.2.2,
       aC V c ⟨n + 1, hn⟩ (not_cond0_succ n hn) ((hcond2 ⟨n + 1, hn⟩).mpr h2) (outsAt0 c n (Nat.lt_of_succ_lt hn)).2.1 (outsAt0 c n (Nat.lt_of_succ_lt hn)).2.2.1 (outsAt0 c n (Nat.lt_of_succ_lt hn)).2.2.2,
       cC V c ⟨n + 1, hn⟩ (not_cond0_succ n hn) ((hcond2 ⟨n + 1, hn⟩).mpr h2) (outsAt0 c n (Nat.lt_of_succ_lt hn)).2.1 (outsAt0 c n (Nat.lt_of_succ_lt hn)).2.2.1 (outsAt0 c n (Nat.lt_of_succ_lt hn)).2.2.2,
       qC V c ⟨n + 1, hn⟩ (not_cond0_succ n hn) ((hcond2 ⟨n + 1, hn⟩).mpr h2) (outsAt0 c n (Nat.lt_of_succ_lt hn)).2.1 (outsAt0 c n (Nat.lt_of_succ_lt hn)).2.2.1 (outsAt0 c n (Nat.lt_of_succ_lt hn)).2.2.2)
    else
      (outIdle,
       aB V c ⟨n + 1, hn⟩ (not_cond0_succ n hn) (fun h => h2 ((hcond2 ⟨n + 1, hn⟩).mp h)) (outsAt0 c n (Nat.lt_of_succ_lt hn)).2.1 (outsAt0 c n (Nat.lt_of_succ_lt hn)).2.2.1 (outsAt0 c n (Nat.lt_of_succ_lt hn)).2.2.2,
       cB V c ⟨n + 1, hn⟩ (not_cond0_succ n hn) (fun h => h2 ((hcond2 ⟨n + 1, hn⟩).mp h)) (outsAt0 c n (Nat.lt_of_succ_lt hn)).2.1 (outsAt0 c n (Nat.lt_of_succ_lt hn)).2.2.1 (outsAt0 c n (Nat.lt_of_succ_lt hn)).2.2.2,
       qB V c ⟨n + 1, hn⟩ (not_cond0_succ n hn) (fun h => h2 ((hcond2 ⟨n + 1, hn⟩).mp h)) (outsAt0 c n (Nat.lt_of_succ_lt hn)).2.1 (outsAt0 c n (Nat.lt_of_succ_lt hn)).2.2.1 (outsAt0 c n (Nat.lt_of_succ_lt hn)).2.2.2)

/-- The tile before `t`'s contents (at the first tile: itself, unused). -/
abbrev prevAt (c : Dev nD) (t : Fin cfg0.N) := outsAt0 V c (t.val - 1) (Nat.lt_of_le_of_lt (Nat.sub_le _ _) t.isLt)

theorem outsAt0_A (c : Dev nD) (t : Fin cfg0.N) (h0 : t.val = 0) (hc0 : cond0 (grid0.coords t)) (hc2 : ¬cond2 (grid0.coords t)) :
    outsAt0 V c t.val t.isLt = (outIdle, aA V c t hc0 hc2, cA V c t hc0 hc2, qA V c t hc0 hc2) := by
  obtain ⟨n, hn⟩ := t
  cases n with
  | zero => rfl
  | succ n => exact absurd h0 (Nat.succ_ne_zero n)

theorem outsAt0_B (c : Dev nD) (t : Fin cfg0.N) (h0 : t.val ≠ 0) (h2 : t.val ≠ 39) (hc0 : ¬cond0 (grid0.coords t)) (hc2 : ¬cond2 (grid0.coords t)) :
    outsAt0 V c t.val t.isLt = (outIdle, aB V c t hc0 hc2 (prevAt V c t).2.1 (prevAt V c t).2.2.1 (prevAt V c t).2.2.2,
      cB V c t hc0 hc2 (prevAt V c t).2.1 (prevAt V c t).2.2.1 (prevAt V c t).2.2.2, qB V c t hc0 hc2 (prevAt V c t).2.1 (prevAt V c t).2.2.1 (prevAt V c t).2.2.2) := by
  obtain ⟨n, hn⟩ := t
  cases n with
  | zero => exact absurd rfl h0
  | succ n => exact (dif_neg h2).trans rfl

theorem outsAt0_C (c : Dev nD) (t : Fin cfg0.N) (h0 : t.val ≠ 0) (h2 : t.val = 39) (hc0 : ¬cond0 (grid0.coords t)) (hc2 : cond2 (grid0.coords t)) :
    outsAt0 V c t.val t.isLt = (oC V c t hc0 hc2 (prevAt V c t).2.1 (prevAt V c t).2.2.1 (prevAt V c t).2.2.2, aC V c t hc0 hc2 (prevAt V c t).2.1 (prevAt V c t).2.2.1 (prevAt V c t).2.2.2,
      cC V c t hc0 hc2 (prevAt V c t).2.1 (prevAt V c t).2.2.1 (prevAt V c t).2.2.2, qC V c t hc0 hc2 (prevAt V c t).2.1 (prevAt V c t).2.2.1 (prevAt V c t).2.2.2) := by
  obtain ⟨n, hn⟩ := t
  cases n with
  | zero => exact absurd rfl h0
  | succ n => exact (dif_pos h2).trans rfl

/-! ## The region invariant -/

/-- Before tile `n`: at the first tile the class invariant (every scoped buffer at anything); afterwards the three
    accumulators at what tile `n - 1` left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scA fullShare (outsAt0 V c n hn).2.1 ∗ owns (c : Thread nD τ) scC fullShare (outsAt0 V c n hn).2.2.1 ∗ owns (c : Thread nD τ) scQ fullShare (outsAt0 V c n hn).2.2.2 ∗ otherStg c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scA fullShare (outsAt0 V c n hn).2.1 ∗ owns (c : Thread nD τ) scC fullShare (outsAt0 V c n hn).2.2.1 ∗ owns (c : Thread nD τ) scQ fullShare (outsAt0 V c n hn).2.2.2 ∗ otherStg c) ∗ (∃ r, prngReg c r)) := rfl
theorem PhiS_pos (c : Dev nD) (n : ℕ) (h : n ≤ cfg0.N) (hz : n ≠ 0) :
    PhiS V c n h = iprop(iprop(owns (c : Thread nD τ) scA fullShare (outsAt0 V c (n - 1) (by omega)).2.1 ∗ owns (c : Thread nD τ) scC fullShare (outsAt0 V c (n - 1) (by omega)).2.2.1 ∗ owns (c : Thread nD τ) scQ fullShare (outsAt0 V c (n - 1) (by omega)).2.2.2 ∗ otherStg c) ∗ (∃ r, prngReg c r)) := by
  cases n with
  | zero => exact absurd rfl hz
  | succ n => rfl

/-! ## The pipeline's proof data -/

/-- The arrays as the region finds them; after the body at tile `t` each input's buffer at its block and the result's at
    `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Cert.Kernel.Enc

end
-- ==== Proof.K.EncBody.lean ====
/-
  The encoder's body obligation. At a tile the input memrefs hold their blocks; the closed forms of the two branch
  conditions say which of the three cases the tile is in; the region invariant hands the body the three accumulators —
  at anything at the first tile, at what the tile before left afterwards — and takes them back at this tile's contents;
  the result buffer is handed back untouched except at the last tile, where the hops' store fills it. Nothing is owed.
-/
import proofs.«115764_j28621662061019_1_alg».proof.Proof.K.EncOuts

set_option maxRecDepth 16384

noncomputable section

namespace Cert.Kernel.Enc

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem leaves0_0 (c : Dev nD) (t : Fin cfg0.N) : (dat0 V c).leavesExact 0 t = owns (c : Thread nD τ) (ms0 t) fullShare (iblk0 V c 0 t) := by
  unfold Dat.leavesExact; rw [liveAt_in 0 (by decide) t, after0_0]
theorem leaves0_1 (c : Dev nD) (t : Fin cfg0.N) : (dat0 V c).leavesExact 1 t = owns (c : Thread nD τ) (ms1 t) fullShare (iblk0 V c 1 t) := by
  unfold Dat.leavesExact; rw [liveAt_in 1 (by decide) t, after0_1]
theorem leaves0_2 (c : Dev nD) (t : Fin cfg0.N) : (dat0 V c).leavesExact 2 t = owns (c : Thread nD τ) (ms2 t) fullShare (iblk0 V c 2 t) := by
  unfold Dat.leavesExact; rw [liveAt_in 2 (by decide) t, after0_2]
theorem leaves0_3 (c : Dev nD) (t : Fin cfg0.N) : (dat0 V c).leavesExact 3 t = owns (c : Thread nD τ) (ms3 t) fullShare (iblk0 V c 3 t) := by
  unfold Dat.leavesExact; rw [liveAt_in 3 (by decide) t, after0_3]
theorem leaves0_4 (c : Dev nD) (t : Fin cfg0.N) : (dat0 V c).leavesExact 4 t = owns (c : Thread nD τ) (ms4 t) fullShare (iblk0 V c 4 t) := by
  unfold Dat.leavesExact; rw [liveAt_in 4 (by decide) t, after0_4]
theorem leaves0_5 (c : Dev nD) (t : Fin cfg0.N) : (dat0 V c).leavesExact 5 t = owns (c : Thread nD τ) (ms5 t) fullShare (iblk0 V c 5 t) := by
  unfold Dat.leavesExact; rw [liveAt_in 5 (by decide) t, after0_5]
theorem leaves0_6 (c : Dev nD) (t : Fin cfg0.N) : (dat0 V c).leavesExact 6 t = owns (c : Thread nD τ) (ms6 t) fullShare (iblk0 V c 6 t) := by
  unfold Dat.leavesExact; rw [liveAt_in 6 (by decide) t, after0_6]

def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d))
    ∗ (∃ d, owns (c : Thread nD τ) (ms7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5, leaves0_6]
  have hN : t.val < 40 := lt_of_lt_of_eq t.isLt (show cfg0.N = 40 from N_0)
  by_cases h0 : t.val = 0
  · -- the first tile
    have hc0 : cond0 (grid0.coords t) := (hcond0 t).mpr h0
    have hc2 : ¬cond2 (grid0.coords t) := fun h => by have := (hcond2 t).mp h; omega
    rw [Dat.leavesExact_idle (dat0 V c) 7 t (idleAt7 t hc2) (noFlush7 t hc2)]
    rw [outsAt0_A V c t h0 hc0 hc2]
    (try dsimp only)
    unfold aA cA qA
    rw [PhiS_castSucc V c t, PhiS_zero V c _ _ h0, PhiA0_eq]
    iintro ⟨⟨⟨HA, HC, HQ, Hst⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA V c t hc0 hc2).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HC]; · iexact HC
    isplitl [HQ]; · iexact HQ
    iintro ⟨H0, H1, H2, H3, H4, H5, H6, H7, ⟨%ea, HA⟩, ⟨%ec, HC⟩, ⟨%eq, HQ⟩⟩
    isplitl [HA HC HQ Hst Hg]
    · isplitl [HA HC HQ Hst]
      · isplitl [HA]
        · unfold owns; iexists _; isplitr
          swap; · iexact HA
          ipureintro; exact View.read_writes_of_cover _ _ _ _ _ (cov_aA V c t hc0 hc2)
        isplitl [HC]
        · unfold owns; iexists _; isplitr
          swap; · iexact HC
          ipureintro; exact View.read_writes_of_cover _ _ _ _ _ (cov_cA V c t hc0 hc2)
        isplitl [HQ]
        · unfold owns; iexists _; isplitr
          swap; · iexact HQ
          ipureintro; exact View.read_writes_of_cover _ _ _ _ _ (cov_qA V c t hc0 hc2)
        iexact Hst
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hc0 : ¬cond0 (grid0.coords t) := fun h => h0 ((hcond0 t).mp h)
    by_cases h2 : t.val = 39
    · -- the last tile
      have hc2 : cond2 (grid0.coords t) := (hcond2 t).mpr h2
      rw [show (dat0 V c).leavesExact 7 t = owns (c : Thread nD τ) (ms7 t) fullShare ((dat0 V c).after 7 t) from by
        unfold Dat.leavesExact; rw [liveAt7 t hc2], after0_7]
      rw [outsAt0_C V c t h0 h2 hc0 hc2]
      (try dsimp only)
      unfold oC aC cC qC
      rw [PhiS_castSucc V c t, PhiS_pos V c _ _ h0]
      iintro ⟨⟨⟨HA, HC, HQ, Hst⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t hc0 hc2 _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HA]; · iexact HA
      isplitl [HC]; · iexact HC
      isplitl [HQ]; · iexact HQ
      iintro ⟨H0, H1, H2, H3, H4, H5, H6, ⟨%e7, H7⟩, ⟨%ea, HA⟩, ⟨%ec, HC⟩, ⟨%eq, HQ⟩⟩
      isplitl [HA HC HQ Hst Hg]
      · isplitl [HA HC HQ Hst]
        · isplitl [HA]
          · unfold owns; iexists _; isplitr
            swap; · iexact HA
            ipureintro; exact View.read_writes_of_cover _ _ _ _ _ (cov_aC V c t hc0 hc2 _ _ _)
          isplitl [HC]
          · unfold owns; iexists _; isplitr
            swap; · iexact HC
            ipureintro; exact View.read_writes_of_cover _ _ _ _ _ (cov_cC V c t hc0 hc2 _ _ _)
          isplitl [HQ]
          · unfold owns; iexists _; isplitr
            swap; · iexact HQ
            ipureintro; exact View.read_writes_of_cover _ _ _ _ _ (cov_qC V c t hc0 hc2 _ _ _)
          iexact Hst
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cov_oC V c t hc0 hc2 _ _ _)
    · -- a middle tile
      have hc2 : ¬cond2 (grid0.coords t) := fun h => h2 ((hcond2 t).mp h)
      rw [Dat.leavesExact_idle (dat0 V c) 7 t (idleAt7 t hc2) (noFlush7 t hc2)]
      rw [outsAt0_B V c t h0 h2 hc0 hc2]
      (try dsimp only)
      unfold aB cB qB
      rw [PhiS_castSucc V c t, PhiS_pos V c _ _ h0]
      iintro ⟨⟨⟨HA, HC, HQ, Hst⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t hc0 hc2 _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HA]; · iexact HA
      isplitl [HC]; · iexact HC
      isplitl [HQ]; · iexact HQ
      iintro ⟨H0, H1, H2, H3, H4, H5, H6, H7, ⟨%ea, HA⟩, ⟨%ec, HC⟩, ⟨%eq, HQ⟩⟩
      isplitl [HA HC HQ Hst Hg]
      · isplitl [HA HC HQ Hst]
        · isplitl [HA]
          · unfold owns; iexists _; isplitr
            swap; · iexact HA
            ipureintro; exact View.read_writes_of_cover _ _ _ _ _ (cov_aB V c t hc0 hc2 _ _ _)
          isplitl [HC]
          · unfold owns; iexists _; isplitr
            swap; · iexact HC
            ipureintro; exact View.read_writes_of_cover _ _ _ _ _ (cov_cB V c t hc0 hc2 _ _ _)
          isplitl [HQ]
          · unfold owns; iexists _; isplitr
            swap; · iexact HQ
            ipureintro; exact View.read_writes_of_cover _ _ _ _ _ (cov_qB V c t hc0 hc2 _ _ _)
          iexact Hst
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the region is entered with (the class invariant) is the invariant before the first tile. -/
theorem Phi_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last tile the invariant gives the class invariant back: the accumulators' contents are forgotten. -/
theorem Phi_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 40 := N_0; omega), PhiA0_eq]
  iintro ⟨⟨HA, HC, HQ, Hst⟩, Hg⟩
  isplitl [HA HC HQ Hst]
  · isplitl [HA]; · iexists _; iexact HA
    isplitl [HC]; · iexists _; iexact HC
    isplitl [HQ]; · iexists _; iexact HQ
    iexact Hst
  iexact Hg

end Cert.Kernel.Enc

end
-- ==== Proof.K.Dec.lean ====
/-
  The second region (the decoder: one row of 256 against a tile of 12800 rows of the output embedding, ten tiles): each
  window's block of its array; what the body's one store leaves in the result's staging buffer as a function of the two
  input blocks; the body's triple on whole memrefs; the pipeline's proof data and the body obligation at every tile. The
  body reads no scratch and takes no branch, so the region invariant is the class's own.
-/
import proofs.«115764_j28621662061019_1_alg».proof.Proof.Gen.Kernel.Launch
import proofs.«115764_j28621662061019_1_alg».proof.Proof.Gen.Kernel.Skeleton
import proofs.«115764_j28621662061019_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Dec

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every tile, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every tile, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is of a whole buffer -/

abbrev rQ : Rect S1x256 := Rect.unit (s := S1x256) ![0, 0] S1x256.size inb_S1x256_S1x256_0_0
abbrev rW : Rect S12800x256 := Rect.unit (s := S12800x256) ![0, 0] S12800x256.size inb_S12800x256_S12800x256_0_0
abbrev rO : Rect S1x12800 := Rect.unit (s := S1x12800) ![0, 0] S1x12800.size inb_S1x12800_S1x12800_0_0

/-- The result's staging buffer after the body, from the two input blocks: its one store. -/
def out1 (x0 : Vec F S1x256 .f32) (x1 : Vec F S12800x256 .f32) : Vec F S1x12800 .f32 :=
  View.canon [⟨rO, k1_pay1 (View.ld x0 rQ) (View.ld x1 rW)⟩]

theorem cover1 (p0 : Vec F S1x12800 .f32) (y : S1x12800.Idx) :
    ∃ pc ∈ ([⟨rO, p0⟩] : List (View.Piece (Elt F) S1x12800 .f32)), y ∈ pc.1.set :=
  View.cover_of_tiled [⟨rO, p0⟩] S1x12800.size (by rfl) y

set_option maxHeartbeats 1000000 in
/-- The body on whole staging memrefs, the inputs' at contents `x0`, `x1` and the result's at anything, runs to the
    continuation holding the inputs' as they were and the result's at `out1 x0 x1`. -/
theorem sound_kernel1 (c : Dev nD) (E : Set ℕ) (i : grid1.Coords) (arg1 : Memref sig .tc .vmem S1x256 .f32) (harg1 : arg1.IsWhole) (arg2 : Memref sig .tc .vmem S12800x256 .f32) (harg2 : arg2.IsWhole) (arg3 : Memref sig .tc .vmem S1x12800 .f32) (harg3 : arg3.IsWhole)
    (x0 : Vec F S1x256 .f32) (x1 : Vec F S12800x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__decode_kernel i arg1 harg1 arg2 harg2 arg3 harg3) K := by
  simp only [cc1__decode_kernel_eq_skeleton]; unfold cc1__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic tile -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Dec

end
-- ==== Proof.K.Regs.lean ====
/-
  The two regions joined. What the core's unscoped buffers hold between @main's two items: as launched; then with the
  first region's result array at what its pipeline leaves after forty tiles; then with the second's at what its pipeline
  leaves after ten. The proof-data family (each region's at its entry contents), and per region the record the conditional
  frame takes: its arrays split out of the unscoped buffers at entry and put back at the exit contents, the generator
  register lent to the region invariant and returned, nothing owed, no semaphore of the kernel's own.
-/
import proofs.«115764_j28621662061019_1_alg».proof.Proof.K.EncBody
import proofs.«115764_j28621662061019_1_alg».proof.Proof.K.Dec
import proofs.«115764_j28621662061019_1_alg».proof.Proof.Gen.Kernel.Regions
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between the items -/

/-- The first region is entered with the launch contents. -/
abbrev VE0 (c : Dev nD) (b : Ref sig .tc) : Buf (Elt F) ((c : Thread nD τ).loc b) := V0 m c b
/-- What the first region leaves in its result array. -/
def X0 (c : Dev nD) : Buf (Elt F) ((c : Thread nD τ).loc main_v0) := (Enc.dat0 (VE0 m) c).arrAt 7 cfg0.N
/-- The second region is entered with that array updated. -/
abbrev W1 (c : Dev nD) : Valuation τ sig (Elt F) := Function.update (V0 m c) main_v0 (X0 m c)
abbrev VE1 (c : Dev nD) (b : Ref sig .tc) : Buf (Elt F) ((c : Thread nD τ).loc b) := W1 m c b
/-- What the second region leaves in its result array. -/
def X1 (c : Dev nD) : Buf (Elt F) ((c : Thread nD τ).loc main_v1) := (Dec.dat1 (VE1 m) c).arrAt 2 cfg1.N

/-- What the regions leave, as the conditional frame's unknowns. -/
def outs : Outs (F := F) := fun _ r c =>
  (Function.update (Function.update (fun r : Ref sig .tc => m ((c : Thread nD τ).loc r)) main_v0 (X0 m c)) main_v1 (X1 m c)) r

theorem outs_v0 (j : ℕ) (c : Dev nD) : outs m j main_v0 c = X0 m c := by
  unfold outs; rw [Function.update_of_ne (by decide : (main_v0 : Ref sig .tc) ≠ main_v1), Function.update_self]
theorem outs_v1 (j : ℕ) (c : Dev nD) : outs m j main_v1 c = X1 m c := by
  unfold outs; rw [Function.update_self]

theorem V1_eq (c : Dev nD) : V1 m (outs m) c = W1 m c := by
  show Function.update (V0 m c) main_v0 (outs m 1 main_v0 c) = _; rw [outs_v0]

/-! ## The proof data, each region's at its entry contents -/

def pdats : (p : Fin 2) → (c : Dev nD) → Dat τ (Elt F) Unit ℕ (UR sig nD τ) ℕ (cfgs p) c
  | ⟨0, _⟩ => fun c => Enc.dat0 (VE0 m) c
  | ⟨1, _⟩ => fun c => Dec.dat1 (VE1 m) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-! ## Each region's arrays at its exit, against the next contents -/

theorem hF0 (c : Dev nD) (w : Fin cfg0.W) : (pdats m 0 c).arrAt w cfg0.N = V1 m (outs m) c (Pipeline.arrRef spec0 w) := by
  rw [V1_eq]
  match w with
  | ⟨0, _⟩ => exact ((Enc.dat0 (VE0 m) c).arrAt_in 0 rfl _).trans ((Enc.A_eq0 (VE0 m) c 0).trans (Function.update_of_ne (StableHlo.devRef_ne_of_ne (by decide)) _ _).symm)
  | ⟨1, _⟩ => exact ((Enc.dat0 (VE0 m) c).arrAt_in 1 rfl _).trans ((Enc.A_eq0 (VE0 m) c 1).trans (Function.update_of_ne (StableHlo.devRef_ne_of_ne (by decide)) _ _).symm)
  | ⟨2, _⟩ => exact ((Enc.dat0 (VE0 m) c).arrAt_in 2 rfl _).trans ((Enc.A_eq0 (VE0 m) c 2).trans (Function.update_of_ne (StableHlo.devRef_ne_of_ne (by decide)) _ _).symm)
  | ⟨3, _⟩ => exact ((Enc.dat0 (VE0 m) c).arrAt_in 3 rfl _).trans ((Enc.A_eq0 (VE0 m) c 3).trans (Function.update_of_ne (StableHlo.devRef_ne_of_ne (by decide)) _ _).symm)
  | ⟨4, _⟩ => exact ((Enc.dat0 (VE0 m) c).arrAt_in 4 rfl _).trans ((Enc.A_eq0 (VE0 m) c 4).trans (Function.update_of_ne (StableHlo.devRef_ne_of_ne (by decide)) _ _).symm)
  | ⟨5, _⟩ => exact ((Enc.dat0 (VE0 m) c).arrAt_in 5 rfl _).trans ((Enc.A_eq0 (VE0 m) c 5).trans (Function.update_of_ne (StableHlo.devRef_ne_of_ne (by decide)) _ _).symm)
  | ⟨6, _⟩ => exact ((Enc.dat0 (VE0 m) c).arrAt_in 6 rfl _).trans ((Enc.A_eq0 (VE0 m) c 6).trans (Function.update_of_ne (StableHlo.devRef_ne_of_ne (by decide)) _ _).symm)
  | ⟨7, _⟩ => exact (Function.update_self (Proc.devRef .tc main_v0 : DevRef τ sig) (X0 m c) (V0 m c)).symm

theorem hrest0 (c : Dev nD) : ∀ b, b ∉ Finset.univ.image (Pipeline.arrRef spec0) → V1 m (outs m) c b = VE0 m c b := fun b hb =>
  V1_of m (outs m) c b (by
    intro h; rw [List.mem_singleton] at h; subst h
    exact hb (Finset.mem_image.mpr ⟨7, Finset.mem_univ _, rfl⟩))

theorem hF1 (c : Dev nD) (w : Fin cfg1.W) : (pdats m 1 c).arrAt w cfg1.N = V2 m (outs m) c (Pipeline.arrRef spec1 w) := by
  match w with
  | ⟨0, _⟩ => exact ((Dec.dat1 (VE1 m) c).arrAt_in 0 rfl _).trans ((Dec.A_eq1 (VE1 m) c 0).trans (((V2_of m (outs m) c main_v0 (by decide)).trans (congrFun (V1_eq m c) _)).symm))
  | ⟨1, _⟩ => exact ((Dec.dat1 (VE1 m) c).arrAt_in 1 rfl _).trans ((Dec.A_eq1 (VE1 m) c 1).trans (((V2_of m (outs m) c main_arg5 (by decide)).trans (congrFun (V1_eq m c) _)).symm))
  | ⟨2, _⟩ => exact ((Function.update_self (Proc.devRef .tc main_v1 : DevRef τ sig) (outs m 2 main_v1 c) (V1 m (outs m) c)).trans (outs_v1 m 2 c)).symm

theorem hrest1 (c : Dev nD) : ∀ b, b ∉ Finset.univ.image (Pipeline.arrRef spec1) → V2 m (outs m) c b = V1 m (outs m) c b := fun b hb =>
  V2_of m (outs m) c b (by
    intro h; rw [List.mem_singleton] at h; subst h
    exact hb (Finset.mem_image.mpr ⟨2, Finset.mem_univ _, rfl⟩))

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation0 (VE0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Enc.Phi_in (VE0 m) c)
    unfold Pipeline.ΦA
    iintro ⟨Hp, -, Hr⟩
    isplitl [Hr]; · iexact Hr
    iexact Hp
  hout c := by
    refine BIBase.Entails.trans (Enc.Phi_out (VE0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dec.body_obligation1 (VE1 m) c).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V1 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V1 m (outs m) c b) (fun w => (congrFun (V1_eq m c) (Proc.devRef .tc (Pipeline.arrRef spec1 w))).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V1 m (outs m) c b) (fun b => V2 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.K.Frame.lean ====
/-
  The first program's frame and its run with the result named. The launch deals each core its unscoped semaphores at zero,
  nothing owed and its generator register; that is the rest state the two region records ride on, and it ends owing
  nothing. With the two records the conditional frame gives: every weakly fair execution terminates, the eight argument
  arrays end as launched — and, in the variant that also reads the result off the last valuation, the result array ends
  at what the second region's pipeline leaves after its ten tiles.
-/
import proofs.«115764_j28621662061019_1_alg».proof.Proof.K.Regs
import proofs.«115764_j28621662061019_1_alg».proof.Proof.K.RegionsV

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev u0 : UR sig nD τ := initOf (Pipeline.cells cfgs cellOf_inj) (Pipeline.launchToks cfgs cellOf_inj)

theorem hu0 : (ownU (u0) : sProp 𝕄) ⊢ |={Set.univ}=> iprop(BI.own (emb₁ (Ix := Unit) (Val := Elt F) (Name := ℕ) (Lvl := ℕ) (nD := nD) (τ := τ) (sig := sig) u0) ∗ bigSep Finset.univ fun _ : Dev nD => (BI.emp : sProp 𝕄)) := by
  iintro Hu; imodintro
  isplitl [Hu]
  · iapply (show (ownU u0 : sProp 𝕄) ⊢ BI.own (emb₁ u0) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m emb₁ () 𝒱₀ L lv (fun _ _ => rfl) ρ (outs m) (pdats m) 0 (fun _ => iprop(emp)) u0 hu0
    (fun _ c => R c) (hE0 ρ) hE2 (reg0 m) (fun _ => .rfl) (fun _ => .rfl) (reg1 m) (fun _ => .rfl) (fun _ => .rfl)

set_option backward.isDefEq.respectTransparency.types false in
/-- The run with the result named: the result array ends at what the second region leaves. -/
theorem run_val : θ_run defs (onTc (τ := τ) (main (F := F))) ⟨m, fun _ => 0, ρ⟩ (fun r => ∀ c : Dev nD,
      r.2.mem ((c.tc : Thread nD τ).loc main_v1) = X1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (outs_v1 m 2 c), (h c).2⟩)
    (Cert.Kernel.GenV.run_cond m emb₁ () 𝒱₀ L lv (fun _ _ => rfl) ρ (outs m) (pdats m) 0 (fun _ => iprop(emp)) u0 hu0
      (fun _ c => R c) (hE0 ρ) hE2 (reg0 m) (fun _ => .rfl) (fun _ => .rfl) (reg1 m) (fun _ => .rfl) (fun _ => .rfl))

end Cert.Kernel.Run

end
-- ==== Proof.KI.EncBase.lean ====
/-
  The first region (the encoder's accumulation over forty column tiles, with the three memory hops folded into its last
  point): what every later module on it is stated over. Which branch of the body a grid point takes, in closed form;
  where the one output window is idle; the staging and scratch memrefs by name; the class invariant with the three
  scratch buffers owned as memrefs; each input window's block of its array.
-/
import proofs.«115764_j28621662061019_1_alg».proof.Proof.Gen.KernelIdeal.Launch
import proofs.«115764_j28621662061019_1_alg».proof.Proof.Gen.KernelIdeal.Skeleton
import proofs.«115764_j28621662061019_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The reset branch: taken when the grid coordinate is 0. -/
abbrev cond0 (i : grid0.Coords) : Prop := (Scalar.cmpi .ne (Scalar.extui (Scalar.cmpi .eq (BitVec.ofNat 32 (i 0).val) 0#32)) 0#32) = 1#1
theorem hcond0 : ∀ t : Fin cfg0.N, cond0 (grid0.coords t) ↔ t.val = 0 :=
  (by decide +kernel : ∀ t : Fin grid0.N, cond0 (grid0.coords t) ↔ t.val = 0)

/-- The hop branch: taken when the grid coordinate is 39, the last tile. -/
abbrev cond2 (i : grid0.Coords) : Prop := k0_cond2 i = 1#1
theorem hcond2 : ∀ t : Fin cfg0.N, cond2 (grid0.coords t) ↔ t.val = 39 :=
  (by decide +kernel : ∀ t : Fin grid0.N, cond2 (grid0.coords t) ↔ t.val = 39)

/-! ## Where the windows are idle -/

theorem liveAt_in : ∀ (w : Fin 8), w.val < 7 → ∀ t : Fin cfg0.N, cfg0.idle w (grid0.coords t) = false := by decide +kernel
/-- Away from the last tile the result window is idle and not written back. -/
theorem idleAt7 : ∀ t : Fin cfg0.N, ¬cond2 (grid0.coords t) → cfg0.idle 7 (grid0.coords t) = true := by decide +kernel
theorem noFlush7 : ∀ t : Fin cfg0.N, ¬cond2 (grid0.coords t) → (cfg0.win 7).flush t = false := by decide +kernel
/-- At the last tile it is live. -/
theorem liveAt7 : ∀ t : Fin cfg0.N, cond2 (grid0.coords t) → cfg0.idle 7 (grid0.coords t) = false := by decide +kernel

/-! ## The memrefs the body is called with -/

abbrev ms0 (t : Fin cfg0.N) : Memref sig .tc .vmem S1x3200 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S200x3200 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x3200 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x3200 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x3200 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S200x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S200x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x256 .f32 := win0_7.stage (cfg0.slots t 7)
abbrev hs7 (t : Fin cfg0.N) : (ms7 t).IsWhole := hstage0_7 ((cfg0.slots t 7).cast nbuf0_7)
/-- The three accumulators: whole scoped buffers of the kernel's own. -/
abbrev scA : Memref sig .tc .vmem S200x256 .f32 := Memref.whole cc0_scratch0
abbrev scC : Memref sig .tc .vmem S200x256 .f32 := Memref.whole cc0_scratch1
abbrev scQ : Memref sig .tc .vmem S1x256 .f32 := Memref.whole cc0_scratch2
/-- Views through which the accumulators' and the result buffer's contents are stated. -/
abbrev VA : View sig .tc .vmem S200x256 .f32 := scA.view
abbrev VC : View sig .tc .vmem S200x256 .f32 := scC.view
abbrev VQ : View sig .tc .vmem S1x256 .f32 := scQ.view
abbrev VO : View sig .tc .vmem S1x256 .f32 := (Memref.whole cc0_stg7_0 : Memref sig .tc .vmem S1x256 .f32).view

/-- The second region's staging buffers, each whole at some contents: scoped buffers the first region never touches. -/
def otherStg (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the three accumulators owned as memrefs at some contents. -/
theorem PhiA0_eq (c : Dev nD) :
    (Pipeline.ΦA spec0 c : sProp 𝕄)
      = iprop(iprop((∃ d, owns (c : Thread nD τ) scA fullShare d) ∗ (∃ d, owns (c : Thread nD τ) scC fullShare d) ∗ (∃ d, owns (c : Thread nD τ) scQ fullShare d) ∗ otherStg c) ∗ (∃ r, prngReg c r)) := by
  unfold Pipeline.ΦA; rw [scopedRest0_eq]; simp only [scA, scC, scQ, owns_whole, otherStg]; try rfl

/-! ## The windows' blocks, at the contents the region is entered with -/

section Blocks
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every point, fetched there or not. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block of the array at every point, fetched there or not. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block of the array at every point, fetched there or not. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

end Blocks

end Cert.KernelIdeal.Enc

end
-- ==== Proof.KI.EncRunA.lean ====
/-
  The encoder's body at the first tile: its run on whole memrefs, the accumulators' stores (the reset, then the first product) found as pieces.
-/
import proofs.«115764_j28621662061019_1_alg».proof.Proof.KI.EncBase

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST tile (the reset branch taken, the hop branch not): on whole memrefs, the inputs at their blocks, the result buffer handed back untouched, the three accumulators at anything, the body runs to the continuation with each accumulator's stores written: the reset, then the tile's product added. -/
noncomputable def kernelRunA (c : Dev nD) (i : grid0.Coords) (arg1 : Memref sig .tc .vmem S1x3200 .f32) (harg1 : arg1.IsWhole) (arg2 : Memref sig .tc .vmem S200x3200 .f32) (harg2 : arg2.IsWhole) (arg3 : Memref sig .tc .vmem S256x3200 .f32) (harg3 : arg3.IsWhole) (arg4 : Memref sig .tc .vmem S256x3200 .f32) (harg4 : arg4.IsWhole) (arg5 : Memref sig .tc .vmem S256x3200 .f32) (harg5 : arg5.IsWhole) (arg6 : Memref sig .tc .vmem S200x256 .f32) (harg6 : arg6.IsWhole) (arg7 : Memref sig .tc .vmem S200x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S200x256 .f32) (harg10 : arg10.IsWhole) (arg11 : Memref sig .tc .vmem S1x256 .f32) (harg11 : arg11.IsWhole) (hc0 : cond0 i) (hc2 : ¬cond2 i)
    (x1 : Vec F S1x3200 .f32) (x2 : Vec F S200x3200 .f32) (x3 : Vec F S256x3200 .f32) (x4 : Vec F S256x3200 .f32) (x5 : Vec F S256x3200 .f32) (x6 : Vec F S200x256 .f32) (x7 : Vec F S200x256 .f32) :
    Σ' (LA : List (View.Piece (Elt F) S200x256 .f32)) (LC : List (View.Piece (Elt F) S200x256 .f32)), { LQ : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LC) ∗ (∃ f, arg11.view.loc (c : Thread nD τ) ↦[arg11.view.set]{fullShare} arg11.view.writes (Elt F) f LQ)) -∗ K ⟨⟩))
          ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11) K } := by
  refine ⟨?_, ?_, ?_, fun xi E K => ?run⟩
  case run =>
    simp only [cc0__encode_kernel_eq_skeleton]; unfold cc0__encode_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%da, %fa, -, HA⟩, ⟨%dc, %fc, -, HC⟩, ⟨%dq, %fq, -, HQ⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HA]; · iexists _; iexact HA
    isplitl [HC]; · iexists _; iexact HC
    iexists _; iexact HQ

end Cert.KernelIdeal.Enc

end
-- ==== Proof.KI.EncRunB.lean ====
/-
  The encoder's body at a middle tile: its run on whole memrefs, the accumulators' stores found as pieces.
-/
import proofs.«115764_j28621662061019_1_alg».proof.Proof.KI.EncBase

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A MIDDLE tile (neither branch taken): on whole memrefs, the inputs at their blocks, the result buffer at anything and handed back untouched, the three accumulators at what the tile before left, the body runs to the continuation with each accumulator's stores written — the pieces the run finds are its witness. -/
noncomputable def kernelRunB (c : Dev nD) (i : grid0.Coords) (arg1 : Memref sig .tc .vmem S1x3200 .f32) (harg1 : arg1.IsWhole) (arg2 : Memref sig .tc .vmem S200x3200 .f32) (harg2 : arg2.IsWhole) (arg3 : Memref sig .tc .vmem S256x3200 .f32) (harg3 : arg3.IsWhole) (arg4 : Memref sig .tc .vmem S256x3200 .f32) (harg4 : arg4.IsWhole) (arg5 : Memref sig .tc .vmem S256x3200 .f32) (harg5 : arg5.IsWhole) (arg6 : Memref sig .tc .vmem S200x256 .f32) (harg6 : arg6.IsWhole) (arg7 : Memref sig .tc .vmem S200x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S200x256 .f32) (harg10 : arg10.IsWhole) (arg11 : Memref sig .tc .vmem S1x256 .f32) (harg11 : arg11.IsWhole) (hc0 : ¬cond0 i) (hc2 : ¬cond2 i)
    (x1 : Vec F S1x3200 .f32) (x2 : Vec F S200x3200 .f32) (x3 : Vec F S256x3200 .f32) (x4 : Vec F S256x3200 .f32) (x5 : Vec F S256x3200 .f32) (x6 : Vec F S200x256 .f32) (x7 : Vec F S200x256 .f32) (xa : Vec F S200x256 .f32) (xc : Vec F S200x256 .f32) (xq : Vec F S1x256 .f32) :
    Σ' (LA : List (View.Piece (Elt F) S200x256 .f32)) (LC : List (View.Piece (Elt F) S200x256 .f32)), { LQ : List (View.Piece (Elt F) S1x256 .f32) //
      ∀ (xi : Vec F S1x256 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ owns (c : Thread nD τ) arg9 fullShare xa ∗ owns (c : Thread nD τ) arg10 fullShare xc ∗ owns (c : Thread nD τ) arg11 fullShare xq
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare xi ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LC) ∗ (∃ f, arg11.view.loc (c : Thread nD τ) ↦[arg11.view.set]{fullShare} arg11.view.writes (Elt F) f LQ)) -∗ K ⟨⟩))
          ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11) K } := by
  refine ⟨?_, ?_, ?_, fun xi E K => ?run⟩
  case run =>
    simp only [cc0__encode_kernel_eq_skeleton]; unfold cc0__encode_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fa, %hfa, HA⟩, ⟨%fc, %hfc, HC⟩, ⟨%fq, %hfq, HQ⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hfa; obtain rfl := harg10.eq_unread hfc; obtain rfl := harg11.eq_unread hfq
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [HA]; · iexists _; iexact HA
    isplitl [HC]; · iexists _; iexact HC
    iexists _; iexact HQ

end Cert.KernelIdeal.Enc

end
-- ==== Proof.KI.EncRunC.lean ====
/-
  The encoder's body at the last tile: its run on whole memrefs — the last product added, then the three memory hops and the one store of the result — the stores found as pieces.
-/
import proofs.«115764_j28621662061019_1_alg».proof.Proof.KI.EncBase

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST tile (the hop branch taken, the reset branch not): on whole memrefs, the inputs at their blocks, the result buffer at anything, the three accumulators at what the tile before left, the body runs to the continuation with the accumulators' stores and the result buffer's one store written. -/
noncomputable def kernelRunC (c : Dev nD) (i : grid0.Coords) (arg1 : Memref sig .tc .vmem S1x3200 .f32) (harg1 : arg1.IsWhole) (arg2 : Memref sig .tc .vmem S200x3200 .f32) (harg2 : arg2.IsWhole) (arg3 : Memref sig .tc .vmem S256x3200 .f32) (harg3 : arg3.IsWhole) (arg4 : Memref sig .tc .vmem S256x3200 .f32) (harg4 : arg4.IsWhole) (arg5 : Memref sig .tc .vmem S256x3200 .f32) (harg5 : arg5.IsWhole) (arg6 : Memref sig .tc .vmem S200x256 .f32) (harg6 : arg6.IsWhole) (arg7 : Memref sig .tc .vmem S200x256 .f32) (harg7 : arg7.IsWhole) (arg8 : Memref sig .tc .vmem S1x256 .f32) (harg8 : arg8.IsWhole) (arg9 : Memref sig .tc .vmem S200x256 .f32) (harg9 : arg9.IsWhole) (arg10 : Memref sig .tc .vmem S200x256 .f32) (harg10 : arg10.IsWhole) (arg11 : Memref sig .tc .vmem S1x256 .f32) (harg11 : arg11.IsWhole) (hc0 : ¬cond0 i) (hc2 : cond2 i)
    (x1 : Vec F S1x3200 .f32) (x2 : Vec F S200x3200 .f32) (x3 : Vec F S256x3200 .f32) (x4 : Vec F S256x3200 .f32) (x5 : Vec F S256x3200 .f32) (x6 : Vec F S200x256 .f32) (x7 : Vec F S200x256 .f32) (xa : Vec F S200x256 .f32) (xc : Vec F S200x256 .f32) (xq : Vec F S1x256 .f32) :
    Σ' (LO : List (View.Piece (Elt F) S1x256 .f32)) (LA : List (View.Piece (Elt F) S200x256 .f32)) (LC : List (View.Piece (Elt F) S200x256 .f32)), { LQ : List (View.Piece (Elt F) S1x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare xa ∗ owns (c : Thread nD τ) arg10 fullShare xc ∗ owns (c : Thread nD τ) arg11 fullShare xq
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LA) ∗ (∃ f, arg10.view.loc (c : Thread nD τ) ↦[arg10.view.set]{fullShare} arg10.view.writes (Elt F) f LC) ∗ (∃ f, arg11.view.loc (c : Thread nD τ) ↦[arg11.view.set]{fullShare} arg11.view.writes (Elt F) f LQ)) -∗ K ⟨⟩))
          ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0__encode_kernel_eq_skeleton]; unfold cc0__encode_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fa, %hfa, HA⟩, ⟨%fc, %hfc, HC⟩, ⟨%fq, %hfq, HQ⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hfa; obtain rfl := harg10.eq_unread hfc; obtain rfl := harg11.eq_unread hfq
    sl_exec (disch := first | exact hc0 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]; · iexists _; iexact H8
    isplitl [HA]; · iexists _; iexact HA
    isplitl [HC]; · iexists _; iexact HC
    iexists _; iexact HQ

end Cert.KernelIdeal.Enc

end
-- ==== Proof.KI.EncOuts.lean ====
/-
  What the encoder's region holds tile by tile. Per case of the body (first tile, a middle tile, the last tile): the run at
  a grid point on the memrefs the pipeline passes, what it leaves in each accumulator and, at the last tile, in the result
  buffer, read back through a view; that each piece list covers its buffer. Then the recursion over the forty tiles (each
  tile's accumulators over the tile before's), the region invariant that carries the three accumulators at those
  contents, and the pipeline's proof data built on it.
-/
import proofs.«115764_j28621662061019_1_alg».proof.Proof.KI.EncRunA
import proofs.«115764_j28621662061019_1_alg».proof.Proof.KI.EncRunB
import proofs.«115764_j28621662061019_1_alg».proof.Proof.KI.EncRunC

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The three runs at a grid point -/

abbrev runA (c : Dev nD) (t : Fin cfg0.N) (hc0 : cond0 (grid0.coords t)) (hc2 : ¬cond2 (grid0.coords t)) :=
  kernelRunA (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scC (Memref.isWhole_whole _) scQ (Memref.isWhole_whole _) hc0 hc2 (iblk0 V c 0 t) (iblk0 V c 1 t) (iblk0 V c 2 t) (iblk0 V c 3 t) (iblk0 V c 4 t) (iblk0 V c 5 t) (iblk0 V c 6 t)
abbrev runB (c : Dev nD) (t : Fin cfg0.N) (hc0 : ¬cond0 (grid0.coords t)) (hc2 : ¬cond2 (grid0.coords t)) (xa : Vec F S200x256 .f32) (xc : Vec F S200x256 .f32) (xq : Vec F S1x256 .f32) :=
  kernelRunB (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scC (Memref.isWhole_whole _) scQ (Memref.isWhole_whole _) hc0 hc2 (iblk0 V c 0 t) (iblk0 V c 1 t) (iblk0 V c 2 t) (iblk0 V c 3 t) (iblk0 V c 4 t) (iblk0 V c 5 t) (iblk0 V c 6 t) xa xc xq
abbrev runC (c : Dev nD) (t : Fin cfg0.N) (hc0 : ¬cond0 (grid0.coords t)) (hc2 : cond2 (grid0.coords t)) (xa : Vec F S200x256 .f32) (xc : Vec F S200x256 .f32) (xq : Vec F S1x256 .f32) :=
  kernelRunC (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) scA (Memref.isWhole_whole _) scC (Memref.isWhole_whole _) scQ (Memref.isWhole_whole _) hc0 hc2 (iblk0 V c 0 t) (iblk0 V c 1 t) (iblk0 V c 2 t) (iblk0 V c 3 t) (iblk0 V c 4 t) (iblk0 V c 5 t) (iblk0 V c 6 t) xa xc xq

/-! ## What each case leaves, read back -/

/-- The result buffer where the window is idle: a placeholder nothing consults (the buffer is neither written back nor
    read at the next point). -/
def outIdle : Vec F S1x256 .f32 := VO.read (Elt F) (VO.writes (Elt F) VO.junk [])

def aA (c : Dev nD) (t : Fin cfg0.N) (hc0 : cond0 (grid0.coords t)) (hc2 : ¬cond2 (grid0.coords t)) : Vec F S200x256 .f32 := VA.read (Elt F) (VA.writes (Elt F) VA.junk (runA V c t hc0 hc2).1)
def cA (c : Dev nD) (t : Fin cfg0.N) (hc0 : cond0 (grid0.coords t)) (hc2 : ¬cond2 (grid0.coords t)) : Vec F S200x256 .f32 := VC.read (Elt F) (VC.writes (Elt F) VC.junk (runA V c t hc0 hc2).2.1)
def qA (c : Dev nD) (t : Fin cfg0.N) (hc0 : cond0 (grid0.coords t)) (hc2 : ¬cond2 (grid0.coords t)) : Vec F S1x256 .f32 := VQ.read (Elt F) (VQ.writes (Elt F) VQ.junk (runA V c t hc0 hc2).2.2.1)
def aB (c : Dev nD) (t : Fin cfg0.N) (hc0 : ¬cond0 (grid0.coords t)) (hc2 : ¬cond2 (grid0.coords t)) (xa : Vec F S200x256 .f32) (xc : Vec F S200x256 .f32) (xq : Vec F S1x256 .f32) : Vec F S200x256 .f32 := VA.read (Elt F) (VA.writes (Elt F) VA.junk (runB V c t hc0 hc2 xa xc xq).1)
def cB (c : Dev nD) (t : Fin cfg0.N) (hc0 : ¬cond0 (grid0.coords t)) (hc2 : ¬cond2 (grid0.coords t)) (xa : Vec F S200x256 .f32) (xc : Vec F S200x256 .f32) (xq : Vec F S1x256 .f32) : Vec F S200x256 .f32 := VC.read (Elt F) (VC.writes (Elt F) VC.junk (runB V c t hc0 hc2 xa xc xq).2.1)
def qB (c : Dev nD) (t : Fin cfg0.N) (hc0 : ¬cond0 (grid0.coords t)) (hc2 : ¬cond2 (grid0.coords t)) (xa : Vec F S200x256 .f32) (xc : Vec F S200x256 .f32) (xq : Vec F S1x256 .f32) : Vec F S1x256 .f32 := VQ.read (Elt F) (VQ.writes (Elt F) VQ.junk (runB V c t hc0 hc2 xa xc xq).2.2.1)
def oC (c : Dev nD) (t : Fin cfg0.N) (hc0 : ¬cond0 (grid0.coords t)) (hc2 : cond2 (grid0.coords t)) (xa : Vec F S200x256 .f32) (xc : Vec F S200x256 .f32) (xq : Vec F S1x256 .f32) : Vec F S1x256 .f32 := VO.read (Elt F) (VO.writes (Elt F) VO.junk (runC V c t hc0 hc2 xa xc xq).1)
def aC (c : Dev nD) (t : Fin cfg0.N) (hc0 : ¬cond0 (grid0.coords t)) (hc2 : cond2 (grid0.coords t)) (xa : Vec F S200x256 .f32) (xc : Vec F S200x256 .f32) (xq : Vec F S1x256 .f32) : Vec F S200x256 .f32 := VA.read (Elt F) (VA.writes (Elt F) VA.junk (runC V c t hc0 hc2 xa xc xq).2.1)
def cC (c : Dev nD) (t : Fin cfg0.N) (hc0 : ¬cond0 (grid0.coords t)) (hc2 : cond2 (grid0.coords t)) (xa : Vec F S200x256 .f32) (xc : Vec F S200x256 .f32) (xq : Vec F S1x256 .f32) : Vec F S200x256 .f32 := VC.read (Elt F) (VC.writes (Elt F) VC.junk (runC V c t hc0 hc2 xa xc xq).2.2.1)
def qC (c : Dev nD) (t : Fin cfg0.N) (hc0 : ¬cond0 (grid0.coords t)) (hc2 : cond2 (grid0.coords t)) (xa : Vec F S200x256 .f32) (xc : Vec F S200x256 .f32) (xq : Vec F S1x256 .f32) : Vec F S1x256 .f32 := VQ.read (Elt F) (VQ.writes (Elt F) VQ.junk (runC V c t hc0 hc2 xa xc xq).2.2.2.1)

/-! ## Each piece list covers its buffer (every store is of the whole buffer) -/

theorem cov_aA (c : Dev nD) (t : Fin cfg0.N) (hc0 : cond0 (grid0.coords t)) (hc2 : ¬cond2 (grid0.coords t)) (y : S200x256.Idx) : ∃ pc ∈ (runA V c t hc0 hc2).1, y ∈ pc.1.set :=
  View.cover_of_tiledL (runA V c t hc0 hc2).1 S200x256.size (by sl_kernel_rfl) y
theorem cov_cA (c : Dev nD) (t : Fin cfg0.N) (hc0 : cond0 (grid0.coords t)) (hc2 : ¬cond2 (grid0.coords t)) (y : S200x256.Idx) : ∃ pc ∈ (runA V c t hc0 hc2).2.1, y ∈ pc.1.set :=
  View.cover_of_tiledL (runA V c t hc0 hc2).2.1 S200x256.size (by sl_kernel_rfl) y
theorem cov_qA (c : Dev nD) (t : Fin cfg0.N) (hc0 : cond0 (grid0.coords t)) (hc2 : ¬cond2 (grid0.coords t)) (y : S1x256.Idx) : ∃ pc ∈ (runA V c t hc0 hc2).2.2.1, y ∈ pc.1.set :=
  View.cover_of_tiledL (runA V c t hc0 hc2).2.2.1 S1x256.size (by sl_kernel_rfl) y
theorem cov_aB (c : Dev nD) (t : Fin cfg0.N) (hc0 : ¬cond0 (grid0.coords t)) (hc2 : ¬cond2 (grid0.coords t)) (xa : Vec F S200x256 .f32) (xc : Vec F S200x256 .f32) (xq : Vec F S1x256 .f32) (y : S200x256.Idx) : ∃ pc ∈ (runB V c t hc0 hc2 xa xc xq).1, y ∈ pc.1.set :=
  View.cover_of_tiledL (runB V c t hc0 hc2 xa xc xq).1 S200x256.size (by sl_kernel_rfl) y
theorem cov_cB (c : Dev nD) (t : Fin cfg0.N) (hc0 : ¬cond0 (grid0.coords t)) (hc2 : ¬cond2 (grid0.coords t)) (xa : Vec F S200x256 .f32) (xc : Vec F S200x256 .f32) (xq : Vec F S1x256 .f32) (y : S200x256.Idx) : ∃ pc ∈ (runB V c t hc0 hc2 xa xc xq).2.1, y ∈ pc.1.set :=
  View.cover_of_tiledL (runB V c t hc0 hc2 xa xc xq).2.1 S200x256.size (by sl_kernel_rfl) y
theorem cov_qB (c : Dev nD) (t : Fin cfg0.N) (hc0 : ¬cond0 (grid0.coords t)) (hc2 : ¬cond2 (grid0.coords t)) (xa : Vec F S200x256 .f32) (xc : Vec F S200x256 .f32) (xq : Vec F S1x256 .f32) (y : S1x256.Idx) : ∃ pc ∈ (runB V c t hc0 hc2 xa xc xq).2.2.1, y ∈ pc.1.set :=
  View.cover_of_tiledL (runB V c t hc0 hc2 xa xc xq).2.2.1 S1x256.size (by sl_kernel_rfl) y
theorem cov_oC (c : Dev nD) (t : Fin cfg0.N) (hc0 : ¬cond0 (grid0.coords t)) (hc2 : cond2 (grid0.coords t)) (xa : Vec F S200x256 .f32) (xc : Vec F S200x256 .f32) (xq : Vec F S1x256 .f32) (y : S1x256.Idx) : ∃ pc ∈ (runC V c t hc0 hc2 xa xc xq).1, y ∈ pc.1.set :=
  View.cover_of_tiledL (runC V c t hc0 hc2 xa xc xq).1 S1x256.size (by sl_kernel_rfl) y
theorem cov_aC (c : Dev nD) (t : Fin cfg0.N) (hc0 : ¬cond0 (grid0.coords t)) (hc2 : cond2 (grid0.coords t)) (xa : Vec F S200x256 .f32) (xc : Vec F S200x256 .f32) (xq : Vec F S1x256 .f32) (y : S200x256.Idx) : ∃ pc ∈ (runC V c t hc0 hc2 xa xc xq).2.1, y ∈ pc.1.set :=
  View.cover_of_tiledL (runC V c t hc0 hc2 xa xc xq).2.1 S200x256.size (by sl_kernel_rfl) y
theorem cov_cC (c : Dev nD) (t : Fin cfg0.N) (hc0 : ¬cond0 (grid0.coords t)) (hc2 : cond2 (grid0.coords t)) (xa : Vec F S200x256 .f32) (xc : Vec F S200x256 .f32) (xq : Vec F S1x256 .f32) (y : S200x256.Idx) : ∃ pc ∈ (runC V c t hc0 hc2 xa xc xq).2.2.1, y ∈ pc.1.set :=
  View.cover_of_tiledL (runC V c t hc0 hc2 xa xc xq).2.2.1 S200x256.size (by sl_kernel_rfl) y
theorem cov_qC (c : Dev nD) (t : Fin cfg0.N) (hc0 : ¬cond0 (grid0.coords t)) (hc2 : cond2 (grid0.coords t)) (xa : Vec F S200x256 .f32) (xc : Vec F S200x256 .f32) (xq : Vec F S1x256 .f32) (y : S1x256.Idx) : ∃ pc ∈ (runC V c t hc0 hc2 xa xc xq).2.2.2.1, y ∈ pc.1.set :=
  View.cover_of_tiledL (runC V c t hc0 hc2 xa xc xq).2.2.2.1 S1x256.size (by sl_kernel_rfl) y

/-! ## Tile by tile -/

theorem not_cond2_zero (hn : 0 < cfg0.N) : ¬cond2 (grid0.coords ⟨0, hn⟩) := fun h => by
  have := (hcond2 ⟨0, hn⟩).mp h; exact absurd (show (0 : ℕ) = 39 from this) (by decide)
theorem not_cond0_succ (n : ℕ) (hn : n + 1 < cfg0.N) : ¬cond0 (grid0.coords ⟨n + 1, hn⟩) := fun h =>
  absurd ((hcond0 ⟨n + 1, hn⟩).mp h) (Nat.succ_ne_zero n)

/-- What the result buffer and the three accumulators hold after the body at tile `n`: the first tile's run from anything;
    afterwards the tile's run over what the tile before left, the hops' store at the last tile only. -/
def outsAt0 (c : Dev nD) : (n : ℕ) → n < cfg0.N → Vec F S1x256 .f32 × Vec F S200x256 .f32 × Vec F S200x256 .f32 × Vec F S1x256 .f32
  | 0, hn => (outIdle, aA V c ⟨0, hn⟩ ((hcond0 ⟨0, hn⟩).mpr rfl) (not_cond2_zero hn), cA V c ⟨0, hn⟩ ((hcond0 ⟨0, hn⟩).mpr rfl) (not_cond2_zero hn), qA V c ⟨0, hn⟩ ((hcond0 ⟨0, hn⟩).mpr rfl) (not_cond2_zero hn))
  | n + 1, hn =>
    if h2 : n + 1 = 39 then
      (oC V c ⟨n + 1, hn⟩ (not_cond0_succ n hn) ((hcond2 ⟨n + 1, hn⟩).mpr h2) (outsAt0 c n (Nat.lt_of_succ_lt hn)).2.1 (outsAt0 c n (Nat.lt_of_succ_lt hn)).2.2.1 (outsAt0 c n (Nat.lt_of_succ_lt hn)).2.2.2,
       aC V c ⟨n + 1, hn⟩ (not_cond0_succ n hn) ((hcond2 ⟨n + 1, hn⟩).mpr h2) (outsAt0 c n (Nat.lt_of_succ_lt hn)).2.1 (outsAt0 c n (Nat.lt_of_succ_lt hn)).2.2.1 (outsAt0 c n (Nat.lt_of_succ_lt hn)).2.2.2,
       cC V c ⟨n + 1, hn⟩ (not_cond0_succ n hn) ((hcond2 ⟨n + 1, hn⟩).mpr h2) (outsAt0 c n (Nat.lt_of_succ_lt hn)).2.1 (outsAt0 c n (Nat.lt_of_succ_lt hn)).2.2.1 (outsAt0 c n (Nat.lt_of_succ_lt hn)).2.2.2,
       qC V c ⟨n + 1, hn⟩ (not_cond0_succ n hn) ((hcond2 ⟨n + 1, hn⟩).mpr h2) (outsAt0 c n (Nat.lt_of_succ_lt hn)).2.1 (outsAt0 c n (Nat.lt_of_succ_lt hn)).2.2.1 (outsAt0 c n (Nat.lt_of_succ_lt hn)).2.2.2)
    else
      (outIdle,
       aB V c ⟨n + 1, hn⟩ (not_cond0_succ n hn) (fun h => h2 ((hcond2 ⟨n + 1, hn⟩).mp h)) (outsAt0 c n (Nat.lt_of_succ_lt hn)).2.1 (outsAt0 c n (Nat.lt_of_succ_lt hn)).2.2.1 (outsAt0 c n (Nat.lt_of_succ_lt hn)).2.2.2,
       cB V c ⟨n + 1, hn⟩ (not_cond0_succ n hn) (fun h => h2 ((hcond2 ⟨n + 1, hn⟩).mp h)) (outsAt0 c n (Nat.lt_of_succ_lt hn)).2.1 (outsAt0 c n (Nat.lt_of_succ_lt hn)).2.2.1 (outsAt0 c n (Nat.lt_of_succ_lt hn)).2.2.2,
       qB V c ⟨n + 1, hn⟩ (not_cond0_succ n hn) (fun h => h2 ((hcond2 ⟨n + 1, hn⟩).mp h)) (outsAt0 c n (Nat.lt_of_succ_lt hn)).2.1 (outsAt0 c n (Nat.lt_of_succ_lt hn)).2.2.1 (outsAt0 c n (Nat.lt_of_succ_lt hn)).2.2.2)

/-- The tile before `t`'s contents (at the first tile: itself, unused). -/
abbrev prevAt (c : Dev nD) (t : Fin cfg0.N) := outsAt0 V c (t.val - 1) (Nat.lt_of_le_of_lt (Nat.sub_le _ _) t.isLt)

theorem outsAt0_A (c : Dev nD) (t : Fin cfg0.N) (h0 : t.val = 0) (hc0 : cond0 (grid0.coords t)) (hc2 : ¬cond2 (grid0.coords t)) :
    outsAt0 V c t.val t.isLt = (outIdle, aA V c t hc0 hc2, cA V c t hc0 hc2, qA V c t hc0 hc2) := by
  obtain ⟨n, hn⟩ := t
  cases n with
  | zero => rfl
  | succ n => exact absurd h0 (Nat.succ_ne_zero n)

theorem outsAt0_B (c : Dev nD) (t : Fin cfg0.N) (h0 : t.val ≠ 0) (h2 : t.val ≠ 39) (hc0 : ¬cond0 (grid0.coords t)) (hc2 : ¬cond2 (grid0.coords t)) :
    outsAt0 V c t.val t.isLt = (outIdle, aB V c t hc0 hc2 (prevAt V c t).2.1 (prevAt V c t).2.2.1 (prevAt V c t).2.2.2,
      cB V c t hc0 hc2 (prevAt V c t).2.1 (prevAt V c t).2.2.1 (prevAt V c t).2.2.2, qB V c t hc0 hc2 (prevAt V c t).2.1 (prevAt V c t).2.2.1 (prevAt V c t).2.2.2) := by
  obtain ⟨n, hn⟩ := t
  cases n with
  | zero => exact absurd rfl h0
  | succ n => exact (dif_neg h2).trans rfl

theorem outsAt0_C (c : Dev nD) (t : Fin cfg0.N) (h0 : t.val ≠ 0) (h2 : t.val = 39) (hc0 : ¬cond0 (grid0.coords t)) (hc2 : cond2 (grid0.coords t)) :
    outsAt0 V c t.val t.isLt = (oC V c t hc0 hc2 (prevAt V c t).2.1 (prevAt V c t).2.2.1 (prevAt V c t).2.2.2, aC V c t hc0 hc2 (prevAt V c t).2.1 (prevAt V c t).2.2.1 (prevAt V c t).2.2.2,
      cC V c t hc0 hc2 (prevAt V c t).2.1 (prevAt V c t).2.2.1 (prevAt V c t).2.2.2, qC V c t hc0 hc2 (prevAt V c t).2.1 (prevAt V c t).2.2.1 (prevAt V c t).2.2.2) := by
  obtain ⟨n, hn⟩ := t
  cases n with
  | zero => exact absurd rfl h0
  | succ n => exact (dif_pos h2).trans rfl

/-! ## The region invariant -/

/-- Before tile `n`: at the first tile the class invariant (every scoped buffer at anything); afterwards the three
    accumulators at what tile `n - 1` left, the other scoped buffers at anything, the generator register at some state. -/
def PhiS (c : Dev nD) : (n : ℕ) → n ≤ cfg0.N → sProp 𝕄
  | 0, _ => Pipeline.ΦA spec0 c
  | n + 1, hn => iprop(iprop(owns (c : Thread nD τ) scA fullShare (outsAt0 V c n hn).2.1 ∗ owns (c : Thread nD τ) scC fullShare (outsAt0 V c n hn).2.2.1 ∗ owns (c : Thread nD τ) scQ fullShare (outsAt0 V c n hn).2.2.2 ∗ otherStg c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) scA fullShare (outsAt0 V c n hn).2.1 ∗ owns (c : Thread nD τ) scC fullShare (outsAt0 V c n hn).2.2.1 ∗ owns (c : Thread nD τ) scQ fullShare (outsAt0 V c n hn).2.2.2 ∗ otherStg c) ∗ (∃ r, prngReg c r)) := rfl
theorem PhiS_pos (c : Dev nD) (n : ℕ) (h : n ≤ cfg0.N) (hz : n ≠ 0) :
    PhiS V c n h = iprop(iprop(owns (c : Thread nD τ) scA fullShare (outsAt0 V c (n - 1) (by omega)).2.1 ∗ owns (c : Thread nD τ) scC fullShare (outsAt0 V c (n - 1) (by omega)).2.2.1 ∗ owns (c : Thread nD τ) scQ fullShare (outsAt0 V c (n - 1) (by omega)).2.2.2 ∗ otherStg c) ∗ (∃ r, prngReg c r)) := by
  cases n with
  | zero => exact absurd rfl hz
  | succ n => rfl

/-! ## The pipeline's proof data -/

/-- The arrays as the region finds them; after the body at tile `t` each input's buffer at its block and the result's at
    `outsAt0`'s first component; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS_castSucc (c : Dev nD) (t : Fin cfg0.N) : (dat0 V c).Φ t.castSucc = PhiS V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Cert.KernelIdeal.Enc

end
-- ==== Proof.KI.EncBody.lean ====
/-
  The encoder's body obligation. At a tile the input memrefs hold their blocks; the closed forms of the two branch
  conditions say which of the three cases the tile is in; the region invariant hands the body the three accumulators —
  at anything at the first tile, at what the tile before left afterwards — and takes them back at this tile's contents;
  the result buffer is handed back untouched except at the last tile, where the hops' store fills it. Nothing is owed.
-/
import proofs.«115764_j28621662061019_1_alg».proof.Proof.KI.EncOuts

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem leaves0_0 (c : Dev nD) (t : Fin cfg0.N) : (dat0 V c).leavesExact 0 t = owns (c : Thread nD τ) (ms0 t) fullShare (iblk0 V c 0 t) := by
  unfold Dat.leavesExact; rw [liveAt_in 0 (by decide) t, after0_0]
theorem leaves0_1 (c : Dev nD) (t : Fin cfg0.N) : (dat0 V c).leavesExact 1 t = owns (c : Thread nD τ) (ms1 t) fullShare (iblk0 V c 1 t) := by
  unfold Dat.leavesExact; rw [liveAt_in 1 (by decide) t, after0_1]
theorem leaves0_2 (c : Dev nD) (t : Fin cfg0.N) : (dat0 V c).leavesExact 2 t = owns (c : Thread nD τ) (ms2 t) fullShare (iblk0 V c 2 t) := by
  unfold Dat.leavesExact; rw [liveAt_in 2 (by decide) t, after0_2]
theorem leaves0_3 (c : Dev nD) (t : Fin cfg0.N) : (dat0 V c).leavesExact 3 t = owns (c : Thread nD τ) (ms3 t) fullShare (iblk0 V c 3 t) := by
  unfold Dat.leavesExact; rw [liveAt_in 3 (by decide) t, after0_3]
theorem leaves0_4 (c : Dev nD) (t : Fin cfg0.N) : (dat0 V c).leavesExact 4 t = owns (c : Thread nD τ) (ms4 t) fullShare (iblk0 V c 4 t) := by
  unfold Dat.leavesExact; rw [liveAt_in 4 (by decide) t, after0_4]
theorem leaves0_5 (c : Dev nD) (t : Fin cfg0.N) : (dat0 V c).leavesExact 5 t = owns (c : Thread nD τ) (ms5 t) fullShare (iblk0 V c 5 t) := by
  unfold Dat.leavesExact; rw [liveAt_in 5 (by decide) t, after0_5]
theorem leaves0_6 (c : Dev nD) (t : Fin cfg0.N) : (dat0 V c).leavesExact 6 t = owns (c : Thread nD τ) (ms6 t) fullShare (iblk0 V c 6 t) := by
  unfold Dat.leavesExact; rw [liveAt_in 6 (by decide) t, after0_6]

def bodyPre0 (c : Dev nD) (t : Fin cfg0.N) : sProp 𝕄 :=
  iprop((dat0 V c).Φ t.castSucc ∗ (dat0 V c).owesAt () t.castSucc
    ∗ (∃ d, owns (c : Thread nD τ) (ms0 t) fullShare ((dat0 V c).before 0 t d))
    ∗ (∃ d, owns (c : Thread nD τ) (ms1 t) fullShare ((dat0 V c).before 1 t d))
    ∗ (∃ d, owns (c : Thread nD τ) (ms2 t) fullShare ((dat0 V c).before 2 t d))
    ∗ (∃ d, owns (c : Thread nD τ) (ms3 t) fullShare ((dat0 V c).before 3 t d))
    ∗ (∃ d, owns (c : Thread nD τ) (ms4 t) fullShare ((dat0 V c).before 4 t d))
    ∗ (∃ d, owns (c : Thread nD τ) (ms5 t) fullShare ((dat0 V c).before 5 t d))
    ∗ (∃ d, owns (c : Thread nD τ) (ms6 t) fullShare ((dat0 V c).before 6 t d))
    ∗ (∃ d, owns (c : Thread nD τ) (ms7 t) fullShare ((dat0 V c).before 7 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5, leaves0_6]
  have hN : t.val < 40 := lt_of_lt_of_eq t.isLt (show cfg0.N = 40 from N_0)
  by_cases h0 : t.val = 0
  · -- the first tile
    have hc0 : cond0 (grid0.coords t) := (hcond0 t).mpr h0
    have hc2 : ¬cond2 (grid0.coords t) := fun h => by have := (hcond2 t).mp h; omega
    rw [Dat.leavesExact_idle (dat0 V c) 7 t (idleAt7 t hc2) (noFlush7 t hc2)]
    rw [outsAt0_A V c t h0 hc0 hc2]
    (try dsimp only)
    unfold aA cA qA
    rw [PhiS_castSucc V c t, PhiS_zero V c _ _ h0, PhiA0_eq]
    iintro ⟨⟨⟨HA, HC, HQ, Hst⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA V c t hc0 hc2).2.2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HA]; · iexact HA
    isplitl [HC]; · iexact HC
    isplitl [HQ]; · iexact HQ
    iintro ⟨H0, H1, H2, H3, H4, H5, H6, H7, ⟨%ea, HA⟩, ⟨%ec, HC⟩, ⟨%eq, HQ⟩⟩
    isplitl [HA HC HQ Hst Hg]
    · isplitl [HA HC HQ Hst]
      · isplitl [HA]
        · unfold owns; iexists _; isplitr
          swap; · iexact HA
          ipureintro; exact View.read_writes_of_cover _ _ _ _ _ (cov_aA V c t hc0 hc2)
        isplitl [HC]
        · unfold owns; iexists _; isplitr
          swap; · iexact HC
          ipureintro; exact View.read_writes_of_cover _ _ _ _ _ (cov_cA V c t hc0 hc2)
        isplitl [HQ]
        · unfold owns; iexists _; isplitr
          swap; · iexact HQ
          ipureintro; exact View.read_writes_of_cover _ _ _ _ _ (cov_qA V c t hc0 hc2)
        iexact Hst
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hc0 : ¬cond0 (grid0.coords t) := fun h => h0 ((hcond0 t).mp h)
    by_cases h2 : t.val = 39
    · -- the last tile
      have hc2 : cond2 (grid0.coords t) := (hcond2 t).mpr h2
      rw [show (dat0 V c).leavesExact 7 t = owns (c : Thread nD τ) (ms7 t) fullShare ((dat0 V c).after 7 t) from by
        unfold Dat.leavesExact; rw [liveAt7 t hc2], after0_7]
      rw [outsAt0_C V c t h0 h2 hc0 hc2]
      (try dsimp only)
      unfold oC aC cC qC
      rw [PhiS_castSucc V c t, PhiS_pos V c _ _ h0]
      iintro ⟨⟨⟨HA, HC, HQ, Hst⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runC V c t hc0 hc2 _ _ _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HA]; · iexact HA
      isplitl [HC]; · iexact HC
      isplitl [HQ]; · iexact HQ
      iintro ⟨H0, H1, H2, H3, H4, H5, H6, ⟨%e7, H7⟩, ⟨%ea, HA⟩, ⟨%ec, HC⟩, ⟨%eq, HQ⟩⟩
      isplitl [HA HC HQ Hst Hg]
      · isplitl [HA HC HQ Hst]
        · isplitl [HA]
          · unfold owns; iexists _; isplitr
            swap; · iexact HA
            ipureintro; exact View.read_writes_of_cover _ _ _ _ _ (cov_aC V c t hc0 hc2 _ _ _)
          isplitl [HC]
          · unfold owns; iexists _; isplitr
            swap; · iexact HC
            ipureintro; exact View.read_writes_of_cover _ _ _ _ _ (cov_cC V c t hc0 hc2 _ _ _)
          isplitl [HQ]
          · unfold owns; iexists _; isplitr
            swap; · iexact HQ
            ipureintro; exact View.read_writes_of_cover _ _ _ _ _ (cov_qC V c t hc0 hc2 _ _ _)
          iexact Hst
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      unfold owns; iexists _; isplitr
      swap; · iexact H7
      ipureintro; exact View.read_writes_of_cover _ _ _ _ _ (cov_oC V c t hc0 hc2 _ _ _)
    · -- a middle tile
      have hc2 : ¬cond2 (grid0.coords t) := fun h => h2 ((hcond2 t).mp h)
      rw [Dat.leavesExact_idle (dat0 V c) 7 t (idleAt7 t hc2) (noFlush7 t hc2)]
      rw [outsAt0_B V c t h0 h2 hc0 hc2]
      (try dsimp only)
      unfold aB cB qB
      rw [PhiS_castSucc V c t, PhiS_pos V c _ _ h0]
      iintro ⟨⟨⟨HA, HC, HQ, Hst⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB V c t hc0 hc2 _ _ _).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HA]; · iexact HA
      isplitl [HC]; · iexact HC
      isplitl [HQ]; · iexact HQ
      iintro ⟨H0, H1, H2, H3, H4, H5, H6, H7, ⟨%ea, HA⟩, ⟨%ec, HC⟩, ⟨%eq, HQ⟩⟩
      isplitl [HA HC HQ Hst Hg]
      · isplitl [HA HC HQ Hst]
        · isplitl [HA]
          · unfold owns; iexists _; isplitr
            swap; · iexact HA
            ipureintro; exact View.read_writes_of_cover _ _ _ _ _ (cov_aB V c t hc0 hc2 _ _ _)
          isplitl [HC]
          · unfold owns; iexists _; isplitr
            swap; · iexact HC
            ipureintro; exact View.read_writes_of_cover _ _ _ _ _ (cov_cB V c t hc0 hc2 _ _ _)
          isplitl [HQ]
          · unfold owns; iexists _; isplitr
            swap; · iexact HQ
            ipureintro; exact View.read_writes_of_cover _ _ _ _ _ (cov_qB V c t hc0 hc2 _ _ _)
          iexact Hst
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- The library's body obligation, at every tile. -/
theorem body_obligation0 (c : Dev nD) : BodyObligation (dat0 (F := F) V c) (defs₀ (F := F)) Variants.none () Set.univ := fun t => by
  rw [bigSep_W0, bigSep_W0]
  exact sound_body0 V c t

/-- What the region is entered with (the class invariant) is the invariant before the first tile. -/
theorem Phi_in (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last tile the invariant gives the class invariant back: the accumulators' contents are forgotten. -/
theorem Phi_out (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 40 := N_0; omega), PhiA0_eq]
  iintro ⟨⟨HA, HC, HQ, Hst⟩, Hg⟩
  isplitl [HA HC HQ Hst]
  · isplitl [HA]; · iexists _; iexact HA
    isplitl [HC]; · iexists _; iexact HC
    isplitl [HQ]; · iexists _; iexact HQ
    iexact Hst
  iexact Hg

end Cert.KernelIdeal.Enc

end
-- ==== Proof.KI.Dec.lean ====
/-
  The second region (the decoder: one row of 256 against a tile of 12800 rows of the output embedding, ten tiles): each
  window's block of its array; what the body's one store leaves in the result's staging buffer as a function of the two
  input blocks; the body's triple on whole memrefs; the pipeline's proof data and the body obligation at every tile. The
  body reads no scratch and takes no branch, so the region invariant is the class's own.
-/
import proofs.«115764_j28621662061019_1_alg».proof.Proof.Gen.KernelIdeal.Launch
import proofs.«115764_j28621662061019_1_alg».proof.Proof.Gen.KernelIdeal.Skeleton
import proofs.«115764_j28621662061019_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Dec

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block of the array at every tile, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block of the array at every tile, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each is of a whole buffer -/

abbrev rQ : Rect S1x256 := Rect.unit (s := S1x256) ![0, 0] S1x256.size inb_S1x256_S1x256_0_0
abbrev rW : Rect S12800x256 := Rect.unit (s := S12800x256) ![0, 0] S12800x256.size inb_S12800x256_S12800x256_0_0
abbrev rO : Rect S1x12800 := Rect.unit (s := S1x12800) ![0, 0] S1x12800.size inb_S1x12800_S1x12800_0_0

/-- The result's staging buffer after the body, from the two input blocks: its one store. -/
def out1 (x0 : Vec F S1x256 .f32) (x1 : Vec F S12800x256 .f32) : Vec F S1x12800 .f32 :=
  View.canon [⟨rO, k1_pay1 (View.ld x0 rQ) (View.ld x1 rW)⟩]

theorem cover1 (p0 : Vec F S1x12800 .f32) (y : S1x12800.Idx) :
    ∃ pc ∈ ([⟨rO, p0⟩] : List (View.Piece (Elt F) S1x12800 .f32)), y ∈ pc.1.set :=
  View.cover_of_tiled [⟨rO, p0⟩] S1x12800.size (by rfl) y

set_option maxHeartbeats 1000000 in
/-- The body on whole staging memrefs, the inputs' at contents `x0`, `x1` and the result's at anything, runs to the
    continuation holding the inputs' as they were and the result's at `out1 x0 x1`. -/
theorem sound_kernel1 (c : Dev nD) (E : Set ℕ) (i : grid1.Coords) (arg1 : Memref sig .tc .vmem S1x256 .f32) (harg1 : arg1.IsWhole) (arg2 : Memref sig .tc .vmem S12800x256 .f32) (harg2 : arg2.IsWhole) (arg3 : Memref sig .tc .vmem S1x12800 .f32) (harg3 : arg3.IsWhole)
    (x0 : Vec F S1x256 .f32) (x1 : Vec F S12800x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1 x0 x1)) -∗ K ⟨⟩))
      ⊢ wp frame (wpE (defs₀ (F := F)) Variants.none c none) E (cc1__decode_kernel i arg1 harg1 arg2 harg2 arg3 harg3) K := by
  simp only [cc1__decode_kernel_eq_skeleton]; unfold cc1__decode_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1 _)

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1 (iblk1 V c 0 t) (iblk1 V c 1 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic tile -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Dec

end
-- ==== Proof.KI.Regs.lean ====
/-
  The two regions joined. What the core's unscoped buffers hold between @main's two items: as launched; then with the
  first region's result array at what its pipeline leaves after forty tiles; then with the second's at what its pipeline
  leaves after ten. The proof-data family (each region's at its entry contents), and per region the record the conditional
  frame takes: its arrays split out of the unscoped buffers at entry and put back at the exit contents, the generator
  register lent to the region invariant and returned, nothing owed, no semaphore of the kernel's own.
-/
import proofs.«115764_j28621662061019_1_alg».proof.Proof.KI.EncBody
import proofs.«115764_j28621662061019_1_alg».proof.Proof.KI.Dec
import proofs.«115764_j28621662061019_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The contents between the items -/

/-- The first region is entered with the launch contents. -/
abbrev VE0 (c : Dev nD) (b : Ref sig .tc) : Buf (Elt F) ((c : Thread nD τ).loc b) := V0 m c b
/-- What the first region leaves in its result array. -/
def X0 (c : Dev nD) : Buf (Elt F) ((c : Thread nD τ).loc main_v0) := (Enc.dat0 (VE0 m) c).arrAt 7 cfg0.N
/-- The second region is entered with that array updated. -/
abbrev W1 (c : Dev nD) : Valuation τ sig (Elt F) := Function.update (V0 m c) main_v0 (X0 m c)
abbrev VE1 (c : Dev nD) (b : Ref sig .tc) : Buf (Elt F) ((c : Thread nD τ).loc b) := W1 m c b
/-- What the second region leaves in its result array. -/
def X1 (c : Dev nD) : Buf (Elt F) ((c : Thread nD τ).loc main_v1) := (Dec.dat1 (VE1 m) c).arrAt 2 cfg1.N

/-- What the regions leave, as the conditional frame's unknowns. -/
def outs : Outs (F := F) := fun _ r c =>
  (Function.update (Function.update (fun r : Ref sig .tc => m ((c : Thread nD τ).loc r)) main_v0 (X0 m c)) main_v1 (X1 m c)) r

theorem outs_v0 (j : ℕ) (c : Dev nD) : outs m j main_v0 c = X0 m c := by
  unfold outs; rw [Function.update_of_ne (by decide : (main_v0 : Ref sig .tc) ≠ main_v1), Function.update_self]
theorem outs_v1 (j : ℕ) (c : Dev nD) : outs m j main_v1 c = X1 m c := by
  unfold outs; rw [Function.update_self]

theorem V1_eq (c : Dev nD) : V1 m (outs m) c = W1 m c := by
  show Function.update (V0 m c) main_v0 (outs m 1 main_v0 c) = _; rw [outs_v0]

/-! ## The proof data, each region's at its entry contents -/

def pdats : (p : Fin 2) → (c : Dev nD) → Dat τ (Elt F) Unit ℕ (UR sig nD τ) ℕ (cfgs p) c
  | ⟨0, _⟩ => fun c => Enc.dat0 (VE0 m) c
  | ⟨1, _⟩ => fun c => Dec.dat1 (VE1 m) c

abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-! ## Each region's arrays at its exit, against the next contents -/

theorem hF0 (c : Dev nD) (w : Fin cfg0.W) : (pdats m 0 c).arrAt w cfg0.N = V1 m (outs m) c (Pipeline.arrRef spec0 w) := by
  rw [V1_eq]
  match w with
  | ⟨0, _⟩ => exact ((Enc.dat0 (VE0 m) c).arrAt_in 0 rfl _).trans ((Enc.A_eq0 (VE0 m) c 0).trans (Function.update_of_ne (StableHlo.devRef_ne_of_ne (by decide)) _ _).symm)
  | ⟨1, _⟩ => exact ((Enc.dat0 (VE0 m) c).arrAt_in 1 rfl _).trans ((Enc.A_eq0 (VE0 m) c 1).trans (Function.update_of_ne (StableHlo.devRef_ne_of_ne (by decide)) _ _).symm)
  | ⟨2, _⟩ => exact ((Enc.dat0 (VE0 m) c).arrAt_in 2 rfl _).trans ((Enc.A_eq0 (VE0 m) c 2).trans (Function.update_of_ne (StableHlo.devRef_ne_of_ne (by decide)) _ _).symm)
  | ⟨3, _⟩ => exact ((Enc.dat0 (VE0 m) c).arrAt_in 3 rfl _).trans ((Enc.A_eq0 (VE0 m) c 3).trans (Function.update_of_ne (StableHlo.devRef_ne_of_ne (by decide)) _ _).symm)
  | ⟨4, _⟩ => exact ((Enc.dat0 (VE0 m) c).arrAt_in 4 rfl _).trans ((Enc.A_eq0 (VE0 m) c 4).trans (Function.update_of_ne (StableHlo.devRef_ne_of_ne (by decide)) _ _).symm)
  | ⟨5, _⟩ => exact ((Enc.dat0 (VE0 m) c).arrAt_in 5 rfl _).trans ((Enc.A_eq0 (VE0 m) c 5).trans (Function.update_of_ne (StableHlo.devRef_ne_of_ne (by decide)) _ _).symm)
  | ⟨6, _⟩ => exact ((Enc.dat0 (VE0 m) c).arrAt_in 6 rfl _).trans ((Enc.A_eq0 (VE0 m) c 6).trans (Function.update_of_ne (StableHlo.devRef_ne_of_ne (by decide)) _ _).symm)
  | ⟨7, _⟩ => exact (Function.update_self (Proc.devRef .tc main_v0 : DevRef τ sig) (X0 m c) (V0 m c)).symm

theorem hrest0 (c : Dev nD) : ∀ b, b ∉ Finset.univ.image (Pipeline.arrRef spec0) → V1 m (outs m) c b = VE0 m c b := fun b hb =>
  V1_of m (outs m) c b (by
    intro h; rw [List.mem_singleton] at h; subst h
    exact hb (Finset.mem_image.mpr ⟨7, Finset.mem_univ _, rfl⟩))

theorem hF1 (c : Dev nD) (w : Fin cfg1.W) : (pdats m 1 c).arrAt w cfg1.N = V2 m (outs m) c (Pipeline.arrRef spec1 w) := by
  match w with
  | ⟨0, _⟩ => exact ((Dec.dat1 (VE1 m) c).arrAt_in 0 rfl _).trans ((Dec.A_eq1 (VE1 m) c 0).trans (((V2_of m (outs m) c main_v0 (by decide)).trans (congrFun (V1_eq m c) _)).symm))
  | ⟨1, _⟩ => exact ((Dec.dat1 (VE1 m) c).arrAt_in 1 rfl _).trans ((Dec.A_eq1 (VE1 m) c 1).trans (((V2_of m (outs m) c main_arg5 (by decide)).trans (congrFun (V1_eq m c) _)).symm))
  | ⟨2, _⟩ => exact ((Function.update_self (Proc.devRef .tc main_v1 : DevRef τ sig) (outs m 2 main_v1 c) (V1 m (outs m) c)).trans (outs_v1 m 2 c)).symm

theorem hrest1 (c : Dev nD) : ∀ b, b ∉ Finset.univ.image (Pipeline.arrRef spec1) → V2 m (outs m) c b = V1 m (outs m) c b := fun b hb =>
  V2_of m (outs m) c b (by
    intro h; rw [List.mem_singleton] at h; subst h
    exact hb (Finset.mem_image.mpr ⟨2, Finset.mem_univ _, rfl⟩))

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Enc.body_obligation0 (VE0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (VE0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VE0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (Enc.Phi_in (VE0 m) c)
    unfold Pipeline.ΦA
    iintro ⟨Hp, -, Hr⟩
    isplitl [Hr]; · iexact Hr
    iexact Hp
  hout c := by
    refine BIBase.Entails.trans (Enc.Phi_out (VE0 m) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VE0 m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dec.body_obligation1 (VE1 m) c).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (fun b => V1 m (outs m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => V1 m (outs m) c b) (fun w => (congrFun (V1_eq m c) (Proc.devRef .tc (Pipeline.arrRef spec1 w))).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => V1 m (outs m) c b) (fun b => V2 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KI.Frame.lean ====
/-
  The first program's frame and its run with the result named. The launch deals each core its unscoped semaphores at zero,
  nothing owed and its generator register; that is the rest state the two region records ride on, and it ends owing
  nothing. With the two records the conditional frame gives: every weakly fair execution terminates, the eight argument
  arrays end as launched — and, in the variant that also reads the result off the last valuation, the result array ends
  at what the second region's pipeline leaves after its ten tiles.
-/
import proofs.«115764_j28621662061019_1_alg».proof.Proof.KI.Regs
import proofs.«115764_j28621662061019_1_alg».proof.Proof.KI.RegionsV

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev u0 : UR sig nD τ := initOf (Pipeline.cells cfgs cellOf_inj) (Pipeline.launchToks cfgs cellOf_inj)

theorem hu0 : (ownU (u0) : sProp 𝕄) ⊢ |={Set.univ}=> iprop(BI.own (emb₁ (Ix := Unit) (Val := Elt F) (Name := ℕ) (Lvl := ℕ) (nD := nD) (τ := τ) (sig := sig) u0) ∗ bigSep Finset.univ fun _ : Dev nD => (BI.emp : sProp 𝕄)) := by
  iintro Hu; imodintro
  isplitl [Hu]
  · iapply (show (ownU u0 : sProp 𝕄) ⊢ BI.own (emb₁ u0) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (fun c : Dev nD => R (F := F) c) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : R (F := F) c ⊢ (iprop(∃ W, owes (c : Thread nD τ) (0 : CellTallies nD τ sig Unit) W) : sProp 𝕄) := by
  iintro ⟨-, HO⟩; iexact HO

set_option backward.isDefEq.respectTransparency.types false in
/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m emb₁ () 𝒱₀ L lv (fun _ _ => rfl) ρ (outs m) (pdats m) 0 (fun _ => iprop(emp)) u0 hu0
    (fun _ c => R c) (hE0 ρ) hE2 (reg0 m) (fun _ => .rfl) (fun _ => .rfl) (reg1 m) (fun _ => .rfl) (fun _ => .rfl)

set_option backward.isDefEq.respectTransparency.types false in
/-- The run with the result named: the result array ends at what the second region leaves. -/
theorem run_val : θ_run defs (onTc (τ := τ) (main (F := F))) ⟨m, fun _ => 0, ρ⟩ (fun r => ∀ c : Dev nD,
      r.2.mem ((c.tc : Thread nD τ).loc main_v1) = X1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (outs_v1 m 2 c), (h c).2⟩)
    (Cert.KernelIdeal.GenV.run_cond m emb₁ () 𝒱₀ L lv (fun _ _ => rfl) ρ (outs m) (pdats m) 0 (fun _ => iprop(emp)) u0 hu0
      (fun _ c => R c) (hE0 ρ) hE2 (reg0 m) (fun _ => .rfl) (fun _ => .rfl) (reg1 m) (fun _ => .rfl) (fun _ => .rfl))

end Cert.KernelIdeal.Run

end
-- ==== Proof.RefRun.lean ====
import proofs.«115764_j28621662061019_1_alg».proof.Proof.Gen.ReferenceIdeal.Run

/-! The reference program's run, read back: imported here so that the modules on the reference's value build on one name. -/
-- ==== Proof.KI.ValDefs.lean ====
/-
  What the two regions compute, as pure functions of whole arrays, in the kernel's own operations: the tile of an array a
  grid point sees; each accumulator after tile n, a recursion over the tiles; the three memory hops applied to the
  accumulators; and the decoder's result, one row of 128000 entries read tile by tile. Stated for any float instance; the
  frame side proves the program's arrays end at these, the algebra side that at the ideal instance they are the
  reference's term.
-/
import proofs.«115764_j28621662061019_1_alg».proof.Proof.Gen.KernelIdeal.Skeleton
import Idealize.ShloMosaic.Lib.ValueIdx

noncomputable section

namespace Cert.KernelIdeal.Val

open Cert.KernelIdeal Cert.KernelIdeal.Gen
open Idealize.ShloMosaic Idealize.ShloMosaic.ValueIdx

variable {F : FTy → Type} [FloatOps F]

/-- Column tile `n` (3200 columns wide) of an array of 128000 columns: entry (a, k) is the array's entry (a, 3200·n + k). -/
def colTile {r : ℕ} (x : Vec F (⟨2, ![r, 128000]⟩ : Shape) .f32) (n : ℕ) : Vec F (⟨2, ![r, 3200]⟩ : Shape) .f32 :=
  fun y => x (ix2 (y 0) ⟨(3200 * n + (y 1).val) % 128000, Nat.mod_lt _ (by decide)⟩)

/-- Row tile `n` (12800 rows) of the output embedding, an array of 128000 rows: entry (k, d) is the array's entry (12800·n + k, d). -/
def rowTile (x : Vec F S128000x256 .f32) (n : ℕ) : Vec F S12800x256 .f32 :=
  fun y => x (ix2 ⟨(12800 * n + (y 0).val) % 128000, Nat.mod_lt _ (by decide)⟩ (y 1))

/-- The A-side accumulator after tile `n`: zeros plus each tile's product so far. -/
def accA (mem : Vec F S200x128000 .f32) (wa : Vec F S256x128000 .f32) : ℕ → Vec F S200x256 .f32
  | 0 => k0_pay12 (colTile mem 0) (colTile wa 0) (k0_pay8 (F := F))
  | n + 1 => k0_pay12 (colTile mem (n + 1)) (colTile wa (n + 1)) (accA mem wa n)

/-- The C-side accumulator after tile `n`. -/
def accC (mem : Vec F S200x128000 .f32) (wc : Vec F S256x128000 .f32) : ℕ → Vec F S200x256 .f32
  | 0 => k0_pay13 (colTile mem 0) (colTile wc 0) (k0_pay9 (F := F))
  | n + 1 => k0_pay13 (colTile mem (n + 1)) (colTile wc (n + 1)) (accC mem wc n)

/-- The question's accumulator after tile `n`. -/
def accQ (q : Vec F S1x128000 .f32) (wb : Vec F S256x128000 .f32) : ℕ → Vec F S1x256 .f32
  | 0 => k0_pay1 (k0_pay14 (colTile q 0) (colTile wb 0) (k0_pay10 (F := F)))
  | n + 1 => k0_pay1 (k0_pay14 (colTile q (n + 1)) (colTile wb (n + 1)) (accQ q wb n))

/-- The three memory hops on the finished accumulators `a`, `c`, `q` and the two temporal tables: what the last tile stores
    into the result buffer. -/
def hops (a ta c tc : Vec F S200x256 .f32) (q : Vec F S1x256 .f32) : Vec F S1x256 .f32 :=
  k0_pay2 (k0_pay3 a ta) (k0_pay4 c tc) (k0_pay5 a ta c tc q) (k0_pay6 a ta c tc q) (k0_pay7 c tc)

/-- The first region's result as a function of its argument arrays. -/
def encK (q : Vec F S1x128000 .f32) (mem : Vec F S200x128000 .f32) (wa wb wc : Vec F S256x128000 .f32) (ta tc : Vec F S200x256 .f32) : Vec F S1x256 .f32 :=
  hops (accA mem wa 39) ta (accC mem wc 39) tc (accQ q wb 39)

/-- The second region's result: entry (0, v) is the decoder's payload on the tile of 12800 rows that holds row `v`. -/
def decK (qd : Vec F S1x256 .f32) (wout : Vec F S128000x256 .f32) : Vec F S1x128000 .f32 :=
  fun j => k1_pay1 qd (rowTile wout ((j 1).val / 12800)) (ix2 0 ⟨(j 1).val % 12800, Nat.mod_lt _ (by decide)⟩)

end Cert.KernelIdeal.Val

end
-- ==== Proof.KI.EncBlocks.lean ====
/-
  The first region's input blocks. The five long arrays (the question [1,128000], the memory [200,128000] and the three
  embedding tables [256,128000]) are read in forty column tiles of 3200: the block at tile t is the array's columns
  3200·t … 3200·t + 3199, every row. The two temporal tables [200,256] are read whole at every tile.
-/
import proofs.«115764_j28621662061019_1_alg».proof.Proof.KI.EncBase
import proofs.«115764_j28621662061019_1_alg».proof.Proof.KI.ValDefs
import Idealize.ShloMosaic.Lib.Pipeline.Value
import Idealize.ShloMosaic.Lib.ValueIdx

set_option maxRecDepth 16384

noncomputable section

namespace Cert.KernelIdeal.Enc

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The block indices at tile t: each of the five long arrays is at block (0, t), each temporal table at block (0, 0);
    there are forty tiles. -/
theorem block_indices0 : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = 0
    ∧ win0_6.index t (0 : Fin 2) = 0 ∧ win0_6.index t (1 : Fin 2) = 0 ∧ t.val < 40 :=
  (by decide +kernel : ∀ t : Fin grid0.N, _)

/-- The question's block at tile t is its column tile t. -/
theorem iblk0_0_eq (c : Dev nD) (t : Fin cfg0.N) :
    (iblk0 V c 0 t : Vec F S1x3200 .f32) = Val.colTile (F := F) (r := 1) (V c main_arg0 : S1x128000.Idx → Elt F .f32) t.val := by
  have hI := block_indices0 t
  have e0 : win0_0.index t (0 : Fin 2) = 0 := by simp only [hI]
  have e1 : win0_0.index t (1 : Fin 2) = t.val := by simp only [hI]
  have ht : t.val < 40 := hI.2.2.2.2.2.2.2.2.2.2.2.2.2.2
  funext y
  show (V c main_arg0 : S1x128000.Idx → Elt F .f32) (((cfg0.win 0).blk t).view.emb y)
    = (V c main_arg0 : S1x128000.Idx → Elt F .f32) (ix2 (y 0) ⟨(3200 * t.val + (y 1).val) % 128000, Nat.mod_lt _ (by decide)⟩)
  congr 1
  funext a; apply Fin.ext
  have hy1 : (y 1).val < 3200 := idx2_lt1 y
  match a with
  | ⟨0, _⟩ => show win0_0.index t (0 : Fin 2) * 1 + 1 * (y 0).val = (y 0).val; omega
  | ⟨1, _⟩ => show win0_0.index t (1 : Fin 2) * 3200 + 1 * (y 1).val = (3200 * t.val + (y 1).val) % 128000; omega

/-- The memory's block at tile t is its column tile t. -/
theorem iblk0_1_eq (c : Dev nD) (t : Fin cfg0.N) :
    (iblk0 V c 1 t : Vec F S200x3200 .f32) = Val.colTile (F := F) (r := 200) (V c main_arg1 : S200x128000.Idx → Elt F .f32) t.val := by
  have hI := block_indices0 t
  have e0 : win0_1.index t (0 : Fin 2) = 0 := by simp only [hI]
  have e1 : win0_1.index t (1 : Fin 2) = t.val := by simp only [hI]
  have ht : t.val < 40 := hI.2.2.2.2.2.2.2.2.2.2.2.2.2.2
  funext y
  show (V c main_arg1 : S200x128000.Idx → Elt F .f32) (((cfg0.win 1).blk t).view.emb y)
    = (V c main_arg1 : S200x128000.Idx → Elt F .f32) (ix2 (y 0) ⟨(3200 * t.val + (y 1).val) % 128000, Nat.mod_lt _ (by decide)⟩)
  congr 1
  funext a; apply Fin.ext
  have hy1 : (y 1).val < 3200 := idx2_lt1 y
  match a with
  | ⟨0, _⟩ => show win0_1.index t (0 : Fin 2) * 200 + 1 * (y 0).val = (y 0).val; omega
  | ⟨1, _⟩ => show win0_1.index t (1 : Fin 2) * 3200 + 1 * (y 1).val = (3200 * t.val + (y 1).val) % 128000; omega

/-- The first embedding table's block at tile t is its column tile t. -/
theorem iblk0_2_eq (c : Dev nD) (t : Fin cfg0.N) :
    (iblk0 V c 2 t : Vec F S256x3200 .f32) = Val.colTile (F := F) (r := 256) (V c main_arg2 : S256x128000.Idx → Elt F .f32) t.val := by
  have hI := block_indices0 t
  have e0 : win0_2.index t (0 : Fin 2) = 0 := by simp only [hI]
  have e1 : win0_2.index t (1 : Fin 2) = t.val := by simp only [hI]
  have ht : t.val < 40 := hI.2.2.2.2.2.2.2.2.2.2.2.2.2.2
  funext y
  show (V c main_arg2 : S256x128000.Idx → Elt F .f32) (((cfg0.win 2).blk t).view.emb y)
    = (V c main_arg2 : S256x128000.Idx → Elt F .f32) (ix2 (y 0) ⟨(3200 * t.val + (y 1).val) % 128000, Nat.mod_lt _ (by decide)⟩)
  congr 1
  funext a; apply Fin.ext
  have hy1 : (y 1).val < 3200 := idx2_lt1 y
  match a with
  | ⟨0, _⟩ => show win0_2.index t (0 : Fin 2) * 256 + 1 * (y 0).val = (y 0).val; omega
  | ⟨1, _⟩ => show win0_2.index t (1 : Fin 2) * 3200 + 1 * (y 1).val = (3200 * t.val + (y 1).val) % 128000; omega

/-- The second embedding table's block at tile t is its column tile t. -/
theorem iblk0_3_eq (c : Dev nD) (t : Fin cfg0.N) :
    (iblk0 V c 3 t : Vec F S256x3200 .f32) = Val.colTile (F := F) (r := 256) (V c main_arg3 : S256x128000.Idx → Elt F .f32) t.val := by
  have hI := block_indices0 t
  have e0 : win0_3.index t (0 : Fin 2) = 0 := by simp only [hI]
  have e1 : win0_3.index t (1 : Fin 2) = t.val := by simp only [hI]
  have ht : t.val < 40 := hI.2.2.2.2.2.2.2.2.2.2.2.2.2.2
  funext y
  show (V c main_arg3 : S256x128000.Idx → Elt F .f32) (((cfg0.win 3).blk t).view.emb y)
    = (V c main_arg3 : S256x128000.Idx → Elt F .f32) (ix2 (y 0) ⟨(3200 * t.val + (y 1).val) % 128000, Nat.mod_lt _ (by decide)⟩)
  congr 1
  funext a; apply Fin.ext
  have hy1 : (y 1).val < 3200 := idx2_lt1 y
  match a with
  | ⟨0, _⟩ => show win0_3.index t (0 : Fin 2) * 256 + 1 * (y 0).val = (y 0).val; omega
  | ⟨1, _⟩ => show win0_3.index t (1 : Fin 2) * 3200 + 1 * (y 1).val = (3200 * t.val + (y 1).val) % 128000; omega

/-- The third embedding table's block at tile t is its column tile t. -/
theorem iblk0_4_eq (c : Dev nD) (t : Fin cfg0.N) :
    (iblk0 V c 4 t : Vec F S256x3200 .f32) = Val.colTile (F := F) (r := 256) (V c main_arg4 : S256x128000.Idx → Elt F .f32) t.val := by
  have hI := block_indices0 t
  have e0 : win0_4.index t (0 : Fin 2) = 0 := by simp only [hI]
  have e1 : win0_4.index t (1 : Fin 2) = t.val := by simp only [hI]
  have ht : t.val < 40 := hI.2.2.2.2.2.2.2.2.2.2.2.2.2.2
  funext y
  show (V c main_arg4 : S256x128000.Idx → Elt F .f32) (((cfg0.win 4).blk t).view.emb y)
    = (V c main_arg4 : S256x128000.Idx → Elt F .f32) (ix2 (y 0) ⟨(3200 * t.val + (y 1).val) % 128000, Nat.mod_lt _ (by decide)⟩)
  congr 1
  funext a; apply Fin.ext
  have hy1 : (y 1).val < 3200 := idx2_lt1 y
  match a with
  | ⟨0, _⟩ => show win0_4.index t (0 : Fin 2) * 256 + 1 * (y 0).val = (y 0).val; omega
  | ⟨1, _⟩ => show win0_4.index t (1 : Fin 2) * 3200 + 1 * (y 1).val = (3200 * t.val + (y 1).val) % 128000; omega

/-- The first temporal table's block at every tile is the whole table. -/
theorem iblk0_5_eq (c : Dev nD) (t : Fin cfg0.N) :
    (iblk0 V c 5 t : Vec F S200x256 .f32) = (V c main_arg6 : S200x256.Idx → Elt F .f32) := by
  have hI := block_indices0 t
  have e0 : win0_5.index t (0 : Fin 2) = 0 := by simp only [hI]
  have e1 : win0_5.index t (1 : Fin 2) = 0 := by simp only [hI]
  funext y
  show (V c main_arg6 : S200x256.Idx → Elt F .f32) (((cfg0.win 5).blk t).view.emb y) = (V c main_arg6 : S200x256.Idx → Elt F .f32) y
  congr 1
  funext a; apply Fin.ext
  match a with
  | ⟨0, _⟩ => show win0_5.index t (0 : Fin 2) * 200 + 1 * (y 0).val = (y 0).val; omega
  | ⟨1, _⟩ => show win0_5.index t (1 : Fin 2) * 256 + 1 * (y 1).val = (y 1).val; omega

/-- The second temporal table's block at every tile is the whole table. -/
theorem iblk0_6_eq (c : Dev nD) (t : Fin cfg0.N) :
    (iblk0 V c 6 t : Vec F S200x256 .f32) = (V c main_arg7 : S200x256.Idx → Elt F .f32) := by
  have hI := block_indices0 t
  have e0 : win0_6.index t (0 : Fin 2) = 0 := by simp only [hI]
  have e1 : win0_6.index t (1 : Fin 2) = 0 := by simp only [hI]
  funext y
  show (V c main_arg7 : S200x256.Idx → Elt F .f32) (((cfg0.win 6).blk t).view.emb y) = (V c main_arg7 : S200x256.Idx → Elt F .f32) y
  congr 1
  funext a; apply Fin.ext
  match a with
  | ⟨0, _⟩ => show win0_6.index t (0 : Fin 2) * 200 + 1 * (y 0).val = (y 0).val; omega
  | ⟨1, _⟩ => show win0_6.index t (1 : Fin 2) * 256 + 1 * (y 1).val = (y 1).val; omega

end Cert.KernelIdeal.Enc

end
-- ==== Proof.KI.EncValue.lean ====
/-
  The first region's result: after its forty tiles the result array holds the three memory hops applied to the three
  finished accumulators, each accumulator the fold of its tile step over the forty column tiles of its arrays.
-/
import proofs.«115764_j28621662061019_1_alg».proof.Proof.KI.EncOuts
import proofs.«115764_j28621662061019_1_alg».proof.Proof.KI.ValDefs
import proofs.«115764_j28621662061019_1_alg».proof.Proof.KI.EncBlocks
import Idealize.ShloMosaic.Lib.Pipeline.Value
import Idealize.ShloMosaic.Lib.ValueIdx

set_option maxRecDepth 16384

noncomputable section

namespace Cert.KernelIdeal.Enc

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Offsets (0, 0): every access of the body is of a whole buffer. -/
theorem hz2 : (![0, 0] : Fin 2 → Nat) = fun _ => 0 := funext fun a => by fin_cases a <;> rfl

/-! ## What each case leaves is the tile's step on the blocks -/

/-- First tile: the A-side accumulator is reset to zero, read back, and stepped by the tile. -/
theorem aA_eq (c : Dev nD) (t : Fin cfg0.N) (hc0 : cond0 (grid0.coords t)) (hc2 : ¬cond2 (grid0.coords t)) :
    aA V c t hc0 hc2 = k0_pay12 (iblk0 V c 1 t) (iblk0 V c 2 t) (k0_pay8 (F := F)) := by
  unfold aA
  rw [View.read_writes_eq_canon _ _ _ (cov_aA V c t hc0 hc2)]
  unfold runA kernelRunA
  dsimp only
  sl_unfold_words
  rw [View.canon_cons_unit_zero (S := S200x256) hz2]
  simp only [View.readAt_eq_ld, (hs0 t).read_unread, (hs1 t).read_unread, (hs2 t).read_unread, (hs3 t).read_unread,
    (hs4 t).read_unread, (hs5 t).read_unread, (hs6 t).read_unread, (Memref.isWhole_whole cc0_scratch0).read_unread,
    (Memref.isWhole_whole cc0_scratch1).read_unread, (Memref.isWhole_whole cc0_scratch2).read_unread,
    View.ld_unit_zero (S := S1x3200) hz2, View.ld_unit_zero (S := S200x3200) hz2, View.ld_unit_zero (S := S256x3200) hz2,
    View.ld_unit_zero (S := S200x256) hz2, View.ld_unit_zero (S := S1x256) hz2,
    View.readCov_unit_zero (S := S200x256) _ hz2, View.readCov_unit_zero (S := S1x256) _ hz2]

/-- First tile: the C-side accumulator is reset to zero, read back, and stepped by the tile. -/
theorem cA_eq (c : Dev nD) (t : Fin cfg0.N) (hc0 : cond0 (grid0.coords t)) (hc2 : ¬cond2 (grid0.coords t)) :
    cA V c t hc0 hc2 = k0_pay13 (iblk0 V c 1 t) (iblk0 V c 4 t) (k0_pay9 (F := F)) := by
  unfold cA
  rw [View.read_writes_eq_canon _ _ _ (cov_cA V c t hc0 hc2)]
  unfold runA kernelRunA
  dsimp only
  sl_unfold_words
  rw [View.canon_cons_unit_zero (S := S200x256) hz2]
  simp only [View.readAt_eq_ld, (hs0 t).read_unread, (hs1 t).read_unread, (hs2 t).read_unread, (hs3 t).read_unread,
    (hs4 t).read_unread, (hs5 t).read_unread, (hs6 t).read_unread, (Memref.isWhole_whole cc0_scratch0).read_unread,
    (Memref.isWhole_whole cc0_scratch1).read_unread, (Memref.isWhole_whole cc0_scratch2).read_unread,
    View.ld_unit_zero (S := S1x3200) hz2, View.ld_unit_zero (S := S200x3200) hz2, View.ld_unit_zero (S := S256x3200) hz2,
    View.ld_unit_zero (S := S200x256) hz2, View.ld_unit_zero (S := S1x256) hz2,
    View.readCov_unit_zero (S := S200x256) _ hz2, View.readCov_unit_zero (S := S1x256) _ hz2]

/-- First tile: the question's accumulator is reset to zero, read back, and stepped by the tile. -/
theorem qA_eq (c : Dev nD) (t : Fin cfg0.N) (hc0 : cond0 (grid0.coords t)) (hc2 : ¬cond2 (grid0.coords t)) :
    qA V c t hc0 hc2 = k0_pay1 (k0_pay14 (iblk0 V c 0 t) (iblk0 V c 3 t) (k0_pay10 (F := F))) := by
  unfold qA
  rw [View.read_writes_eq_canon _ _ _ (cov_qA V c t hc0 hc2)]
  unfold runA kernelRunA
  dsimp only
  sl_unfold_words
  rw [View.canon_cons_unit_zero (S := S1x256) hz2]
  simp only [View.readAt_eq_ld, (hs0 t).read_unread, (hs1 t).read_unread, (hs2 t).read_unread, (hs3 t).read_unread,
    (hs4 t).read_unread, (hs5 t).read_unread, (hs6 t).read_unread, (Memref.isWhole_whole cc0_scratch0).read_unread,
    (Memref.isWhole_whole cc0_scratch1).read_unread, (Memref.isWhole_whole cc0_scratch2).read_unread,
    View.ld_unit_zero (S := S1x3200) hz2, View.ld_unit_zero (S := S200x3200) hz2, View.ld_unit_zero (S := S256x3200) hz2,
    View.ld_unit_zero (S := S200x256) hz2, View.ld_unit_zero (S := S1x256) hz2,
    View.readCov_unit_zero (S := S200x256) _ hz2, View.readCov_unit_zero (S := S1x256) _ hz2]

/-- A middle tile: the A-side accumulator is stepped by the tile from what the tile before left. -/
theorem aB_eq (c : Dev nD) (t : Fin cfg0.N) (hc0 : ¬cond0 (grid0.coords t)) (hc2 : ¬cond2 (grid0.coords t))
    (xa : Vec F S200x256 .f32) (xc : Vec F S200x256 .f32) (xq : Vec F S1x256 .f32) :
    aB V c t hc0 hc2 xa xc xq = k0_pay12 (iblk0 V c 1 t) (iblk0 V c 2 t) xa := by
  unfold aB
  rw [View.read_writes_eq_canon _ _ _ (cov_aB V c t hc0 hc2 xa xc xq)]
  unfold runB kernelRunB
  dsimp only
  sl_unfold_words
  rw [View.canon_unit_zero hz2]
  simp only [View.readAt_eq_ld, (hs0 t).read_unread, (hs1 t).read_unread, (hs2 t).read_unread, (hs3 t).read_unread,
    (hs4 t).read_unread, (hs5 t).read_unread, (hs6 t).read_unread, (Memref.isWhole_whole cc0_scratch0).read_unread,
    (Memref.isWhole_whole cc0_scratch1).read_unread, (Memref.isWhole_whole cc0_scratch2).read_unread,
    View.ld_unit_zero (S := S1x3200) hz2, View.ld_unit_zero (S := S200x3200) hz2, View.ld_unit_zero (S := S256x3200) hz2,
    View.ld_unit_zero (S := S200x256) hz2, View.ld_unit_zero (S := S1x256) hz2,
    View.readCov_unit_zero (S := S200x256) _ hz2, View.readCov_unit_zero (S := S1x256) _ hz2]

/-- A middle tile: the C-side accumulator is stepped by the tile from what the tile before left. -/
theorem cB_eq (c : Dev nD) (t : Fin cfg0.N) (hc0 : ¬cond0 (grid0.coords t)) (hc2 : ¬cond2 (grid0.coords t))
    (xa : Vec F S200x256 .f32) (xc : Vec F S200x256 .f32) (xq : Vec F S1x256 .f32) :
    cB V c t hc0 hc2 xa xc xq = k0_pay13 (iblk0 V c 1 t) (iblk0 V c 4 t) xc := by
  unfold cB
  rw [View.read_writes_eq_canon _ _ _ (cov_cB V c t hc0 hc2 xa xc xq)]
  unfold runB kernelRunB
  dsimp only
  sl_unfold_words
  rw [View.canon_unit_zero hz2]
  simp only [View.readAt_eq_ld, (hs0 t).read_unread, (hs1 t).read_unread, (hs2 t).read_unread, (hs3 t).read_unread,
    (hs4 t).read_unread, (hs5 t).read_unread, (hs6 t).read_unread, (Memref.isWhole_whole cc0_scratch0).read_unread,
    (Memref.isWhole_whole cc0_scratch1).read_unread, (Memref.isWhole_whole cc0_scratch2).read_unread,
    View.ld_unit_zero (S := S1x3200) hz2, View.ld_unit_zero (S := S200x3200) hz2, View.ld_unit_zero (S := S256x3200) hz2,
    View.ld_unit_zero (S := S200x256) hz2, View.ld_unit_zero (S := S1x256) hz2,
    View.readCov_unit_zero (S := S200x256) _ hz2, View.readCov_unit_zero (S := S1x256) _ hz2]

/-- A middle tile: the question's accumulator is stepped by the tile from what the tile before left. -/
theorem qB_eq (c : Dev nD) (t : Fin cfg0.N) (hc0 : ¬cond0 (grid0.coords t)) (hc2 : ¬cond2 (grid0.coords t))
    (xa : Vec F S200x256 .f32) (xc : Vec F S200x256 .f32) (xq : Vec F S1x256 .f32) :
    qB V c t hc0 hc2 xa xc xq = k0_pay1 (k0_pay14 (iblk0 V c 0 t) (iblk0 V c 3 t) xq) := by
  unfold qB
  rw [View.read_writes_eq_canon _ _ _ (cov_qB V c t hc0 hc2 xa xc xq)]
  unfold runB kernelRunB
  dsimp only
  sl_unfold_words
  rw [View.canon_unit_zero hz2]
  simp only [View.readAt_eq_ld, (hs0 t).read_unread, (hs1 t).read_unread, (hs2 t).read_unread, (hs3 t).read_unread,
    (hs4 t).read_unread, (hs5 t).read_unread, (hs6 t).read_unread, (Memref.isWhole_whole cc0_scratch0).read_unread,
    (Memref.isWhole_whole cc0_scratch1).read_unread, (Memref.isWhole_whole cc0_scratch2).read_unread,
    View.ld_unit_zero (S := S1x3200) hz2, View.ld_unit_zero (S := S200x3200) hz2, View.ld_unit_zero (S := S256x3200) hz2,
    View.ld_unit_zero (S := S200x256) hz2, View.ld_unit_zero (S := S1x256) hz2,
    View.readCov_unit_zero (S := S200x256) _ hz2, View.readCov_unit_zero (S := S1x256) _ hz2]

/-- The last tile: the A-side accumulator is stepped by the tile from what the tile before left. -/
theorem aC_eq (c : Dev nD) (t : Fin cfg0.N) (hc0 : ¬cond0 (grid0.coords t)) (hc2 : cond2 (grid0.coords t))
    (xa : Vec F S200x256 .f32) (xc : Vec F S200x256 .f32) (xq : Vec F S1x256 .f32) :
    aC V c t hc0 hc2 xa xc xq = k0_pay12 (iblk0 V c 1 t) (iblk0 V c 2 t) xa := by
  unfold aC
  rw [View.read_writes_eq_canon _ _ _ (cov_aC V c t hc0 hc2 xa xc xq)]
  unfold runC kernelRunC
  dsimp only
  sl_unfold_words
  rw [View.canon_unit_zero hz2]
  simp only [View.readAt_eq_ld, (hs0 t).read_unread, (hs1 t).read_unread, (hs2 t).read_unread, (hs3 t).read_unread,
    (hs4 t).read_unread, (hs5 t).read_unread, (hs6 t).read_unread, (Memref.isWhole_whole cc0_scratch0).read_unread,
    (Memref.isWhole_whole cc0_scratch1).read_unread, (Memref.isWhole_whole cc0_scratch2).read_unread,
    View.ld_unit_zero (S := S1x3200) hz2, View.ld_unit_zero (S := S200x3200) hz2, View.ld_unit_zero (S := S256x3200) hz2,
    View.ld_unit_zero (S := S200x256) hz2, View.ld_unit_zero (S := S1x256) hz2,
    View.readCov_unit_zero (S := S200x256) _ hz2, View.readCov_unit_zero (S := S1x256) _ hz2]

/-- The last tile: the C-side accumulator is stepped by the tile from what the tile before left. -/
theorem cC_eq (c : Dev nD) (t : Fin cfg0.N) (hc0 : ¬cond0 (grid0.coords t)) (hc2 : cond2 (grid0.coords t))
    (xa : Vec F S200x256 .f32) (xc : Vec F S200x256 .f32) (xq : Vec F S1x256 .f32) :
    cC V c t hc0 hc2 xa xc xq = k0_pay13 (iblk0 V c 1 t) (iblk0 V c 4 t) xc := by
  unfold cC
  rw [View.read_writes_eq_canon _ _ _ (cov_cC V c t hc0 hc2 xa xc xq)]
  unfold runC kernelRunC
  dsimp only
  sl_unfold_words
  rw [View.canon_unit_zero hz2]
  simp only [View.readAt_eq_ld, (hs0 t).read_unread, (hs1 t).read_unread, (hs2 t).read_unread, (hs3 t).read_unread,
    (hs4 t).read_unread, (hs5 t).read_unread, (hs6 t).read_unread, (Memref.isWhole_whole cc0_scratch0).read_unread,
    (Memref.isWhole_whole cc0_scratch1).read_unread, (Memref.isWhole_whole cc0_scratch2).read_unread,
    View.ld_unit_zero (S := S1x3200) hz2, View.ld_unit_zero (S := S200x3200) hz2, View.ld_unit_zero (S := S256x3200) hz2,
    View.ld_unit_zero (S := S200x256) hz2, View.ld_unit_zero (S := S1x256) hz2,
    View.readCov_unit_zero (S := S200x256) _ hz2, View.readCov_unit_zero (S := S1x256) _ hz2]

/-- The last tile: the question's accumulator is stepped by the tile from what the tile before left. -/
theorem qC_eq (c : Dev nD) (t : Fin cfg0.N) (hc0 : ¬cond0 (grid0.coords t)) (hc2 : cond2 (grid0.coords t))
    (xa : Vec F S200x256 .f32) (xc : Vec F S200x256 .f32) (xq : Vec F S1x256 .f32) :
    qC V c t hc0 hc2 xa xc xq = k0_pay1 (k0_pay14 (iblk0 V c 0 t) (iblk0 V c 3 t) xq) := by
  unfold qC
  rw [View.read_writes_eq_canon _ _ _ (cov_qC V c t hc0 hc2 xa xc xq)]
  unfold runC kernelRunC
  dsimp only
  sl_unfold_words
  rw [View.canon_unit_zero hz2]
  simp only [View.readAt_eq_ld, (hs0 t).read_unread, (hs1 t).read_unread, (hs2 t).read_unread, (hs3 t).read_unread,
    (hs4 t).read_unread, (hs5 t).read_unread, (hs6 t).read_unread, (Memref.isWhole_whole cc0_scratch0).read_unread,
    (Memref.isWhole_whole cc0_scratch1).read_unread, (Memref.isWhole_whole cc0_scratch2).read_unread,
    View.ld_unit_zero (S := S1x3200) hz2, View.ld_unit_zero (S := S200x3200) hz2, View.ld_unit_zero (S := S256x3200) hz2,
    View.ld_unit_zero (S := S200x256) hz2, View.ld_unit_zero (S := S1x256) hz2,
    View.readCov_unit_zero (S := S200x256) _ hz2, View.readCov_unit_zero (S := S1x256) _ hz2]

/-- The last tile: the result buffer gets the three hops of the accumulators just stored (the hops' loads read the
    stores back) and the two temporal tables. -/
theorem oC_eq (c : Dev nD) (t : Fin cfg0.N) (hc0 : ¬cond0 (grid0.coords t)) (hc2 : cond2 (grid0.coords t))
    (xa : Vec F S200x256 .f32) (xc : Vec F S200x256 .f32) (xq : Vec F S1x256 .f32) :
    oC V c t hc0 hc2 xa xc xq
      = Cert.KernelIdeal.Val.hops (aC V c t hc0 hc2 xa xc xq) (iblk0 V c 5 t) (cC V c t hc0 hc2 xa xc xq) (iblk0 V c 6 t) (qC V c t hc0 hc2 xa xc xq) := by
  rw [aC_eq V c t hc0 hc2 xa xc xq, cC_eq V c t hc0 hc2 xa xc xq, qC_eq V c t hc0 hc2 xa xc xq]
  unfold oC
  rw [View.read_writes_eq_canon _ _ _ (cov_oC V c t hc0 hc2 xa xc xq)]
  unfold runC kernelRunC
  dsimp only
  sl_unfold_words
  rw [View.canon_unit_zero hz2]
  unfold Cert.KernelIdeal.Val.hops
  simp only [View.readAt_eq_ld, (hs0 t).read_unread, (hs1 t).read_unread, (hs2 t).read_unread, (hs3 t).read_unread,
    (hs4 t).read_unread, (hs5 t).read_unread, (hs6 t).read_unread, (Memref.isWhole_whole cc0_scratch0).read_unread,
    (Memref.isWhole_whole cc0_scratch1).read_unread, (Memref.isWhole_whole cc0_scratch2).read_unread,
    View.ld_unit_zero (S := S1x3200) hz2, View.ld_unit_zero (S := S200x3200) hz2, View.ld_unit_zero (S := S256x3200) hz2,
    View.ld_unit_zero (S := S200x256) hz2, View.ld_unit_zero (S := S1x256) hz2,
    View.readCov_unit_zero (S := S200x256) _ hz2, View.readCov_unit_zero (S := S1x256) _ hz2]

/-! ## The accumulators after tile n -/

/-- After tile n the three accumulators hold the folds of their steps over tiles 0 to n. -/
theorem accs_eq (c : Dev nD) : ∀ (n : ℕ) (hn : n < cfg0.N),
    (outsAt0 V c n hn).2.1 = Cert.KernelIdeal.Val.accA (V c main_arg1) (V c main_arg2) n
      ∧ (outsAt0 V c n hn).2.2.1 = Cert.KernelIdeal.Val.accC (V c main_arg1) (V c main_arg4) n
      ∧ (outsAt0 V c n hn).2.2.2 = Cert.KernelIdeal.Val.accQ (V c main_arg0) (V c main_arg3) n
  | 0, hn => by
      rw [outsAt0]
      dsimp only
      rw [aA_eq V c ⟨0, hn⟩ ((hcond0 ⟨0, hn⟩).mpr rfl) (not_cond2_zero hn), cA_eq V c ⟨0, hn⟩ ((hcond0 ⟨0, hn⟩).mpr rfl) (not_cond2_zero hn),
        qA_eq V c ⟨0, hn⟩ ((hcond0 ⟨0, hn⟩).mpr rfl) (not_cond2_zero hn), iblk0_0_eq V c ⟨0, hn⟩, iblk0_1_eq V c ⟨0, hn⟩, iblk0_2_eq V c ⟨0, hn⟩, iblk0_3_eq V c ⟨0, hn⟩, iblk0_4_eq V c ⟨0, hn⟩]
      exact ⟨rfl, rfl, rfl⟩
  | n + 1, hn => by
      obtain ⟨ihA, ihC, ihQ⟩ := accs_eq c n (Nat.lt_of_succ_lt hn)
      rw [outsAt0]
      by_cases h2 : n + 1 = 39
      · rw [dif_pos h2]
        dsimp only
        rw [ihA, ihC, ihQ]
        rw [aC_eq V c ⟨n + 1, hn⟩ (not_cond0_succ n hn) ((hcond2 ⟨n + 1, hn⟩).mpr h2) (Cert.KernelIdeal.Val.accA (V c main_arg1) (V c main_arg2) n) (Cert.KernelIdeal.Val.accC (V c main_arg1) (V c main_arg4) n) (Cert.KernelIdeal.Val.accQ (V c main_arg0) (V c main_arg3) n),
          cC_eq V c ⟨n + 1, hn⟩ (not_cond0_succ n hn) ((hcond2 ⟨n + 1, hn⟩).mpr h2) (Cert.KernelIdeal.Val.accA (V c main_arg1) (V c main_arg2) n) (Cert.KernelIdeal.Val.accC (V c main_arg1) (V c main_arg4) n) (Cert.KernelIdeal.Val.accQ (V c main_arg0) (V c main_arg3) n),
          qC_eq V c ⟨n + 1, hn⟩ (not_cond0_succ n hn) ((hcond2 ⟨n + 1, hn⟩).mpr h2) (Cert.KernelIdeal.Val.accA (V c main_arg1) (V c main_arg2) n) (Cert.KernelIdeal.Val.accC (V c main_arg1) (V c main_arg4) n) (Cert.KernelIdeal.Val.accQ (V c main_arg0) (V c main_arg3) n),
          iblk0_0_eq V c ⟨n + 1, hn⟩, iblk0_1_eq V c ⟨n + 1, hn⟩, iblk0_2_eq V c ⟨n + 1, hn⟩, iblk0_3_eq V c ⟨n + 1, hn⟩, iblk0_4_eq V c ⟨n + 1, hn⟩]
        exact ⟨rfl, rfl, rfl⟩
      · rw [dif_neg h2]
        dsimp only
        rw [ihA, ihC, ihQ]
        rw [aB_eq V c ⟨n + 1, hn⟩ (not_cond0_succ n hn) (fun h => h2 ((hcond2 ⟨n + 1, hn⟩).mp h)) (Cert.KernelIdeal.Val.accA (V c main_arg1) (V c main_arg2) n) (Cert.KernelIdeal.Val.accC (V c main_arg1) (V c main_arg4) n) (Cert.KernelIdeal.Val.accQ (V c main_arg0) (V c main_arg3) n),
          cB_eq V c ⟨n + 1, hn⟩ (not_cond0_succ n hn) (fun h => h2 ((hcond2 ⟨n + 1, hn⟩).mp h)) (Cert.KernelIdeal.Val.accA (V c main_arg1) (V c main_arg2) n) (Cert.KernelIdeal.Val.accC (V c main_arg1) (V c main_arg4) n) (Cert.KernelIdeal.Val.accQ (V c main_arg0) (V c main_arg3) n),
          qB_eq V c ⟨n + 1, hn⟩ (not_cond0_succ n hn) (fun h => h2 ((hcond2 ⟨n + 1, hn⟩).mp h)) (Cert.KernelIdeal.Val.accA (V c main_arg1) (V c main_arg2) n) (Cert.KernelIdeal.Val.accC (V c main_arg1) (V c main_arg4) n) (Cert.KernelIdeal.Val.accQ (V c main_arg0) (V c main_arg3) n),
          iblk0_0_eq V c ⟨n + 1, hn⟩, iblk0_1_eq V c ⟨n + 1, hn⟩, iblk0_2_eq V c ⟨n + 1, hn⟩, iblk0_3_eq V c ⟨n + 1, hn⟩, iblk0_4_eq V c ⟨n + 1, hn⟩]
        exact ⟨rfl, rfl, rfl⟩

/-! ## The last tile's store, and the result array -/

/-- At the last tile the result buffer gets the three hops of the finished accumulators and the temporal tables. -/
theorem out_last (c : Dev nD) (n : ℕ) (hn : n + 1 < cfg0.N) (h2 : n + 1 = 39) :
    (outsAt0 V c (n + 1) hn).1
      = Cert.KernelIdeal.Val.hops (Cert.KernelIdeal.Val.accA (V c main_arg1) (V c main_arg2) (n + 1)) (V c main_arg6)
          (Cert.KernelIdeal.Val.accC (V c main_arg1) (V c main_arg4) (n + 1)) (V c main_arg7)
          (Cert.KernelIdeal.Val.accQ (V c main_arg0) (V c main_arg3) (n + 1)) := by
  obtain ⟨ihA, ihC, ihQ⟩ := accs_eq V c n (Nat.lt_of_succ_lt hn)
  rw [outsAt0, dif_pos h2]
  dsimp only
  rw [ihA, ihC, ihQ]
  rw [oC_eq V c ⟨n + 1, hn⟩ (not_cond0_succ n hn) ((hcond2 ⟨n + 1, hn⟩).mpr h2) (Cert.KernelIdeal.Val.accA (V c main_arg1) (V c main_arg2) n) (Cert.KernelIdeal.Val.accC (V c main_arg1) (V c main_arg4) n) (Cert.KernelIdeal.Val.accQ (V c main_arg0) (V c main_arg3) n),
    aC_eq V c ⟨n + 1, hn⟩ (not_cond0_succ n hn) ((hcond2 ⟨n + 1, hn⟩).mpr h2) (Cert.KernelIdeal.Val.accA (V c main_arg1) (V c main_arg2) n) (Cert.KernelIdeal.Val.accC (V c main_arg1) (V c main_arg4) n) (Cert.KernelIdeal.Val.accQ (V c main_arg0) (V c main_arg3) n),
    cC_eq V c ⟨n + 1, hn⟩ (not_cond0_succ n hn) ((hcond2 ⟨n + 1, hn⟩).mpr h2) (Cert.KernelIdeal.Val.accA (V c main_arg1) (V c main_arg2) n) (Cert.KernelIdeal.Val.accC (V c main_arg1) (V c main_arg4) n) (Cert.KernelIdeal.Val.accQ (V c main_arg0) (V c main_arg3) n),
    qC_eq V c ⟨n + 1, hn⟩ (not_cond0_succ n hn) ((hcond2 ⟨n + 1, hn⟩).mpr h2) (Cert.KernelIdeal.Val.accA (V c main_arg1) (V c main_arg2) n) (Cert.KernelIdeal.Val.accC (V c main_arg1) (V c main_arg4) n) (Cert.KernelIdeal.Val.accQ (V c main_arg0) (V c main_arg3) n),
    iblk0_0_eq V c ⟨n + 1, hn⟩, iblk0_1_eq V c ⟨n + 1, hn⟩, iblk0_2_eq V c ⟨n + 1, hn⟩, iblk0_3_eq V c ⟨n + 1, hn⟩, iblk0_4_eq V c ⟨n + 1, hn⟩,
    iblk0_5_eq V c ⟨n + 1, hn⟩, iblk0_6_eq V c ⟨n + 1, hn⟩]
  rfl

/-- The last of the forty tiles. -/
theorem lt_last : 38 + 1 < cfg0.N := by rw [show cfg0.N = 40 from N_0]; decide
abbrev tLast : Fin cfg0.N := ⟨38 + 1, lt_last⟩

/-- The first region's result as contents of the result array. -/
abbrev result (c : Dev nD) : Buf (Elt F) ((c : Thread nD τ).loc main_v0) :=
  Cert.KernelIdeal.Val.encK (V c main_arg0) (V c main_arg1) (V c main_arg2) (V c main_arg3) (V c main_arg4) (V c main_arg6) (V c main_arg7)

/-- The one write-back, at the last tile, writes it: the window's one block is the whole array. -/
theorem flushed_eq (c : Dev nD) (t : Fin cfg0.N) (hf : (cfg0.win 7).flush t = true) :
    (dat0 V c).flushed 7 t = ((cfg0.win 7).blk t).view.read (Elt F) (result V c) := by
  have hN : cfg0.N = 40 := N_0
  have h39 : t.val = 39 := by have := (flush0_7 t).mp hf; have := t.isLt; omega
  obtain rfl : t = tLast := Fin.ext h39
  show (cfg0.win 7).cut (grid0.coords tLast) ((dat0 V c).after 7 tLast) = _
  rw [after0_7]
  show (cfg0.win 7).cut (grid0.coords tLast) (outsAt0 V c (38 + 1) lt_last).1 = _
  rw [out_last V c 38 lt_last rfl]
  have hz' : (fun a => win0_7.index tLast a * main_v0.ty.shape.size a) = fun _ => 0 :=
    funext fun a => by fin_cases a <;> decide +kernel
  exact (Memref.read_access_unit_zero (Elt F) main_v0 hz' (fun a => by rw [congrFun hz' a]; simp) (result V c)).symm

/-- The last tile's block is the whole result array, so after the forty tiles the array holds the region's result. -/
theorem enc_result (c : Dev nD) :
    (dat0 V c).arrAt 7 cfg0.N
      = Cert.KernelIdeal.Val.encK (V c main_arg0) (V c main_arg1) (V c main_arg2) (V c main_arg3) (V c main_arg4) (V c main_arg6) (V c main_arg7) :=
  (dat0 V c).arrAt_eq_of_cover 7 (result V c) (flushed_eq V c) fun i =>
    ⟨tLast, (flush0_7 tLast).mpr rfl, by
      show i ∈ ((View.whole main_v0).slice (win0_7.rect tLast)).set
      rw [View.set_slice_whole, Rect.mem_set_unit]
      intro a
      have h0 : (i 0 : Nat) < 1 := (i 0).isLt
      have h1 : (i 1 : Nat) < 256 := (i 1).isLt
      match a with
      | ⟨0, _⟩ =>
        show win0_7.index tLast 0 * win0_7.size 0 ≤ (i 0 : Nat) ∧ (i 0 : Nat) < win0_7.index tLast 0 * win0_7.size 0 + win0_7.xsize (grid0.coords tLast) 0
        rw [show win0_7.index tLast 0 * win0_7.size 0 = 0 from by decide +kernel, show win0_7.xsize (grid0.coords tLast) 0 = 1 from by decide +kernel]; omega
      | ⟨1, _⟩ =>
        show win0_7.index tLast 1 * win0_7.size 1 ≤ (i 1 : Nat) ∧ (i 1 : Nat) < win0_7.index tLast 1 * win0_7.size 1 + win0_7.xsize (grid0.coords tLast) 1
        rw [show win0_7.index tLast 1 * win0_7.size 1 = 0 from by decide +kernel, show win0_7.xsize (grid0.coords tLast) 1 = 256 from by decide +kernel]; omega⟩

end Cert.KernelIdeal.Enc

end
-- ==== Proof.KI.DecValue.lean ====
/-
  The second region's result array after its ten tiles. The result [1,128000] is written back in ten column tiles of
  12800; the tile at step t is the product of the whole row [1,256] with row tile t of the output embedding, so entry
  (0, 12800·t + k) of the array is entry (0, k) of that product: the array is the decoder's whole-array function of the
  region's two input arrays, and the ten tiles cover every column.
-/
import proofs.«115764_j28621662061019_1_alg».proof.Proof.KI.Dec
import proofs.«115764_j28621662061019_1_alg».proof.Proof.KI.ValDefs
import Idealize.ShloMosaic.Lib.Pipeline.Value
import Idealize.ShloMosaic.Lib.ValueIdx

set_option maxRecDepth 16384

noncomputable section

namespace Cert.KernelIdeal.Dec

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The zero offsets of a whole-buffer rectangle. -/
theorem offsets_zero : (![0, 0] : Fin 2 → Nat) = fun _ => 0 :=
  funext fun a => match a with | ⟨0, _⟩ => rfl | ⟨1, _⟩ => rfl

/-- The block indices at tile t: the row is block (0, 0) always, the embedding's row tile is block (t, 0), the result's
    column tile is block (0, t); there are ten tiles. -/
theorem block_indices : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val ∧ t.val < 10 :=
  (by decide +kernel : ∀ t : Fin grid1.N, _)

/-- The row's block at every tile is the whole row. -/
theorem iblk1_0_eq (c : Dev nD) (t : Fin cfg1.N) :
    (iblk1 V c 0 t : Vec F S1x256 .f32) = (V c main_v0 : S1x256.Idx → Elt F .f32) := by
  obtain ⟨e0, e1, -⟩ := block_indices t
  funext y
  show (V c main_v0 : S1x256.Idx → Elt F .f32) (((cfg1.win 0).blk t).view.emb y) = (V c main_v0 : S1x256.Idx → Elt F .f32) y
  congr 1
  funext a; apply Fin.ext
  match a with
  | ⟨0, _⟩ => show win1_0.index t (0 : Fin 2) * 1 + 1 * (y 0).val = (y 0).val; omega
  | ⟨1, _⟩ => show win1_0.index t (1 : Fin 2) * 256 + 1 * (y 1).val = (y 1).val; omega

/-- The embedding's block at tile t is its row tile t. -/
theorem iblk1_1_eq (c : Dev nD) (t : Fin cfg1.N) :
    (iblk1 V c 1 t : Vec F S12800x256 .f32) = Val.rowTile (V c main_arg5 : S128000x256.Idx → Elt F .f32) t.val := by
  obtain ⟨-, -, e2, e3, -, -, ht⟩ := block_indices t
  funext y
  show (V c main_arg5 : S128000x256.Idx → Elt F .f32) (((cfg1.win 1).blk t).view.emb y)
    = (V c main_arg5 : S128000x256.Idx → Elt F .f32) (ix2 ⟨(12800 * t.val + (y 0).val) % 128000, Nat.mod_lt _ (by decide)⟩ (y 1))
  congr 1
  funext a; apply Fin.ext
  have hy0 : (y 0).val < 12800 := idx2_lt0 y
  match a with
  | ⟨0, _⟩ => show win1_1.index t (0 : Fin 2) * 12800 + 1 * (y 0).val = (12800 * t.val + (y 0).val) % 128000; omega
  | ⟨1, _⟩ => show win1_1.index t (1 : Fin 2) * 256 + 1 * (y 1).val = (y 1).val; omega

/-- The decoder's entry at column m = 12800·n + k, k below 12800, is the tile product's entry at k with row tile n. -/
theorem decK_at_tile (qd : Vec F S1x256 .f32) (wout : Vec F S128000x256 .f32) (n m : ℕ) (y : S1x12800.Idx)
    (hm : m = 12800 * n + (y 1).val) :
    k1_pay1 qd (Val.rowTile wout (m / 12800)) (ix2 0 ⟨m % 12800, Nat.mod_lt _ (by decide)⟩) = k1_pay1 qd (Val.rowTile wout n) y := by
  subst hm
  have hy0 : (y 0).val < 1 := idx2_lt0 y
  have hy1 : (y 1).val < 12800 := idx2_lt1 y
  have h1 : (12800 * n + (y 1).val) / 12800 = n := by omega
  have h2 : (ix2 0 ⟨(12800 * n + (y 1).val) % 12800, Nat.mod_lt _ (by decide)⟩ : S1x12800.Idx) = y := by
    funext a; apply Fin.ext
    match a with
    | ⟨0, _⟩ => show 0 = (y 0).val; omega
    | ⟨1, _⟩ => show (12800 * n + (y 1).val) % 12800 = (y 1).val; omega
  rw [h1, h2]

/-- What tile t writes back is column tile t of the decoder's whole-array function of the two input arrays. -/
theorem flushed1_2_eq (c : Dev nD) (t : Fin cfg1.N) :
    (dat1 V c).flushed 2 t = ((cfg1.win 2).blk t).view.read (Elt F)
      (Val.decK (V c main_v0 : S1x256.Idx → Elt F .f32) (V c main_arg5 : S128000x256.Idx → Elt F .f32)) := by
  show (cfg1.win 2).cut (grid1.coords t) ((dat1 V c).after 2 t) = _
  rw [after1_2]
  unfold out1
  rw [View.canon_unit_zero offsets_zero]
  simp only [View.ld_unit_zero (S := S1x256) offsets_zero, View.ld_unit_zero (S := S12800x256) offsets_zero]
  rw [iblk1_0_eq, iblk1_1_eq]
  obtain ⟨-, -, -, -, e4, e5, ht⟩ := block_indices t
  funext y
  show k1_pay1 (V c main_v0 : S1x256.Idx → Elt F .f32) (Val.rowTile (V c main_arg5 : S128000x256.Idx → Elt F .f32) t.val) y
    = k1_pay1 (V c main_v0 : S1x256.Idx → Elt F .f32)
        (Val.rowTile (V c main_arg5 : S128000x256.Idx → Elt F .f32) (((((cfg1.win 2).blk t).view.emb y) 1).val / 12800))
        (ix2 0 ⟨((((cfg1.win 2).blk t).view.emb y) 1).val % 12800, Nat.mod_lt _ (by decide)⟩)
  refine (decK_at_tile _ _ t.val _ y ?_).symm
  show win1_2.index t (1 : Fin 2) * 12800 + 1 * (y 1).val = 12800 * t.val + (y 1).val
  omega

/-- An index of the result is in tile t's block iff each coordinate is in the block's range on its axis. -/
theorem mem_blk1_2 (t : Fin cfg1.N) (i : S1x128000.Idx) :
    i ∈ ((cfg1.win 2).blk t).view.set ↔ ∀ a : Fin 2, win1_2.index t a * S1x12800.size a ≤ (i a).val ∧ (i a).val < win1_2.index t a * S1x12800.size a + S1x12800.size a := by
  show i ∈ ((View.whole main_v1).slice (win1_2.rect t)).set ↔ _
  rw [View.set_slice_whole, Rect.mem_set_unit]
  exact Iff.rfl

/-- Column v of the result lies in the block of tile v / 12800. -/
theorem covered1_2 (i : S1x128000.Idx) : ∃ t : Fin cfg1.N, (cfg1.win 2).flush t = true ∧ i ∈ ((cfg1.win 2).blk t).view.set := by
  have hi0 : (i 0).val < 1 := idx2_lt0 i
  have hi1 : (i 1).val < 128000 := idx2_lt1 i
  have hN : cfg1.N = 10 := N_1
  refine ⟨⟨(i 1).val / 12800, by rw [hN]; omega⟩, flush1_2 _, ?_⟩
  obtain ⟨-, -, -, -, e4, e5, -⟩ := block_indices ⟨(i 1).val / 12800, by rw [hN]; omega⟩
  rw [mem_blk1_2]
  intro a
  match a with
  | ⟨0, _⟩ =>
    show win1_2.index _ (0 : Fin 2) * 1 ≤ (i 0).val ∧ (i 0).val < win1_2.index _ (0 : Fin 2) * 1 + 1
    rw [e4]; omega
  | ⟨1, _⟩ =>
    show win1_2.index _ (1 : Fin 2) * 12800 ≤ (i 1).val ∧ (i 1).val < win1_2.index _ (1 : Fin 2) * 12800 + 12800
    rw [e5]; show (i 1).val / 12800 * 12800 ≤ (i 1).val ∧ (i 1).val < (i 1).val / 12800 * 12800 + 12800; omega

/-- The second region's result array after its ten tiles is the decoder's whole-array function of the region's two
    input arrays. -/
theorem dec_result (c : Dev nD) :
    (dat1 V c).arrAt 2 cfg1.N = Val.decK (V c main_v0 : S1x256.Idx → Elt F .f32) (V c main_arg5 : S128000x256.Idx → Elt F .f32) :=
  (dat1 V c).arrAt_eq_of_cover 2 (Val.decK (V c main_v0 : S1x256.Idx → Elt F .f32) (V c main_arg5 : S128000x256.Idx → Elt F .f32))
    (fun t _ => flushed1_2_eq V c t) covered1_2

end Cert.KernelIdeal.Dec

end
-- ==== Proof.BrAcc.lean ====
/-
  The accumulation over the forty column tiles is the whole contraction over 128000: each accumulator of the first
  region, after its last tile, is the reference's product of the whole arrays. At the ideal values every operation is
  exact, so a tile's step adds the tile's partial inner product, and the forty partial sums make the full sum.
-/
import proofs.«115764_j28621662061019_1_alg».proof.Proof.KI.ValDefs
import proofs.«115764_j28621662061019_1_alg».proof.Proof.RefRun
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StackMember
import Mathlib.Algebra.BigOperators.Fin

noncomputable section

open scoped BigOperators

namespace Cert.Bridge

open Idealize.ShloMosaic Idealize.ShloMosaic.ValueIdx

namespace Acc

/-! ## A sum over T tiles of width W is the sum over W·T -/

/-- Over the naturals: the first W·T terms, grouped into T runs of W. -/
theorem sum_range_tiles {M : Type*} [AddCommMonoid M] (g : ℕ → M) (W : ℕ) :
    ∀ T : ℕ, ∑ v ∈ Finset.range (W * T), g v = ∑ t ∈ Finset.range T, ∑ k ∈ Finset.range W, g (W * t + k)
  | 0 => by simp
  | T + 1 => by
      rw [Nat.mul_succ, Finset.sum_range_add, sum_range_tiles g W T, Finset.sum_range_succ]

/-- The same with the inner index and the whole index bounded: T runs of W entries make the N = W·T entries. -/
theorem sum_tiles {M : Type*} [AddCommMonoid M] (g : ℕ → M) (W T N : ℕ) (hN : W * T = N) :
    ∑ t ∈ Finset.range T, ∑ k : Fin W, g (W * t + k.val) = ∑ v : Fin N, g v.val := by
  subst hN
  rw [Fin.sum_univ_eq_sum_range g (W * T), sum_range_tiles g W T]
  refine Finset.sum_congr rfl fun t _ => ?_
  exact Fin.sum_univ_eq_sum_range (fun k => g (W * t + k)) W

/-! ## A product whose right operand is stored transposed, read at an index -/

/-- The matrix unit's product of an m×k by an n×k array, contracted on both last axes, into the zero splat, read at
    (a, b): the sum over the contracted coordinate of the products of the entries. At the ideal values. -/
theorem matmul_transposedRhs_zero_apply {m k n : ℕ} {φ₁ φ₂ : FTy} (prec : Option ContractPrecision)
    (A : FVec Ideal ⟨2, ![m, k]⟩ φ₁) (B : FVec Ideal ⟨2, ![n, k]⟩ φ₂) (a : Fin m) (b : Fin n) :
    FloatOps.matmul (DotDims.transposedRhs m k n) prec A B (constant (F := Ideal) ⟨2, ![m, n]⟩ .f32 0x00000000#32) (ix2 a b)
      = ∑ c : Fin k, A (ix2 a c) * B (ix2 b c) := by
  rw [Ideal.matmul_constant_zero_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-! ## One tile's step, read at an index -/

/-- The A-side step adds the tile's partial inner product. -/
theorem k0_pay12_apply (x : Vec Ideal Cert.KernelIdeal.S200x3200 .f32) (w : Vec Ideal Cert.KernelIdeal.S256x3200 .f32)
    (acc : Vec Ideal Cert.KernelIdeal.S200x256 .f32) (r : Fin 200) (d : Fin 256) :
    Cert.KernelIdeal.Gen.k0_pay12 (F := Ideal) x w acc (ix2 r d) = acc (ix2 r d) + ∑ k : Fin 3200, x (ix2 r k) * w (ix2 d k) := by
  unfold Cert.KernelIdeal.Gen.k0_pay12 Cert.KernelIdeal.Gen.k0_pay11
  simp only [shapeCast_self]
  rw [addf_apply]
  exact congrArg (acc (ix2 r d) + ·) (matmul_transposedRhs_zero_apply none _ _ r d)

/-- The C-side step adds the tile's partial inner product. -/
theorem k0_pay13_apply (x : Vec Ideal Cert.KernelIdeal.S200x3200 .f32) (w : Vec Ideal Cert.KernelIdeal.S256x3200 .f32)
    (acc : Vec Ideal Cert.KernelIdeal.S200x256 .f32) (r : Fin 200) (d : Fin 256) :
    Cert.KernelIdeal.Gen.k0_pay13 (F := Ideal) x w acc (ix2 r d) = acc (ix2 r d) + ∑ k : Fin 3200, x (ix2 r k) * w (ix2 d k) := by
  unfold Cert.KernelIdeal.Gen.k0_pay13 Cert.KernelIdeal.Gen.k0_pay11
  simp only [shapeCast_self]
  rw [addf_apply]
  exact congrArg (acc (ix2 r d) + ·) (matmul_transposedRhs_zero_apply none _ _ r d)

/-- The question's step adds the tile's partial inner product, on its one row. -/
theorem k0_pay14_apply (x : Vec Ideal Cert.KernelIdeal.S1x3200 .f32) (w : Vec Ideal Cert.KernelIdeal.S256x3200 .f32)
    (acc : Vec Ideal Cert.KernelIdeal.S1x256 .f32) (r : Fin 1) (d : Fin 256) :
    Cert.KernelIdeal.Gen.k0_pay14 (F := Ideal) x w acc (ix2 r d) = acc (ix2 r d) + ∑ k : Fin 3200, x (ix2 r k) * w (ix2 d k) := by
  unfold Cert.KernelIdeal.Gen.k0_pay14
  rw [addf_apply]
  exact congrArg (acc (ix2 r d) + ·) (matmul_transposedRhs_zero_apply none _ _ r d)

/-- The question's accumulator is stored as it is. -/
theorem k0_pay1_eq (v : FVec Ideal Cert.KernelIdeal.S1x256 .f32) : Cert.KernelIdeal.Gen.k0_pay1 (F := Ideal) v = v := by
  unfold Cert.KernelIdeal.Gen.k0_pay1
  exact shapeCast_self _ _

/-- The A-side accumulator starts at zero. -/
theorem k0_pay8_apply (j : Cert.KernelIdeal.S200x256.Idx) : Cert.KernelIdeal.Gen.k0_pay8 (F := Ideal) j = 0 := by
  unfold Cert.KernelIdeal.Gen.k0_pay8
  simp only [shapeCast_self]
  exact Ideal.ofBits_zero_f32

/-- The C-side accumulator starts at zero. -/
theorem k0_pay9_apply (j : Cert.KernelIdeal.S200x256.Idx) : Cert.KernelIdeal.Gen.k0_pay9 (F := Ideal) j = 0 := by
  unfold Cert.KernelIdeal.Gen.k0_pay9
  simp only [shapeCast_self]
  exact Ideal.ofBits_zero_f32

/-- The question's accumulator starts at zero. -/
theorem k0_pay10_apply (j : Cert.KernelIdeal.S1x256.Idx) : Cert.KernelIdeal.Gen.k0_pay10 (F := Ideal) j = 0 := by
  unfold Cert.KernelIdeal.Gen.k0_pay10
  simp only [shapeCast_self]
  exact Ideal.ofBits_zero_f32

/-! ## The accumulators after tile n -/

/-- The product of row r of x and row d of w at column v (read modulo 128000, as a tile reads its columns). -/
def term {m : ℕ} (x : Vec Ideal (⟨2, ![m, 128000]⟩ : Shape) .f32) (w : Vec Ideal (⟨2, ![256, 128000]⟩ : Shape) .f32)
    (r : Fin m) (d : Fin 256) (v : ℕ) : EReal :=
  x (ix2 r ⟨v % 128000, Nat.mod_lt _ (by decide)⟩) * w (ix2 d ⟨v % 128000, Nat.mod_lt _ (by decide)⟩)

/-- A tile's partial inner product is the sum of the terms of its 3200 columns. -/
theorem tile_sum {m : ℕ} (x : Vec Ideal (⟨2, ![m, 128000]⟩ : Shape) .f32) (w : Vec Ideal (⟨2, ![256, 128000]⟩ : Shape) .f32)
    (r : Fin m) (d : Fin 256) (n : ℕ) :
    ∑ k : Fin 3200, Cert.KernelIdeal.Val.colTile (F := Ideal) x n (ix2 r k) * Cert.KernelIdeal.Val.colTile (F := Ideal) w n (ix2 d k)
      = ∑ k : Fin 3200, term x w r d (3200 * n + k.val) := rfl

/-- The A-side accumulator after tile n is the sum of the terms of tiles 0 to n. -/
theorem accA_apply (mem : Vec Ideal Cert.KernelIdeal.S200x128000 .f32) (wa : Vec Ideal Cert.KernelIdeal.S256x128000 .f32)
    (r : Fin 200) (d : Fin 256) :
    ∀ n : ℕ, Cert.KernelIdeal.Val.accA (F := Ideal) mem wa n (ix2 r d)
      = ∑ t ∈ Finset.range (n + 1), ∑ k : Fin 3200, term mem wa r d (3200 * t + k.val)
  | 0 => by
      rw [Cert.KernelIdeal.Val.accA, k0_pay12_apply, k0_pay8_apply, zero_add, tile_sum, Finset.sum_range_one]
  | n + 1 => by
      rw [Cert.KernelIdeal.Val.accA, k0_pay12_apply, accA_apply mem wa r d n, tile_sum, Finset.sum_range_succ _ (n + 1)]

/-- The C-side accumulator after tile n is the sum of the terms of tiles 0 to n. -/
theorem accC_apply (mem : Vec Ideal Cert.KernelIdeal.S200x128000 .f32) (wc : Vec Ideal Cert.KernelIdeal.S256x128000 .f32)
    (r : Fin 200) (d : Fin 256) :
    ∀ n : ℕ, Cert.KernelIdeal.Val.accC (F := Ideal) mem wc n (ix2 r d)
      = ∑ t ∈ Finset.range (n + 1), ∑ k : Fin 3200, term mem wc r d (3200 * t + k.val)
  | 0 => by
      rw [Cert.KernelIdeal.Val.accC, k0_pay13_apply, k0_pay9_apply, zero_add, tile_sum, Finset.sum_range_one]
  | n + 1 => by
      rw [Cert.KernelIdeal.Val.accC, k0_pay13_apply, accC_apply mem wc r d n, tile_sum, Finset.sum_range_succ _ (n + 1)]

/-- The question's accumulator after tile n is the sum of the terms of tiles 0 to n. -/
theorem accQ_apply (q : Vec Ideal Cert.KernelIdeal.S1x128000 .f32) (wb : Vec Ideal Cert.KernelIdeal.S256x128000 .f32)
    (r : Fin 1) (d : Fin 256) :
    ∀ n : ℕ, Cert.KernelIdeal.Val.accQ (F := Ideal) q wb n (ix2 r d)
      = ∑ t ∈ Finset.range (n + 1), ∑ k : Fin 3200, term q wb r d (3200 * t + k.val)
  | 0 => by
      rw [Cert.KernelIdeal.Val.accQ, k0_pay1_eq, k0_pay14_apply, k0_pay10_apply, zero_add, tile_sum, Finset.sum_range_one]
  | n + 1 => by
      rw [Cert.KernelIdeal.Val.accQ, k0_pay1_eq, k0_pay14_apply, accQ_apply q wb r d n, tile_sum, Finset.sum_range_succ _ (n + 1)]

/-! ## The reference's product, read at an index -/

/-- The whole product of x by the transpose of w, read at (r, d), is the sum of the 128000 terms. -/
theorem whole_apply {m : ℕ} (x : FVec Ideal (⟨2, ![m, 128000]⟩ : Shape) .f32) (w : FVec Ideal (⟨2, ![256, 128000]⟩ : Shape) .f32)
    (h : (⟨2, ![256, 128000]⟩ : Shape).Transposes [1, 0] ⟨2, ![128000, 256]⟩) (r : Fin m) (d : Fin 256) :
    Host.dotGeneral (F := Ideal) (DotDims.plain m 128000 256) none x (transpose ⟨2, ![128000, 256]⟩ [1, 0] w h) (ix2 r d)
      = ∑ v : Fin 128000, term x w r d v.val := by
  rw [StackMember.dotGeneral_plain_apply]
  refine Finset.sum_congr rfl fun v _ => ?_
  rw [transpose_ix2_apply]
  have hv : (⟨v.val % 128000, Nat.mod_lt _ (by decide)⟩ : Fin 128000) = v := Fin.ext (Nat.mod_eq_of_lt v.isLt)
  unfold term
  rw [hv]

end Acc

/-! ## The three accumulators are the reference's products -/

/-- The A-side accumulator after the last tile is the memories times the transposed A-embedding. -/
theorem accA_eq (mem : FVec Ideal Cert.KernelIdeal.S200x128000 .f32) (wa : FVec Ideal Cert.KernelIdeal.S256x128000 .f32) :
    Cert.KernelIdeal.Val.accA (F := Ideal) mem wa 39
      = Host.dotGeneral (F := Ideal) Cert.ReferenceIdeal.dot_S200x128000_S128000x256_S200x256_1_0_0_1_n_n none mem
          (transpose Cert.ReferenceIdeal.S128000x256 [1, 0] wa Cert.ReferenceIdeal.Facts₀.transposes_S256x128000_S128000x256_1_0) := by
  funext j
  obtain ⟨r, d, rfl⟩ : ∃ (r : Fin 200) (d : Fin 256), j = ix2 r d := ⟨j 0, j 1, eq_ix2 j⟩
  rw [Acc.accA_apply mem wa r d 39, Acc.sum_tiles (Acc.term mem wa r d) 3200 40 128000 rfl]
  exact (Acc.whole_apply mem wa _ r d).symm

/-- The C-side accumulator after the last tile is the memories times the transposed C-embedding. -/
theorem accC_eq (mem : FVec Ideal Cert.KernelIdeal.S200x128000 .f32) (wc : FVec Ideal Cert.KernelIdeal.S256x128000 .f32) :
    Cert.KernelIdeal.Val.accC (F := Ideal) mem wc 39
      = Host.dotGeneral (F := Ideal) Cert.ReferenceIdeal.dot_S200x128000_S128000x256_S200x256_1_0_0_1_n_n none mem
          (transpose Cert.ReferenceIdeal.S128000x256 [1, 0] wc Cert.ReferenceIdeal.Facts₀.transposes_S256x128000_S128000x256_1_0) := by
  funext j
  obtain ⟨r, d, rfl⟩ : ∃ (r : Fin 200) (d : Fin 256), j = ix2 r d := ⟨j 0, j 1, eq_ix2 j⟩
  rw [Acc.accC_apply mem wc r d 39, Acc.sum_tiles (Acc.term mem wc r d) 3200 40 128000 rfl]
  exact (Acc.whole_apply mem wc _ r d).symm

/-- The question's accumulator after the last tile is the question times the transposed B-embedding. -/
theorem accQ_eq (q : FVec Ideal Cert.KernelIdeal.S1x128000 .f32) (wb : FVec Ideal Cert.KernelIdeal.S256x128000 .f32) :
    Cert.KernelIdeal.Val.accQ (F := Ideal) q wb 39
      = Host.dotGeneral (F := Ideal) Cert.ReferenceIdeal.dot_S1x128000_S128000x256_S1x256_1_0_0_1_n_n none q
          (transpose Cert.ReferenceIdeal.S128000x256 [1, 0] wb Cert.ReferenceIdeal.Facts₀.transposes_S256x128000_S128000x256_1_0) := by
  funext j
  obtain ⟨r, d, rfl⟩ : ∃ (r : Fin 1) (d : Fin 256), j = ix2 r d := ⟨j 0, j 1, eq_ix2 j⟩
  rw [Acc.accQ_apply q wb r d 39, Acc.sum_tiles (Acc.term q wb r d) 3200 40 128000 rfl]
  exact (Acc.whole_apply q wb _ r d).symm

end Cert.Bridge

end
-- ==== Proof.BrHops.lean ====
/-
  The three memory hops of the encoder, on both sides. One hop takes the two memory tables A and C (200 rows of 256) and a
  query row q (256 entries): the scores are the products of q with the rows of A, the weights are the softmax of the
  scores (the row maximum subtracted before the exponential, the maximum taken from minus infinity), and the new query is
  the weights' combination of the rows of C, plus q. The kernel writes the scores as a product contracted on the second axis
  of both operands into a zero accumulator, its row maximum and row sum as lane reductions, its keepdims columns as a cast
  followed by a broadcast; the reference transposes A and contracts second axis with first, reduces on the host, and
  broadcasts in two steps. At the ideal values (extended reals, every operation exact, the format changes the identity)
  each pair of spellings is one function, so one hop is one function of (A, C, q) on both sides, and three hops are that
  function three times.
-/
import proofs.«115764_j28621662061019_1_alg».proof.Proof.KI.ValDefs
import proofs.«115764_j28621662061019_1_alg».proof.Proof.RefRun
import Idealize.ShloMosaic.PureOps.Ideal.Laws
import Idealize.ShloMosaic.Lib.IdealHost
import Idealize.ShloMosaic.Lib.ValueIdx
import Idealize.ShloMosaic.Lib.ValueLayout

noncomputable section

open Idealize.ShloMosaic Idealize.ShloMosaic.ValueIdx
open scoped BigOperators

namespace Cert.Bridge.Hops

/-! ### The four contractions' index maps, coordinate by coordinate -/

/-- The kernel's score product: q (1 by 256) with A (200 by 256), both contracted on their second axis. -/
abbrev DKs := Cert.KernelIdeal.dot_S1x256_S200x256_S1x200_1_1_0_0_n_n
/-- The kernel's weighted combination: the weights (1 by 200) with C (200 by 256), second axis with first. -/
abbrev DKc := Cert.KernelIdeal.dot_S1x200_S200x256_S1x256_1_0_0_1_n_n
/-- The reference's score product: q (1 by 256) with the transposed A (256 by 200), second axis with first. -/
abbrev DRs := Cert.ReferenceIdeal.dot_S1x256_S256x200_S1x200_1_0_0_1_n_n
/-- The reference's weighted combination: the weights (1 by 200) with C (200 by 256), second axis with first. -/
abbrev DRc := Cert.ReferenceIdeal.dot_S1x200_S200x256_S1x256_1_0_0_1_n_n

/-- The one coordinate below 1 is 0. -/
theorem fin1_val (x : Fin 1) : (0 : ℕ) = x.val := by omega

theorem lhsKs_0 (j : Cert.KernelIdeal.S1x200.Idx) (k : DKs.contr.Idx) : (DKs.lhsIdx j k 0 : ℕ) = j 0 := by
  simp [DotDims.lhsIdx, DKs, Cert.KernelIdeal.dot_S1x256_S200x256_S1x200_1_1_0_0_n_n]
  exact fin1_val (j 0)
theorem lhsKs_1 (j : Cert.KernelIdeal.S1x200.Idx) (k : DKs.contr.Idx) : (DKs.lhsIdx j k 1 : ℕ) = k ⟨0, by decide⟩ := by
  simp [DotDims.lhsIdx, DKs, Cert.KernelIdeal.dot_S1x256_S200x256_S1x200_1_1_0_0_n_n]; rfl
theorem rhsKs_0 (j : Cert.KernelIdeal.S1x200.Idx) (k : DKs.contr.Idx) : (DKs.rhsIdx j k 0 : ℕ) = j 1 := by
  simp [DotDims.rhsIdx, DKs, Cert.KernelIdeal.dot_S1x256_S200x256_S1x200_1_1_0_0_n_n]; rfl
theorem rhsKs_1 (j : Cert.KernelIdeal.S1x200.Idx) (k : DKs.contr.Idx) : (DKs.rhsIdx j k 1 : ℕ) = k ⟨0, by decide⟩ := by
  simp [DotDims.rhsIdx, DKs, Cert.KernelIdeal.dot_S1x256_S200x256_S1x200_1_1_0_0_n_n]; rfl

theorem lhsKc_0 (j : Cert.KernelIdeal.S1x256.Idx) (k : DKc.contr.Idx) : (DKc.lhsIdx j k 0 : ℕ) = j 0 := by
  simp [DotDims.lhsIdx, DKc, Cert.KernelIdeal.dot_S1x200_S200x256_S1x256_1_0_0_1_n_n]
  exact fin1_val (j 0)
theorem lhsKc_1 (j : Cert.KernelIdeal.S1x256.Idx) (k : DKc.contr.Idx) : (DKc.lhsIdx j k 1 : ℕ) = k ⟨0, by decide⟩ := by
  simp [DotDims.lhsIdx, DKc, Cert.KernelIdeal.dot_S1x200_S200x256_S1x256_1_0_0_1_n_n]; rfl
theorem rhsKc_0 (j : Cert.KernelIdeal.S1x256.Idx) (k : DKc.contr.Idx) : (DKc.rhsIdx j k 0 : ℕ) = k ⟨0, by decide⟩ := by
  simp [DotDims.rhsIdx, DKc, Cert.KernelIdeal.dot_S1x200_S200x256_S1x256_1_0_0_1_n_n]; rfl
theorem rhsKc_1 (j : Cert.KernelIdeal.S1x256.Idx) (k : DKc.contr.Idx) : (DKc.rhsIdx j k 1 : ℕ) = j 1 := by
  simp [DotDims.rhsIdx, DKc, Cert.KernelIdeal.dot_S1x200_S200x256_S1x256_1_0_0_1_n_n]; rfl

theorem lhsRs_0 (j : Cert.ReferenceIdeal.S1x200.Idx) (k : DRs.contr.Idx) : (DRs.lhsIdx j k 0 : ℕ) = j 0 := by
  simp [DotDims.lhsIdx, DRs, Cert.ReferenceIdeal.dot_S1x256_S256x200_S1x200_1_0_0_1_n_n]
  exact fin1_val (j 0)
theorem lhsRs_1 (j : Cert.ReferenceIdeal.S1x200.Idx) (k : DRs.contr.Idx) : (DRs.lhsIdx j k 1 : ℕ) = k ⟨0, by decide⟩ := by
  simp [DotDims.lhsIdx, DRs, Cert.ReferenceIdeal.dot_S1x256_S256x200_S1x200_1_0_0_1_n_n]; rfl
theorem rhsRs_0 (j : Cert.ReferenceIdeal.S1x200.Idx) (k : DRs.contr.Idx) : (DRs.rhsIdx j k 0 : ℕ) = k ⟨0, by decide⟩ := by
  simp [DotDims.rhsIdx, DRs, Cert.ReferenceIdeal.dot_S1x256_S256x200_S1x200_1_0_0_1_n_n]; rfl
theorem rhsRs_1 (j : Cert.ReferenceIdeal.S1x200.Idx) (k : DRs.contr.Idx) : (DRs.rhsIdx j k 1 : ℕ) = j 1 := by
  simp [DotDims.rhsIdx, DRs, Cert.ReferenceIdeal.dot_S1x256_S256x200_S1x200_1_0_0_1_n_n]; rfl

theorem lhsRc_0 (j : Cert.ReferenceIdeal.S1x256.Idx) (k : DRc.contr.Idx) : (DRc.lhsIdx j k 0 : ℕ) = j 0 := by
  simp [DotDims.lhsIdx, DRc, Cert.ReferenceIdeal.dot_S1x200_S200x256_S1x256_1_0_0_1_n_n]
  exact fin1_val (j 0)
theorem lhsRc_1 (j : Cert.ReferenceIdeal.S1x256.Idx) (k : DRc.contr.Idx) : (DRc.lhsIdx j k 1 : ℕ) = k ⟨0, by decide⟩ := by
  simp [DotDims.lhsIdx, DRc, Cert.ReferenceIdeal.dot_S1x200_S200x256_S1x256_1_0_0_1_n_n]; rfl
theorem rhsRc_0 (j : Cert.ReferenceIdeal.S1x256.Idx) (k : DRc.contr.Idx) : (DRc.rhsIdx j k 0 : ℕ) = k ⟨0, by decide⟩ := by
  simp [DotDims.rhsIdx, DRc, Cert.ReferenceIdeal.dot_S1x200_S200x256_S1x256_1_0_0_1_n_n]; rfl
theorem rhsRc_1 (j : Cert.ReferenceIdeal.S1x256.Idx) (k : DRc.contr.Idx) : (DRc.rhsIdx j k 1 : ℕ) = j 1 := by
  simp [DotDims.rhsIdx, DRc, Cert.ReferenceIdeal.dot_S1x200_S200x256_S1x256_1_0_0_1_n_n]; rfl

/-- Every index of a one-entry vector is the same index. -/
theorem idxS1_eq (i j : (⟨1, ![1]⟩ : Shape).Idx) : i = j := by
  funext a
  obtain rfl : a = 0 := Subsingleton.elim _ _
  exact Subsingleton.elim (α := Fin 1) _ _

/-- The kernel's score product reads q at (row, d) … -/
theorem lhsKs_idx (p : Fin 1) (r : Fin 200) (d : Fin 256) :
    DKs.lhsIdx (ix2 p r) ((contrEquiv1 DKs 256 rfl rfl).symm d) = ix2 p d :=
  Shape.idx_ext₂ (lhsKs_0 _ _) ((lhsKs_1 _ _).trans (contrEquiv1_symm_val DKs 256 rfl rfl d))
/-- … and A at (r, d). -/
theorem rhsKs_idx (p : Fin 1) (r : Fin 200) (d : Fin 256) :
    DKs.rhsIdx (ix2 p r) ((contrEquiv1 DKs 256 rfl rfl).symm d) = ix2 r d :=
  Shape.idx_ext₂ (rhsKs_0 _ _) ((rhsKs_1 _ _).trans (contrEquiv1_symm_val DKs 256 rfl rfl d))
/-- The reference's score product reads q at (row, d) … -/
theorem lhsRs_idx (p : Fin 1) (r : Fin 200) (d : Fin 256) :
    DRs.lhsIdx (ix2 p r) ((contrEquiv1 DRs 256 rfl rfl).symm d) = ix2 p d :=
  Shape.idx_ext₂ (lhsRs_0 _ _) ((lhsRs_1 _ _).trans (contrEquiv1_symm_val DRs 256 rfl rfl d))
/-- … and the transposed A at (d, r). -/
theorem rhsRs_idx (p : Fin 1) (r : Fin 200) (d : Fin 256) :
    DRs.rhsIdx (ix2 p r) ((contrEquiv1 DRs 256 rfl rfl).symm d) = ix2 d r :=
  Shape.idx_ext₂ ((rhsRs_0 _ _).trans (contrEquiv1_symm_val DRs 256 rfl rfl d)) (rhsRs_1 _ _)
/-- The kernel's combination reads the weights at (row, r) … -/
theorem lhsKc_idx (p : Fin 1) (d : Fin 256) (r : Fin 200) :
    DKc.lhsIdx (ix2 p d) ((contrEquiv1 DKc 200 rfl rfl).symm r) = ix2 p r :=
  Shape.idx_ext₂ (lhsKc_0 _ _) ((lhsKc_1 _ _).trans (contrEquiv1_symm_val DKc 200 rfl rfl r))
/-- … and C at (r, d). -/
theorem rhsKc_idx (p : Fin 1) (d : Fin 256) (r : Fin 200) :
    DKc.rhsIdx (ix2 p d) ((contrEquiv1 DKc 200 rfl rfl).symm r) = ix2 r d :=
  Shape.idx_ext₂ ((rhsKc_0 _ _).trans (contrEquiv1_symm_val DKc 200 rfl rfl r)) (rhsKc_1 _ _)
/-- The reference's combination reads the weights at (row, r) … -/
theorem lhsRc_idx (p : Fin 1) (d : Fin 256) (r : Fin 200) :
    DRc.lhsIdx (ix2 p d) ((contrEquiv1 DRc 200 rfl rfl).symm r) = ix2 p r :=
  Shape.idx_ext₂ (lhsRc_0 _ _) ((lhsRc_1 _ _).trans (contrEquiv1_symm_val DRc 200 rfl rfl r))
/-- … and C at (r, d). -/
theorem rhsRc_idx (p : Fin 1) (d : Fin 256) (r : Fin 200) :
    DRc.rhsIdx (ix2 p d) ((contrEquiv1 DRc 200 rfl rfl).symm r) = ix2 r d :=
  Shape.idx_ext₂ ((rhsRc_0 _ _).trans (contrEquiv1_symm_val DRc 200 rfl rfl r)) (rhsRc_1 _ _)

/-! ### The two products -/

/-- The scores: the kernel's product of q with A contracted on both second axes, into zeros, is the reference's product of
    q with the transposed A. Both are, at (row, r), the sum over d of q (row, d) · A (r, d). -/
theorem scores_eq (A : FVec Ideal Cert.KernelIdeal.S200x256 .f32) (q : FVec Ideal Cert.KernelIdeal.S1x256 .f32)
    (hb : FTy.bits .bf16 < FTy.bits .f32) (ht : Cert.ReferenceIdeal.S200x256.Transposes [1, 0] Cert.ReferenceIdeal.S256x200) :
    matmul DKs none (truncf .bf16 q hb) (truncf .bf16 A hb) (constant (F := Ideal) Cert.KernelIdeal.S1x200 .f32 0x00000000#32)
      = Host.dotGeneral (F := Ideal) DRs none q (transpose Cert.ReferenceIdeal.S256x200 [1, 0] A ht) := by
  funext j
  obtain ⟨p, r, rfl⟩ : ∃ (p : Fin 1) (r : Fin 200), j = ix2 p r := ⟨j 0, j 1, eq_ix2 j⟩
  simp only [matmul, Host.dotGeneral]
  rw [Ideal.matmul_constant_zero_apply]
  rw [Ideal.dotGeneral_apply, ← Equiv.sum_comp (contrEquiv1 DKs 256 rfl rfl).symm, ← Equiv.sum_comp (contrEquiv1 DRs 256 rfl rfl).symm]
  refine Finset.sum_congr rfl fun d _ => ?_
  rw [lhsKs_idx, rhsKs_idx, lhsRs_idx, rhsRs_idx, transpose_ix2_apply]
  rfl

/-- The combination: the kernel's product of the weights with C into zeros is the reference's product. Both are, at
    (row, d), the sum over r of P (row, r) · C (r, d). -/
theorem comb_eq (P : FVec Ideal Cert.KernelIdeal.S1x200 .f32) (C : FVec Ideal Cert.KernelIdeal.S200x256 .f32)
    (hb : FTy.bits .bf16 < FTy.bits .f32) :
    matmul DKc none (truncf .bf16 P hb) (truncf .bf16 C hb) (constant (F := Ideal) Cert.KernelIdeal.S1x256 .f32 0x00000000#32)
      = Host.dotGeneral (F := Ideal) DRc none P C := by
  funext j
  obtain ⟨p, d, rfl⟩ : ∃ (p : Fin 1) (d : Fin 256), j = ix2 p d := ⟨j 0, j 1, eq_ix2 j⟩
  simp only [matmul, Host.dotGeneral]
  rw [Ideal.matmul_constant_zero_apply]
  rw [Ideal.dotGeneral_apply, ← Equiv.sum_comp (contrEquiv1 DKc 200 rfl rfl).symm, ← Equiv.sum_comp (contrEquiv1 DRc 200 rfl rfl).symm]
  refine Finset.sum_congr rfl fun r _ => ?_
  rw [lhsKc_idx, rhsKc_idx, lhsRc_idx, rhsRc_idx]
  rfl

/-! ### The row maximum, the row sum, and the keepdims column -/

/-- The row maximum from minus infinity, then the maximum with minus infinity: the kernel's lane reduction and the
    reference's host reduction fold the same row from the same value. -/
theorem rowmax_eq (s : FVec Ideal Cert.KernelIdeal.S1x200 .f32)
    (h : Cert.KernelIdeal.S1x200.Reduces [1] Cert.KernelIdeal.S1) (hφ : FKind.Formats .f32)
    (hacc : (0xFF800000#32 : BitVec (FTy.bits .f32)) = FKind.maximumf.neutral .f32 hφ)
    (h' : Cert.ReferenceIdeal.S1x200.ReducesTo [1] Cert.ReferenceIdeal.S1) (hu : 0 < Cert.ReferenceIdeal.S_.numel)
    (hb : Cert.ReferenceIdeal.S_.BroadcastsInDim Cert.ReferenceIdeal.S1 (![] : Fin 0 → Fin Cert.ReferenceIdeal.S1.rank)) :
    maximumf (broadcast Cert.KernelIdeal.S1 (Scalar.ofBits (F := Ideal) .f32 0xFF800000#32))
        (multiReduction (F := Ideal) .maximumf [1] Cert.KernelIdeal.S1 s 0xFF800000#32 h hφ hacc)
      = maximumf (broadcastInDim Cert.ReferenceIdeal.S1 ![] hb (constant (F := Ideal) Cert.ReferenceIdeal.S_ .f32 0xFF800000#32))
          (Host.reduce FloatOps.maximumf s (constant (F := Ideal) Cert.ReferenceIdeal.S_ .f32 0xFF800000#32) h' hu) := by
  funext j
  rw [maximumf_apply, maximumf_apply, Ideal.multiReduction_maximumf_single, Host.reduce_eq_fold_single (FloatOps.maximumf (F := Ideal) (φ := .f32)) s _ h' h hu j]
  rfl

/-- The row sum: the kernel's lane sum is the reference's host sum from zero. -/
theorem rowsum_eq (e : FVec Ideal Cert.KernelIdeal.S1x200 .f32)
    (h : Cert.KernelIdeal.S1x200.Reduces [1] Cert.KernelIdeal.S1) (hφ : FKind.Formats .f32)
    (hacc : (0x00000000#32 : BitVec (FTy.bits .f32)) = FKind.add.neutral .f32 hφ)
    (h' : Cert.ReferenceIdeal.S1x200.ReducesTo [1] Cert.ReferenceIdeal.S1) (hu : 0 < Cert.ReferenceIdeal.S_.numel) :
    multiReduction (F := Ideal) .add [1] Cert.KernelIdeal.S1 e 0x00000000#32 h hφ hacc
      = Host.reduceAdd (F := Ideal) e (constant (F := Ideal) Cert.ReferenceIdeal.S_ .f32 0x00000000#32) h' hu := by
  funext j
  rw [Ideal.multiReduction_add_single, hostReduceAdd_apply, Ideal.hostReduceAdd_single h' h, constant_apply,
    Ideal.ofBits_zero_f32, zero_add]

/-- The keepdims column: a one-entry vector cast to 1 by 1 and broadcast along the row is the same vector broadcast in
    two steps; both read the one entry everywhere. -/
theorem column_eq (v : FVec Ideal Cert.KernelIdeal.S1 .f32) (h1 : Cert.KernelIdeal.S1.ShapeCasts Cert.KernelIdeal.S1x1)
    (h2 : Cert.KernelIdeal.S1x1.Broadcasts Cert.KernelIdeal.S1x200)
    (h3 : Cert.ReferenceIdeal.S1.BroadcastsInDim Cert.ReferenceIdeal.S1x1 (![0] : Fin 1 → Fin Cert.ReferenceIdeal.S1x1.rank))
    (h4 : Cert.ReferenceIdeal.S1x1.BroadcastsInDim Cert.ReferenceIdeal.S1x200 (![0, 1] : Fin 2 → Fin Cert.ReferenceIdeal.S1x200.rank)) :
    broadcastTo Cert.KernelIdeal.S1x200 (shapeCast Cert.KernelIdeal.S1x1 v h1) h2
      = broadcastInDim Cert.ReferenceIdeal.S1x200 ![0, 1] h4 (broadcastInDim Cert.ReferenceIdeal.S1x1 ![0] h3 v) := by
  funext j
  unfold broadcastTo shapeCast broadcastInDim
  exact congrArg v (idxS1_eq _ _)

/-! ### One hop in the kernel's operations -/

section KernelSide
open Cert.KernelIdeal Cert.KernelIdeal.Gen

/-- The kernel's scores: q times the rows of A, into zeros. -/
def scoresK (A : FVec Ideal S200x256 .f32) (q : FVec Ideal S1x256 .f32) : FVec Ideal S1x200 .f32 :=
  matmul dot_S1x256_S200x256_S1x200_1_1_0_0_n_n none (truncf .bf16 q bitsLt_bf16_f32) (truncf .bf16 A bitsLt_bf16_f32)
    (constant S1x200 .f32 0x00000000#32)

/-- The kernel's keepdims column of a one-entry vector. -/
def colK (v : FVec Ideal S1 .f32) : FVec Ideal S1x200 .f32 :=
  broadcastTo S1x200 (shapeCast S1x1 v shapeCasts_S1_S1x1) broadcasts_S1x1_S1x200

/-- The kernel's row maximum, from minus infinity and against minus infinity. -/
def rowmaxK (s : FVec Ideal S1x200 .f32) : FVec Ideal S1 .f32 :=
  maximumf (broadcast S1 (Scalar.ofBits (F := Ideal) .f32 0xFF800000#32))
    (multiReduction .maximumf [1] S1 s 0xFF800000#32 reduces_S1x200_S1 (.inl rfl) rfl)

/-- The kernel's row sum. -/
def rowsumK (e : FVec Ideal S1x200 .f32) : FVec Ideal S1 .f32 :=
  multiReduction .add [1] S1 e 0x00000000#32 reduces_S1x200_S1 (.inl rfl) rfl

/-- The kernel's exponentials of the scores less their maximum. -/
def expK (s : FVec Ideal S1x200 .f32) : FVec Ideal S1x200 .f32 := exp (subf s (colK (rowmaxK s)))

/-- The kernel's weights: the exponentials over their sum. -/
def weightsK (e : FVec Ideal S1x200 .f32) : FVec Ideal S1x200 .f32 := divf e (colK (rowsumK e))

/-- One hop as the kernel computes it. -/
def hopK (A C : FVec Ideal S200x256 .f32) (q : FVec Ideal S1x256 .f32) : FVec Ideal S1x256 .f32 :=
  addf (matmul dot_S1x200_S200x256_S1x256_1_0_0_1_n_n none (truncf .bf16 (weightsK (expK (scoresK A q))) bitsLt_bf16_f32)
    (truncf .bf16 C bitsLt_bf16_f32) (constant S1x256 .f32 0x00000000#32)) q

/-- The first hop's payload is one hop on the sums of the accumulators and the temporal tables. -/
theorem pay5_eq_hopK (a ta c tc : FVec Ideal S200x256 .f32) (q : FVec Ideal S1x256 .f32) :
    k0_pay5 (F := Ideal) a ta c tc q = hopK (addf a ta) (addf c tc) q := rfl

/-- The stored result is the hop three times: the second hop's weights and the first hop's result come in as payloads,
    the rest of the second hop and the third are computed in the last payload. -/
theorem hops_eq_hopK (a ta c tc : FVec Ideal S200x256 .f32) (q : FVec Ideal S1x256 .f32) :
    Val.hops (F := Ideal) a ta c tc q
      = hopK (addf a ta) (addf c tc) (hopK (addf a ta) (addf c tc) (hopK (addf a ta) (addf c tc) q)) := rfl

end KernelSide

end Cert.Bridge.Hops

namespace Cert.Bridge

/-! ### One hop in the reference's operations -/

section ReferenceSide
open Cert.ReferenceIdeal Cert.ReferenceIdeal.Gen

/-- The reference's scores: q times the transposed A. -/
def Hops.scoresR (A : FVec Ideal S200x256 .f32) (q : FVec Ideal S1x256 .f32) : FVec Ideal S1x200 .f32 :=
  Host.dotGeneral dot_S1x256_S256x200_S1x200_1_0_0_1_n_n none q (transpose S256x200 [1, 0] A transposes_S200x256_S256x200_1_0)

/-- The reference's keepdims column of a one-entry vector. -/
def Hops.colR (v : FVec Ideal S1 .f32) : FVec Ideal S1x200 .f32 :=
  broadcastInDim S1x200 ![0, 1] bcast_S1x1_S1x200_0_1 (broadcastInDim S1x1 ![0] bcast_S1_S1x1_0 v)

/-- The reference's row maximum, from minus infinity and against minus infinity. -/
def Hops.rowmaxR (s : FVec Ideal S1x200 .f32) : FVec Ideal S1 .f32 :=
  maximumf (broadcastInDim S1 ![] bcast_S_S1 (constant S_ .f32 0xFF800000#32)) (Host.reduce FloatOps.maximumf s (constant S_ .f32 0xFF800000#32) reducesTo_S1x200_S1_d1 h_S_)

/-- The reference's row sum, from zero. -/
def Hops.rowsumR (e : FVec Ideal S1x200 .f32) : FVec Ideal S1 .f32 :=
  Host.reduceAdd e (constant S_ .f32 0x00000000#32) reducesTo_S1x200_S1_d1 h_S_

/-- The reference's exponentials of the scores less their maximum. -/
def Hops.expR (s : FVec Ideal S1x200 .f32) : FVec Ideal S1x200 .f32 := Host.exp (subf s (Hops.colR (Hops.rowmaxR s)))

/-- The reference's weights: the exponentials over their sum. -/
def Hops.weightsR (e : FVec Ideal S1x200 .f32) : FVec Ideal S1x200 .f32 := Host.divf e (Hops.colR (Hops.rowsumR e))

/-- One hop as the reference computes it: the weights' combination of the rows of C, plus q. -/
def hopR (A C : FVec Ideal S200x256 .f32) (q : FVec Ideal S1x256 .f32) : FVec Ideal S1x256 .f32 :=
  addf (Host.dotGeneral dot_S1x200_S200x256_S1x256_1_0_0_1_n_n none (Hops.weightsR (Hops.expR (Hops.scoresR A q))) C) q

/-- Three hops. -/
def hopsR (A C : FVec Ideal S200x256 .f32) (q : FVec Ideal S1x256 .f32) : FVec Ideal S1x256 .f32 :=
  hopR A C (hopR A C (hopR A C q))

end ReferenceSide

/-! ### The two sides are one function -/

theorem Hops.scoresK_eq (A : FVec Ideal Cert.KernelIdeal.S200x256 .f32) (q : FVec Ideal Cert.KernelIdeal.S1x256 .f32) :
    Hops.scoresK A q = Hops.scoresR A q := Hops.scores_eq A q _ _

theorem Hops.colK_eq (v : FVec Ideal Cert.KernelIdeal.S1 .f32) : Hops.colK v = Hops.colR v := Hops.column_eq v _ _ _ _

theorem Hops.rowmaxK_eq (s : FVec Ideal Cert.KernelIdeal.S1x200 .f32) : Hops.rowmaxK s = Hops.rowmaxR s :=
  Hops.rowmax_eq s _ _ _ _ _ _

theorem Hops.rowsumK_eq (e : FVec Ideal Cert.KernelIdeal.S1x200 .f32) : Hops.rowsumK e = Hops.rowsumR e :=
  Hops.rowsum_eq e _ _ _ _ _

/-- The exponential and the quotient are the same extended-real functions on the two sides. -/
theorem Hops.expK_eq (s : FVec Ideal Cert.KernelIdeal.S1x200 .f32) : Hops.expK s = Hops.expR s := by
  unfold Hops.expK Hops.expR
  rw [Hops.rowmaxK_eq, Hops.colK_eq]
  rfl

theorem Hops.weightsK_eq (e : FVec Ideal Cert.KernelIdeal.S1x200 .f32) : Hops.weightsK e = Hops.weightsR e := by
  unfold Hops.weightsK Hops.weightsR
  rw [Hops.rowsumK_eq, Hops.colK_eq]
  rfl

/-- One hop: the kernel's is the reference's. -/
theorem Hops.hop_eq (A C : FVec Ideal Cert.KernelIdeal.S200x256 .f32) (q : FVec Ideal Cert.KernelIdeal.S1x256 .f32) :
    Hops.hopK A C q = hopR A C q := by
  unfold Hops.hopK hopR
  rw [Hops.scoresK_eq, Hops.expK_eq, Hops.weightsK_eq, Hops.comb_eq]

/-- THE KERNEL'S THREE HOPS ARE THE REFERENCE'S, as one function of the accumulators, the temporal tables and the query. -/
theorem hops_eq (a ta c tc : FVec Ideal Cert.KernelIdeal.S200x256 .f32) (q : FVec Ideal Cert.KernelIdeal.S1x256 .f32) :
    Cert.KernelIdeal.Val.hops (F := Ideal) a ta c tc q = hopsR (addf a ta) (addf c tc) q := by
  rw [Hops.hops_eq_hopK, Hops.hop_eq, Hops.hop_eq, Hops.hop_eq]
  rfl

/-- The reference's query after its three hops, as its run states it, is the three hops on its two memory tables and its
    embedded question. -/
theorem ref_hops (V0 : Valuation Cert.ReferenceIdeal.τ Cert.ReferenceIdeal.sig (Elt Ideal)) :
    addf (Host.dotGeneral (F := Ideal) (φ₁ := .f32) (φ₂ := .f32) Cert.ReferenceIdeal.dot_S1x200_S200x256_S1x256_1_0_0_1_n_n none
        (Host.divf (F := Ideal) (φ := .f32) (Cert.ReferenceIdeal.Value.res_main_v46 V0)
          (broadcastInDim Cert.ReferenceIdeal.S1x200 ![0, 1] Cert.ReferenceIdeal.Gen.bcast_S1x1_S1x200_0_1
            (broadcastInDim Cert.ReferenceIdeal.S1x1 ![0] Cert.ReferenceIdeal.Gen.bcast_S1_S1x1_0
              (Host.reduceAdd (F := Ideal) (φ := .f32) (Cert.ReferenceIdeal.Value.res_main_v46 V0)
                (constant (F := Ideal) Cert.ReferenceIdeal.S_ .f32 0x00000000#32)
                Cert.ReferenceIdeal.Gen.reducesTo_S1x200_S1_d1 Cert.ReferenceIdeal.Gen.h_S_))))
        (Cert.ReferenceIdeal.Value.res_main_v7 V0)) (Cert.ReferenceIdeal.Value.res_main_v37 V0)
      = hopsR (Cert.ReferenceIdeal.Value.res_main_v4 V0) (Cert.ReferenceIdeal.Value.res_main_v7 V0)
          (Cert.ReferenceIdeal.Value.res_main_v1 V0) := rfl

end Cert.Bridge

end
-- ==== Proof.BrDec.lean ====
/-
  The decoder read tile by tile is the reference's last contraction: entry (0, v) of the kernel's result is the sum over
  the 256 features of the question's final state times row v of the output embedding, row v being found in tile
  v / 12800 at offset v % 12800; the reference's dot_general of that state with the transposed embedding is the same sum.
-/
import proofs.«115764_j28621662061019_1_alg».proof.Proof.KI.ValDefs
import proofs.«115764_j28621662061019_1_alg».proof.Proof.RefRun
import Idealize.ShloMosaic.PureOps.Ideal.Laws
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx

/-! ## The kernel's product of a row by a tile of rows: the operand indices -/

/-- The row operand is read at the result's row. -/
theorem kdec_lhs_0 (j : Cert.KernelIdeal.S1x12800.Idx) (k : Cert.KernelIdeal.dot_S1x256_S12800x256_S1x12800_1_1_0_0_n_n.contr.Idx) :
    (Cert.KernelIdeal.dot_S1x256_S12800x256_S1x12800_1_1_0_0_n_n.lhsIdx j k 0).val = (j 0).val := by
  simp [DotDims.lhsIdx, Cert.KernelIdeal.dot_S1x256_S12800x256_S1x12800_1_1_0_0_n_n]
  have := idx2_lt0 j; omega

/-- The row operand is read at the contracted feature. -/
theorem kdec_lhs_1 (j : Cert.KernelIdeal.S1x12800.Idx) (k : Cert.KernelIdeal.dot_S1x256_S12800x256_S1x12800_1_1_0_0_n_n.contr.Idx) :
    (Cert.KernelIdeal.dot_S1x256_S12800x256_S1x12800_1_1_0_0_n_n.lhsIdx j k 1).val = (k ⟨0, by decide⟩).val :=
  DotDims.lhsIdx_val_of_single _ rfl j k

/-- The tile operand is read at the row the result's column names. -/
theorem kdec_rhs_0 (j : Cert.KernelIdeal.S1x12800.Idx) (k : Cert.KernelIdeal.dot_S1x256_S12800x256_S1x12800_1_1_0_0_n_n.contr.Idx) :
    (Cert.KernelIdeal.dot_S1x256_S12800x256_S1x12800_1_1_0_0_n_n.rhsIdx j k 0).val = (j 1).val := by
  simp [DotDims.rhsIdx, Cert.KernelIdeal.dot_S1x256_S12800x256_S1x12800_1_1_0_0_n_n]; rfl

/-- The tile operand is read at the contracted feature. -/
theorem kdec_rhs_1 (j : Cert.KernelIdeal.S1x12800.Idx) (k : Cert.KernelIdeal.dot_S1x256_S12800x256_S1x12800_1_1_0_0_n_n.contr.Idx) :
    (Cert.KernelIdeal.dot_S1x256_S12800x256_S1x12800_1_1_0_0_n_n.rhsIdx j k 1).val = (k ⟨0, by decide⟩).val :=
  DotDims.rhsIdx_val_of_single _ rfl j k

/-! ## The reference's product of a row by a matrix: the operand indices -/

/-- The row operand is read at the result's row. -/
theorem rdec_lhs_0 (j : Cert.ReferenceIdeal.S1x128000.Idx) (k : Cert.ReferenceIdeal.dot_S1x256_S256x128000_S1x128000_1_0_0_1_n_n.contr.Idx) :
    (Cert.ReferenceIdeal.dot_S1x256_S256x128000_S1x128000_1_0_0_1_n_n.lhsIdx j k 0).val = (j 0).val := by
  simp [DotDims.lhsIdx, Cert.ReferenceIdeal.dot_S1x256_S256x128000_S1x128000_1_0_0_1_n_n]
  have := idx2_lt0 j; omega

/-- The row operand is read at the contracted feature. -/
theorem rdec_lhs_1 (j : Cert.ReferenceIdeal.S1x128000.Idx) (k : Cert.ReferenceIdeal.dot_S1x256_S256x128000_S1x128000_1_0_0_1_n_n.contr.Idx) :
    (Cert.ReferenceIdeal.dot_S1x256_S256x128000_S1x128000_1_0_0_1_n_n.lhsIdx j k 1).val = (k ⟨0, by decide⟩).val :=
  DotDims.lhsIdx_val_of_single _ rfl j k

/-- The matrix operand is read at the contracted feature. -/
theorem rdec_rhs_0 (j : Cert.ReferenceIdeal.S1x128000.Idx) (k : Cert.ReferenceIdeal.dot_S1x256_S256x128000_S1x128000_1_0_0_1_n_n.contr.Idx) :
    (Cert.ReferenceIdeal.dot_S1x256_S256x128000_S1x128000_1_0_0_1_n_n.rhsIdx j k 0).val = (k ⟨0, by decide⟩).val :=
  DotDims.rhsIdx_val_of_single _ rfl j k

/-- The matrix operand is read at the result's column. -/
theorem rdec_rhs_1 (j : Cert.ReferenceIdeal.S1x128000.Idx) (k : Cert.ReferenceIdeal.dot_S1x256_S256x128000_S1x128000_1_0_0_1_n_n.contr.Idx) :
    (Cert.ReferenceIdeal.dot_S1x256_S256x128000_S1x128000_1_0_0_1_n_n.rhsIdx j k 1).val = (j 1).val := by
  simp [DotDims.rhsIdx, Cert.ReferenceIdeal.dot_S1x256_S256x128000_S1x128000_1_0_0_1_n_n]; rfl

/-! ## Each side at an index -/

/-- The kernel's product of a row by a tile of rows, at column r: the sum over the 256 features of the row's entry
    times the tile's entry in row r. -/
theorem k1_pay1_apply (qd : FVec Ideal Cert.KernelIdeal.S1x256 .f32) (t : FVec Ideal Cert.KernelIdeal.S12800x256 .f32) (r : Fin 12800) :
    Cert.KernelIdeal.Gen.k1_pay1 (F := Ideal) qd t (ix2 0 r) = ∑ d : Fin 256, qd (ix2 0 d) * t (ix2 r d) := by
  unfold Cert.KernelIdeal.Gen.k1_pay1
  simp only [matmul]
  rw [Ideal.matmul_constant_zero_apply,
    ← Equiv.sum_comp (contrEquiv1 Cert.KernelIdeal.dot_S1x256_S12800x256_S1x12800_1_1_0_0_n_n 256 rfl rfl).symm]
  refine Finset.sum_congr rfl fun d _ => ?_
  have hk := contrEquiv1_symm_val Cert.KernelIdeal.dot_S1x256_S12800x256_S1x12800_1_1_0_0_n_n 256 rfl rfl d
  have hl : Cert.KernelIdeal.dot_S1x256_S12800x256_S1x12800_1_1_0_0_n_n.lhsIdx (ix2 0 r)
      ((contrEquiv1 Cert.KernelIdeal.dot_S1x256_S12800x256_S1x12800_1_1_0_0_n_n 256 rfl rfl).symm d) = ix2 0 d := by
    funext ax; apply Fin.ext
    match ax with
    | ⟨0, _⟩ => exact kdec_lhs_0 _ _
    | ⟨1, _⟩ => exact (kdec_lhs_1 _ _).trans hk
  have hr : Cert.KernelIdeal.dot_S1x256_S12800x256_S1x12800_1_1_0_0_n_n.rhsIdx (ix2 0 r)
      ((contrEquiv1 Cert.KernelIdeal.dot_S1x256_S12800x256_S1x12800_1_1_0_0_n_n 256 rfl rfl).symm d) = ix2 r d := by
    funext ax; apply Fin.ext
    match ax with
    | ⟨0, _⟩ => exact kdec_rhs_0 _ _
    | ⟨1, _⟩ => exact (kdec_rhs_1 _ _).trans hk
  rw [hl, hr, truncf_apply, truncf_apply, shapeCast_self]

/-- The reference's product of a row by the transposed embedding, at column v: the sum over the 256 features of the
    row's entry times the embedding's entry in row v. -/
theorem refdec_apply (qd : FVec Ideal Cert.ReferenceIdeal.S1x256 .f32) (wout : FVec Ideal Cert.ReferenceIdeal.S128000x256 .f32) (v : Fin 128000) :
    Host.dotGeneral (F := Ideal) Cert.ReferenceIdeal.dot_S1x256_S256x128000_S1x128000_1_0_0_1_n_n none qd
        (transpose Cert.ReferenceIdeal.S256x128000 [1, 0] wout Cert.ReferenceIdeal.Facts₀.transposes_S128000x256_S256x128000_1_0) (ix2 0 v)
      = ∑ d : Fin 256, qd (ix2 0 d) * wout (ix2 v d) := by
  show FloatOps.dotGeneral _ none _ qd _ (ix2 0 v) = _
  rw [Ideal.dotGeneral_apply,
    ← Equiv.sum_comp (contrEquiv1 Cert.ReferenceIdeal.dot_S1x256_S256x128000_S1x128000_1_0_0_1_n_n 256 rfl rfl).symm]
  refine Finset.sum_congr rfl fun d _ => ?_
  have hk := contrEquiv1_symm_val Cert.ReferenceIdeal.dot_S1x256_S256x128000_S1x128000_1_0_0_1_n_n 256 rfl rfl d
  have hl : Cert.ReferenceIdeal.dot_S1x256_S256x128000_S1x128000_1_0_0_1_n_n.lhsIdx (ix2 0 v)
      ((contrEquiv1 Cert.ReferenceIdeal.dot_S1x256_S256x128000_S1x128000_1_0_0_1_n_n 256 rfl rfl).symm d) = ix2 0 d := by
    funext ax; apply Fin.ext
    match ax with
    | ⟨0, _⟩ => exact rdec_lhs_0 _ _
    | ⟨1, _⟩ => exact (rdec_lhs_1 _ _).trans hk
  have hr : Cert.ReferenceIdeal.dot_S1x256_S256x128000_S1x128000_1_0_0_1_n_n.rhsIdx (ix2 0 v)
      ((contrEquiv1 Cert.ReferenceIdeal.dot_S1x256_S256x128000_S1x128000_1_0_0_1_n_n 256 rfl rfl).symm d) = ix2 d v := by
    funext ax; apply Fin.ext
    match ax with
    | ⟨0, _⟩ => exact (rdec_rhs_0 _ _).trans hk
    | ⟨1, _⟩ => exact rdec_rhs_1 _ _
  rw [hl, hr, transpose_ix2_apply]

/-! ## The decoder, tile by tile, is the reference's contraction -/

/-- Row v of the embedding lies in tile v / 12800 at offset v % 12800. -/
theorem rowTile_div_mod (wout : FVec Ideal Cert.KernelIdeal.S128000x256 .f32) (v : Fin 128000) (d : Fin 256) :
    Cert.KernelIdeal.Val.rowTile (F := Ideal) wout (v.val / 12800) (ix2 ⟨v.val % 12800, Nat.mod_lt _ (by decide)⟩ d) = wout (ix2 v d) :=
  congrArg (fun a => wout (ix2 a d)) (Fin.ext (by
    show (12800 * (v.val / 12800) + v.val % 12800) % 128000 = v.val
    have := v.isLt; omega))

/-- The decoder read tile by tile is the reference's last contraction. -/
theorem decK_eq (qd : FVec Ideal Cert.KernelIdeal.S1x256 .f32) (wout : FVec Ideal Cert.KernelIdeal.S128000x256 .f32) :
    Cert.KernelIdeal.Val.decK (F := Ideal) qd wout
      = Host.dotGeneral (F := Ideal) Cert.ReferenceIdeal.dot_S1x256_S256x128000_S1x128000_1_0_0_1_n_n none qd
          (transpose Cert.ReferenceIdeal.S256x128000 [1, 0] wout Cert.ReferenceIdeal.Facts₀.transposes_S128000x256_S256x128000_1_0) := by
  funext j
  obtain ⟨p, v, rfl⟩ : ∃ (p : Fin 1) (v : Fin 128000), j = ix2 p v := ⟨j 0, j 1, eq_ix2 j⟩
  obtain rfl : p = 0 := Subsingleton.elim _ _
  rw [refdec_apply]
  show Cert.KernelIdeal.Gen.k1_pay1 (F := Ideal) qd (Cert.KernelIdeal.Val.rowTile (F := Ideal) wout (v.val / 12800))
      (ix2 0 ⟨v.val % 12800, Nat.mod_lt _ (by decide)⟩) = _
  rw [k1_pay1_apply]
  exact Finset.sum_congr rfl fun d _ => by rw [rowTile_div_mod]

end Cert.Bridge

end
-- ==== Proof.Algebraic.lean ====
/-
  The two programs at the ideal values end with equal results. The kernel's result array is the decoder's whole-array
  function of the first region's result and the output embedding; the first region's result is the three memory hops on
  the three accumulators after forty tiles; each accumulator is the reference's product with a transposed embedding, the
  hops are the reference's three hops, and the decoder is the reference's last product. The reference's run states its
  result as that same term of its eight argument arrays, which agree with the kernel's.
-/
import proofs.«115764_j28621662061019_1_alg».proof.Defs
import proofs.«115764_j28621662061019_1_alg».proof.Proof.Gen.KernelIdeal
import proofs.«115764_j28621662061019_1_alg».proof.Proof.Gen.ReferenceIdeal
import proofs.«115764_j28621662061019_1_alg».proof.Proof.Gen.Pre_finite_inputs
import proofs.«115764_j28621662061019_1_alg».proof.Proof.KI.Frame
import proofs.«115764_j28621662061019_1_alg».proof.Proof.KI.EncValue
import proofs.«115764_j28621662061019_1_alg».proof.Proof.KI.DecValue
import proofs.«115764_j28621662061019_1_alg».proof.Proof.BrAcc
import proofs.«115764_j28621662061019_1_alg».proof.Proof.BrHops
import proofs.«115764_j28621662061019_1_alg».proof.Proof.BrDec
import proofs.«115764_j28621662061019_1_alg».proof.Proof.RefRun
import Idealize.ShloMosaic.Lib.StableHlo.Run

set_option maxRecDepth 16384

noncomputable section

namespace Cert.Bridge

open Idealize.ShloMosaic Idealize.ShloMosaic.TcCoe Idealize.SL.Sem Idealize.ShloMosaic.StableHlo

/-! ## The kernel's result as one function of its eight argument arrays -/

/-- The kernel's result array: the decoder on the first region's result — the three hops on the accumulators after forty
    tiles — and the output embedding, as launched. -/
theorem kernel_result (m : (ℓ : Loc Cert.KernelIdeal.nD Cert.KernelIdeal.τ Cert.KernelIdeal.sig) → Buf (Elt Ideal) ℓ) (c : Dev Cert.KernelIdeal.nD) :
    Cert.KernelIdeal.Run.X1 (F := Ideal) m c
      = Cert.KernelIdeal.Val.decK (F := Ideal)
          (Cert.KernelIdeal.Val.encK (F := Ideal)
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
            (m ((c.tc : Thread Cert.KernelIdeal.nD Cert.KernelIdeal.τ).loc Cert.KernelIdeal.main_arg2))
            (m ((c.tc : Thread Cert.KernelIdeal.nD Cert.KernelIdeal.τ).loc Cert.KernelIdeal.main_arg3))
            (m ((c.tc : Thread Cert.KernelIdeal.nD Cert.KernelIdeal.τ).loc Cert.KernelIdeal.main_arg4))
            (m ((c.tc : Thread Cert.KernelIdeal.nD Cert.KernelIdeal.τ).loc Cert.KernelIdeal.main_arg6))
            (m ((c.tc : Thread Cert.KernelIdeal.nD Cert.KernelIdeal.τ).loc Cert.KernelIdeal.main_arg7)))
          (m ((c.tc : Thread Cert.KernelIdeal.nD Cert.KernelIdeal.τ).loc Cert.KernelIdeal.main_arg5)) := by
  unfold Cert.KernelIdeal.Run.X1
  rw [Cert.KernelIdeal.Dec.dec_result]
  have h0 : Cert.KernelIdeal.Run.VE1 m c Cert.KernelIdeal.main_v0 = Cert.KernelIdeal.Run.X0 m c :=
    Function.update_self (β := fun b : DevRef Cert.KernelIdeal.τ Cert.KernelIdeal.sig => b.ty.Contents (Elt Ideal))
      (Proc.devRef .tc Cert.KernelIdeal.main_v0) (Cert.KernelIdeal.Run.X0 m c) (Cert.KernelIdeal.Gen.V0 m c)
  have h5 : Cert.KernelIdeal.Run.VE1 m c Cert.KernelIdeal.main_arg5 = m ((c.tc : Thread Cert.KernelIdeal.nD Cert.KernelIdeal.τ).loc Cert.KernelIdeal.main_arg5) :=
    Function.update_of_ne (StableHlo.devRef_ne_of_ne (by decide)) _ _
  rw [h0, h5]
  unfold Cert.KernelIdeal.Run.X0
  rw [Cert.KernelIdeal.Enc.enc_result]

/-! ## The kernel's function is the reference's term -/

/-- The decoder on the three hops on the three accumulators is the reference's last product, of its three hops on its two
    memory tables and its embedded question, with the transposed output embedding. -/
theorem kernel_value_eq (q : FVec Ideal Cert.KernelIdeal.S1x128000 .f32) (mem : FVec Ideal Cert.KernelIdeal.S200x128000 .f32)
    (wa wb wc : FVec Ideal Cert.KernelIdeal.S256x128000 .f32) (wout : FVec Ideal Cert.KernelIdeal.S128000x256 .f32)
    (ta tc : FVec Ideal Cert.KernelIdeal.S200x256 .f32) :
    Cert.KernelIdeal.Val.decK (F := Ideal) (Cert.KernelIdeal.Val.encK (F := Ideal) q mem wa wb wc ta tc) wout
      = Host.dotGeneral (F := Ideal) Cert.ReferenceIdeal.dot_S1x256_S256x128000_S1x128000_1_0_0_1_n_n none
          (hopsR
            (addf (Host.dotGeneral (F := Ideal) Cert.ReferenceIdeal.dot_S200x128000_S128000x256_S200x256_1_0_0_1_n_n none mem
              (transpose Cert.ReferenceIdeal.S128000x256 [1, 0] wa Cert.ReferenceIdeal.Facts₀.transposes_S256x128000_S128000x256_1_0)) ta)
            (addf (Host.dotGeneral (F := Ideal) Cert.ReferenceIdeal.dot_S200x128000_S128000x256_S200x256_1_0_0_1_n_n none mem
              (transpose Cert.ReferenceIdeal.S128000x256 [1, 0] wc Cert.ReferenceIdeal.Facts₀.transposes_S256x128000_S128000x256_1_0)) tc)
            (Host.dotGeneral (F := Ideal) Cert.ReferenceIdeal.dot_S1x128000_S128000x256_S1x256_1_0_0_1_n_n none q
              (transpose Cert.ReferenceIdeal.S128000x256 [1, 0] wb Cert.ReferenceIdeal.Facts₀.transposes_S256x128000_S128000x256_1_0)))
          (transpose Cert.ReferenceIdeal.S256x128000 [1, 0] wout Cert.ReferenceIdeal.Facts₀.transposes_S128000x256_S256x128000_1_0) := by
  rw [decK_eq]
  unfold Cert.KernelIdeal.Val.encK
  rw [hops_eq, accA_eq, accC_eq, accQ_eq]

/-- The reference's result, as its run states it with the three hops named, is the kernel's function of the reference's
    own eight argument arrays. -/
theorem reference_value_eq (V0 : Valuation Cert.ReferenceIdeal.τ Cert.ReferenceIdeal.sig (Elt Ideal)) :
    Host.dotGeneral (F := Ideal) (φ₁ := .f32) (φ₂ := .f32) Cert.ReferenceIdeal.dot_S1x256_S256x128000_S1x128000_1_0_0_1_n_n none
        (hopsR (Cert.ReferenceIdeal.Value.res_main_v4 V0) (Cert.ReferenceIdeal.Value.res_main_v7 V0) (Cert.ReferenceIdeal.Value.res_main_v1 V0))
        (transpose Cert.ReferenceIdeal.S256x128000 [1, 0] (V0 (Proc.devRef .tc Cert.ReferenceIdeal.main_arg5)) Cert.ReferenceIdeal.Facts₀.transposes_S128000x256_S256x128000_1_0)
      = Cert.KernelIdeal.Val.decK (F := Ideal)
          (Cert.KernelIdeal.Val.encK (F := Ideal)
            (V0 (Proc.devRef .tc Cert.ReferenceIdeal.main_arg0)) (V0 (Proc.devRef .tc Cert.ReferenceIdeal.main_arg1))
            (V0 (Proc.devRef .tc Cert.ReferenceIdeal.main_arg2)) (V0 (Proc.devRef .tc Cert.ReferenceIdeal.main_arg3))
            (V0 (Proc.devRef .tc Cert.ReferenceIdeal.main_arg4)) (V0 (Proc.devRef .tc Cert.ReferenceIdeal.main_arg6))
            (V0 (Proc.devRef .tc Cert.ReferenceIdeal.main_arg7)))
          (V0 (Proc.devRef .tc Cert.ReferenceIdeal.main_arg5)) := by
  rw [kernel_value_eq]
  unfold Cert.ReferenceIdeal.Value.res_main_v4 Cert.ReferenceIdeal.Value.res_main_v7 Cert.ReferenceIdeal.Value.res_main_v1
  rfl

/-! ## The two results are equal -/

/-- From memories agreeing on the eight arguments, the reference's result is the kernel's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Host.dotGeneral (F := Ideal) (φ₁ := .f32) (φ₂ := .f32) Cert.ReferenceIdeal.dot_S1x256_S256x128000_S1x128000_1_0_0_1_n_n none
        (hopsR (Cert.ReferenceIdeal.Value.res_main_v4 (launchContents m' c)) (Cert.ReferenceIdeal.Value.res_main_v7 (launchContents m' c))
          (Cert.ReferenceIdeal.Value.res_main_v1 (launchContents m' c)))
        (transpose Cert.ReferenceIdeal.S256x128000 [1, 0] (launchContents m' c (Proc.devRef .tc Cert.ReferenceIdeal.main_arg5)) Cert.ReferenceIdeal.Facts₀.transposes_S128000x256_S256x128000_1_0)
      = Cert.KernelIdeal.Run.X1 (F := Ideal) m c := by
  obtain ⟨h0, h1, h2, h3, h4, h5, h6, h7⟩ := hagree
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  have e6 : launchContents m' c (Proc.devRef .tc Cert.ReferenceIdeal.main_arg6) = m ((c.tc : Thread Cert.KernelIdeal.nD Cert.KernelIdeal.τ).loc Cert.KernelIdeal.main_arg6) := h6
  have e7 : launchContents m' c (Proc.devRef .tc Cert.ReferenceIdeal.main_arg7) = m ((c.tc : Thread Cert.KernelIdeal.nD Cert.KernelIdeal.τ).loc Cert.KernelIdeal.main_arg7) := h7
  rw [kernel_result, reference_value_eq, e0, e1, e2, e3, e4, e5, e6, e7]

end Cert.Bridge

namespace Cert.Proof.Alg

open Idealize.ShloMosaic Idealize.SL.Sem

/-- The two programs at the ideal values, from memories agreeing on the arguments, both run and end with equal results
    and unchanged arguments. -/
theorem algebraic : Cert.algebraic_KernelIdeal_ReferenceIdeal :=
  fun m ρ m' ρ' _ hagree => ⟨fun c => Cert.KernelIdeal.Run.X1 (F := Ideal) m c, Cert.KernelIdeal.Run.run_val (F := Ideal) m ρ,
    (θ_run Cert.ReferenceIdeal.defs _ _).mono
      (fun _ h c => ⟨(h c).1.trans (Cert.Bridge.result_eq m m' c (hagree c)), (h c).2⟩)
      (Cert.ReferenceIdeal.Value.run (F := Ideal) m' ρ')⟩

end Cert.Proof.Alg

end
-- ==== Proof.lean ====
/-
  The certificate's claim. The kernel program runs two regions. The first accumulates, over forty column tiles of 3200,
  the three products memory·WAᵀ, memory·WCᵀ and question·WBᵀ in scratch buffers carried from tile to tile, and at the last
  tile adds the temporal tables and performs three memory hops (scores = q·Aᵀ, a softmax over the 200 slots, q ← P·C + q),
  storing the 256 results once; the second multiplies that row with the output embedding, ten row tiles of 12800.
  * The three frames: each region's frame is proved from its body's runs (per case of the body for the first region, the
    accumulators' contents carried by the region invariant), the two are joined by the conditional frame of the program's
    two items; the reference's frame is its run with the result dropped.
  * preserves: the idealization rewrote nothing, the statement is `True`.
  * algebraic: at the ideal instance the first region's result is the hops applied to the finished accumulators, the
    accumulation over the tiles is the whole contraction over 128000 (a finite sum reindexed), each hop is the reference's
    hop (the same sums, the same maximum, exponentials and quotient), and the decoder read tile by tile is the reference's
    last product; so the two programs' result arrays are one function of the arguments.
-/
import proofs.«115764_j28621662061019_1_alg».proof.Defs
import proofs.«115764_j28621662061019_1_alg».proof.Proof.Gen.Kernel
import proofs.«115764_j28621662061019_1_alg».proof.Proof.Gen.KernelIdeal
import proofs.«115764_j28621662061019_1_alg».proof.Proof.Gen.ReferenceIdeal
import proofs.«115764_j28621662061019_1_alg».proof.Proof.Gen.Pre_finite_inputs
import proofs.«115764_j28621662061019_1_alg».proof.Proof.K.Frame
import proofs.«115764_j28621662061019_1_alg».proof.Proof.KI.Frame
import proofs.«115764_j28621662061019_1_alg».proof.Proof.RefRun
import proofs.«115764_j28621662061019_1_alg».proof.Proof.Algebraic

noncomputable section

namespace Cert.Proof

open Idealize.ShloMosaic Idealize.SL.Sem

theorem frame_kernel : Cert.frame_Kernel := fun m ρ _ => Cert.Kernel.Run.frame m ρ

theorem frame_kernelIdeal : Cert.frame_KernelIdeal := fun m ρ _ => Cert.KernelIdeal.Run.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Alg.algebraic⟩

end Cert.Proof

end
